-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S64 : Shape := ⟨1, ![64]⟩
abbrev S64x64 : Shape := ⟨2, ![64, 64]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg0 : IVec S2097152x4 32) (main_v13 : IVec S_ 1) (main_v15 : IVec S2097152x4 1) (main_c_5 : IVec S_ 32) : IVec S_ 1 :=
  let main_v16 : IVec S2097152x4 32 := broadcastInDim S2097152x4 ![] bcast_S_S2097152x4 main_c_5
  let main_v17 : IVec S2097152x4 1 := cmpi .slt main_arg0 main_v16
  let main_v18 : IVec S2097152x4 1 := andi main_v15 main_v17
  let main_c_6 : IVec S_ 1 := constantI S_ 1 1#1
  let main_v19 : IVec S_ 1 := (fun x v => Host.reduce IntOp.andi x v reducesTo_S2097152x4_S_d0_1 h_S_) main_v18 main_c_6
  let main_v20 : IVec S_ 1 := andi main_v13 main_v19
  main_v20

def fn {F : FTy → Type} [FloatOps F] (main_arg0 : IVec S2097152x4 32) (main_arg1 : FVec F S2097152x4 .f32) (main_arg2 : FVec F S64 .f32) (main_arg3 : FVec F S64x64 .f32) : IVec S_ 1 :=
  let main_v0 : FVec F S2097152x4 .f32 := Host.absf main_arg1
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_c_4 : IVec S_ 32 := constantI S_ 32 0#32
  let main_v14 : IVec S2097152x4 32 := broadcastInDim S2097152x4 ![] bcast_S_S2097152x4 main_c_4
  let main_v15 : IVec S2097152x4 1 := cmpi .sge main_arg0 main_v14
  let main_c_5 : IVec S_ 32 := constantI S_ 32 64#32
  fn_part1 (F := F) main_arg0 main_v13 main_v15 main_c_5
-- ==== Kernel.lean ====
abbrev S2097152x4 : Shape := ⟨2, ![2097152, 4]⟩
abbrev S64 : Shape := ⟨1, ![64]⟩
abbrev S64x64 : Shape := ⟨2, ![64, 64]⟩
abbrev S4x2097152 : Shape := ⟨2, ![4, 2097152]⟩
abbrev S2x64x1 : Shape := ⟨3, ![2, 64, 1]⟩
abbrev S2x64x64 : Shape := ⟨3, ![2, 64, 64]⟩
abbrev S4x8192 : Shape := ⟨2, ![4, 8192]⟩
abbrev S1x64x1 : Shape := ⟨3, ![1, 64, 1]⟩
abbrev S1x64x64 : Shape := ⟨3, ![1, 64, 64]⟩
abbrev S64x1 : Shape := ⟨2, ![64, 1]⟩
abbrev S1x8192 : Shape := ⟨2, ![1, 8192]⟩
abbrev S64x8192 : Shape := ⟨2, ![64, 8192]⟩
abbrev S_ : Shape := ⟨0, ![]⟩

abbrev nBuf : Space → Nat
  | .hbm => 37
  | .vmem => 8
  | .smem => 0
  | _ => 0

abbrev bufTy : (tb : Table) → Fin (tcTables nBuf tb) → BufTy
  | .hbm, ⟨0, _⟩ => ⟨S2097152x4, .i32⟩
  | .hbm, ⟨1, _⟩ => ⟨S2097152x4, .f32⟩
  | .hbm, ⟨2, _⟩ => ⟨S64, .f32⟩
  | .hbm, ⟨3, _⟩ => ⟨S64x64, .f32⟩
  | .hbm, ⟨4, _⟩ => ⟨S4x2097152, .i32⟩
  | .hbm, ⟨5, _⟩ => ⟨S2x64x1, .f32⟩
  | .hbm, ⟨6, _⟩ => ⟨S2x64x64, .f32⟩
  | .hbm, ⟨7, _⟩ => ⟨S_, .f32⟩
  | .hbm, ⟨8, _⟩ => ⟨S64x1, .f32⟩
  | .hbm, ⟨9, _⟩ => ⟨S64, .f32⟩
  | .hbm, ⟨10, _⟩ => ⟨S_, .f32⟩
  | .hbm, ⟨11, _⟩ => ⟨S64x64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64x64, .f32⟩
  | .hbm, ⟨23, _⟩ => ⟨S_, .f32⟩
  | .hbm, ⟨24, _⟩ => ⟨S64, .f32⟩
  | .hbm, ⟨25, _⟩ => ⟨S64x64, .i32⟩
  | .hbm, ⟨26, _⟩ => ⟨S64x64, .i32⟩
  | .hbm, ⟨27, _⟩ => ⟨S_, .i32⟩
  | .hbm, ⟨28, _⟩ => ⟨S64x64, .i32⟩
  | .hbm, ⟨29, _⟩ => ⟨S64x64, .i32⟩
  | .hbm, ⟨30, _⟩ => ⟨S64x64, .i1⟩
  | .hbm, ⟨31, _⟩ => ⟨S64x1, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .local _ .vmem, ⟨0, _⟩ => ⟨S4x8192, .i32⟩
  | .local _ .vmem, ⟨1, _⟩ => ⟨S4x8192, .i32⟩
  | .local _ .vmem, ⟨2, _⟩ => ⟨S1x64x1, .f32⟩
  | .local _ .vmem, ⟨3, _⟩ => ⟨S1x64x1, .f32⟩
  | .local _ .vmem, ⟨4, _⟩ => ⟨S1x64x64, .f32⟩
  | .local _ .vmem, ⟨5, _⟩ => ⟨S1x64x64, .f32⟩
  | .local _ .vmem, ⟨6, _⟩ => ⟨S64x1, .f32⟩
  | .local _ .vmem, ⟨7, _⟩ => ⟨S64x64, .f32⟩
  | _, _ => ⟨S2097152x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_c : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_0 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v13 : Ref sig .tc := ⟨.hbm, 35, rfl⟩
abbrev main_v14 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v51 : BitVec 1 := Scalar.cmpi .eq arg1 c127_i32
  let v52 : BitVec 32 := Scalar.extui v51
  let c0_i32_11 : BitVec 32 := 0#32
  let v53 : BitVec 1 := Scalar.cmpi .ne v52 c0_i32_11
  v53

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S2097152x4_S4x2097152_1_0 : S2097152x4.Transposes [1, 0] S4x2097152
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  iota_S64x1_d0_w32 : S64x1.Iotas .tc 32 [0]
  slices_S4x8192_o0_0_S1x8192 : S4x8192.Slices ![0, 0] S1x8192
  broadcasts_S1x8192_S64x8192 : S1x8192.Broadcasts S64x8192
  broadcasts_S64x1_S64x8192 : S64x1.Broadcasts S64x8192
  natLt_1_32 : 1 < 32
  bitsLt_bf16_f32 : FTy.bits .bf16 < FTy.bits .f32
  slices_S4x8192_o1_0_S1x8192 : S4x8192.Slices ![1, 0] S1x8192
  slices_S4x8192_o2_0_S1x8192 : S4x8192.Slices ![2, 0] S1x8192
  slices_S4x8192_o3_0_S1x8192 : S4x8192.Slices ![3, 0] S1x8192
  reduces_S64x8192_S64 : S64x8192.Reduces [1] S64
  shapeCasts_S64_S64x1 : S64.ShapeCasts S64x1
  shapeCasts_S64x1_S1x64x1 : S64x1.ShapeCasts S1x64x1
  inb_S1x64x1_S1x64x1_0_0_0 : ∀ a, (![0, 0, 0] : Fin 3 → Nat) a + S1x64x1.size a ≤ S1x64x1.size a
  h_S1x64x1 : 0 < S1x64x1.numel
  shapeCasts_S64x64_S1x64x64 : S64x64.ShapeCasts S1x64x64
  inb_S1x64x64_S1x64x64_0_0_0 : ∀ a, (![0, 0, 0] : Fin 3 → Nat) a + S1x64x64.size a ≤ S1x64x64.size a
  h_S1x64x64 : 0 < S1x64x64.numel
  reducesTo_S2x64x1_S64x1_d0 : S2x64x1.ReducesTo [0] S64x1
  h_S_ : 0 < S_.numel
  shapeCasts_S64x1_S64 : S64x1.ShapeCasts S64
  reducesTo_S2x64x64_S64x64_d0 : S2x64x64.ReducesTo [0] S64x64
  bcast_S_S64 : S_.BroadcastsInDim S64 (![] : Fin 0 → Fin S64.rank)
  pads_S64_S64_000 : S64.Pads (![0] : Fin 1 → Nat) ![0] ![0] S64
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S64x8192_S64x8192_S64x64_1_1_0_0_n_n_wf : DotDims.WF S64x8192 S64x8192 S64x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8192.size a ≤ S4x2097152.size a
  hwx0_0 : ∀ i : grid0.Coords, EltTy.bits .i32 = 32 ∨ (Rect.block (s := S4x2097152) S4x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S2x64x1.size a
  hwx0_1 : ∀ i : grid0.Coords, EltTy.bits .f32 = 32 ∨ (Rect.block (s := S2x64x1) S1x64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S2x64x64.size a
  hwx0_2 : ∀ i : grid0.Coords, EltTy.bits .f32 = 32 ∨ (Rect.block (s := S2x64x64) S1x64x64.size (cc0_transform_2 i) (hinb0_2 i)).WholeWords (EltTy.packing .f32)

variable [Facts₀]

def dot_S64x8192_S64x8192_S64x64_1_1_0_0_n_n : DotDims S64x8192 S64x8192 S64x64 where
  lhsContracting := [1]
  rhsContracting := [1]
  lhsNonContracting := [0]
  rhsNonContracting := [0]
  lhsBatch := []
  rhsBatch := []
  wf := dot_S64x8192_S64x8192_S64x64_1_1_0_0_n_n_wf

abbrev win0_0 : Pipeline.Window sig grid0 :=
  Pipeline.Window.ofSpec (Memref.whole main_v0) S4x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x64x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2097152x4 : Shape := ⟨2, ![2097152, 4]⟩
abbrev S64 : Shape := ⟨1, ![64]⟩
abbrev S64x64 : Shape := ⟨2, ![64, 64]⟩
abbrev S6 : Shape := ⟨1, ![6]⟩
abbrev S8388608 : Shape := ⟨1, ![8388608]⟩
abbrev S_ : Shape := ⟨0, ![]⟩
abbrev S8388608x1 : Shape := ⟨2, ![8388608, 1]⟩
abbrev S6x1 : Shape := ⟨2, ![6, 1]⟩
abbrev S2097152x6 : Shape := ⟨2, ![2097152, 6]⟩
abbrev S12582912 : Shape := ⟨1, ![12582912]⟩
abbrev S12582912x1 : Shape := ⟨2, ![12582912, 1]⟩
abbrev S12582912x2 : Shape := ⟨2, ![12582912, 2]⟩

abbrev nBuf : Space → Nat
  | .hbm => 86
  | .vmem => 0
  | .smem => 0
  | _ => 0

abbrev bufTy : (tb : Table) → Fin (tcTables nBuf tb) → BufTy
  | .hbm, ⟨0, _⟩ => ⟨S2097152x4, .i32⟩
  | .hbm, ⟨1, _⟩ => ⟨S2097152x4, .f32⟩
  | .hbm, ⟨2, _⟩ => ⟨S64, .f32⟩
  | .hbm, ⟨3, _⟩ => ⟨S64x64, .f32⟩
  | .hbm, ⟨4, _⟩ => ⟨S6, .i32⟩
  | .hbm, ⟨5, _⟩ => ⟨S6, .i1⟩
  | .hbm, ⟨6, _⟩ => ⟨S6, .i32⟩
  | .hbm, ⟨7, _⟩ => ⟨S6, .i1⟩
  | .hbm, ⟨8, _⟩ => ⟨S8388608, .i32⟩
  | .hbm, ⟨9, _⟩ => ⟨S_, .f32⟩
  | .hbm, ⟨10, _⟩ => ⟨S64, .f32⟩
  | .hbm, ⟨11, _⟩ => ⟨S_, .i32⟩
  | .hbm, ⟨12, _⟩ => ⟨S8388608, .i32⟩
  | .hbm, ⟨13, _⟩ => ⟨S8388608, .i1⟩
  | .hbm, ⟨14, _⟩ => ⟨S_, .i32⟩
  | .hbm, ⟨15, _⟩ => ⟨S8388608, .i32⟩
  | .hbm, ⟨16, _⟩ => ⟨S8388608, .i32⟩
  | .hbm, ⟨17, _⟩ => ⟨S8388608, .i32⟩
  | .hbm, ⟨18, _⟩ => ⟨S8388608x1, .i32⟩
  | .hbm, ⟨19, _⟩ => ⟨S_, .f32⟩
  | .hbm, ⟨20, _⟩ => ⟨S8388608, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .i32⟩
  | .hbm, ⟨33, _⟩ => ⟨S6, .i32⟩
  | .hbm, ⟨34, _⟩ => ⟨S6, .i32⟩
  | .hbm, ⟨35, _⟩ => ⟨S6, .i32⟩
  | .hbm, ⟨36, _⟩ => ⟨S6x1, .i32⟩
  | .hbm, ⟨37, _⟩ => ⟨S2097152x6, .i32⟩
  | .hbm, ⟨38, _⟩ => ⟨S12582912, .i32⟩
  | .hbm, ⟨39, _⟩ => ⟨S_, .i32⟩
  | .hbm, ⟨40, _⟩ => ⟨S6, .i32⟩
  | .hbm, ⟨41, _⟩ => ⟨S6, .i32⟩
  | .hbm, ⟨42, _⟩ => ⟨S6, .i32⟩
  | .hbm, ⟨43, _⟩ => ⟨S6x1, .i32⟩
  | .hbm, ⟨44, _⟩ => ⟨S2097152x6, .i32⟩
  | .hbm, ⟨45, _⟩ => ⟨S12582912, .i32⟩
  | .hbm, ⟨46, _⟩ => ⟨S_, .i32⟩
  | .hbm, ⟨47, _⟩ => ⟨S12582912, .i32⟩
  | .hbm, ⟨48, _⟩ => ⟨S12582912, .i1⟩
  | .hbm, ⟨49, _⟩ => ⟨S_, .i32⟩
  | .hbm, ⟨50, _⟩ => ⟨S12582912, .i32⟩
  | .hbm, ⟨51, _⟩ => ⟨S12582912, .i32⟩
  | .hbm, ⟨52, _⟩ => ⟨S12582912, .i32⟩
  | .hbm, ⟨53, _⟩ => ⟨S_, .i32⟩
  | .hbm, ⟨54, _⟩ => ⟨S12582912, .i32⟩
  | .hbm, ⟨55, _⟩ => ⟨S12582912, .i1⟩
  | .hbm, ⟨56, _⟩ => ⟨S_, .i32⟩
  | .hbm, ⟨57, _⟩ => ⟨S12582912, .i32⟩
  | .hbm, ⟨58, _⟩ => ⟨S12582912, .i32⟩
  | .hbm, ⟨59, _⟩ => ⟨S12582912, .i32⟩
  | .hbm, ⟨60, _⟩ => ⟨S12582912x1, .i32⟩
  | .hbm, ⟨61, _⟩ => ⟨S12582912x1, .i32⟩
  | .hbm, ⟨62, _⟩ => ⟨S12582912x2, .i32⟩
  | .hbm, ⟨63, _⟩ => ⟨S_, .f32⟩
  | .hbm, ⟨64, _⟩ => ⟨S12582912, .f32⟩
  | .hbm, ⟨65, _⟩ => ⟨S64x64, .f32⟩
  | .hbm, ⟨66, _⟩ => ⟨S_, .i32⟩
  | .hbm, ⟨67, _⟩ => ⟨S12582912, .i32⟩
  | .hbm, ⟨68, _⟩ => ⟨S12582912, .i1⟩
  | .hbm, ⟨69, _⟩ => ⟨S_, .i32⟩
  | .hbm, ⟨70, _⟩ => ⟨S12582912, .i32⟩
  | .hbm, ⟨71, _⟩ => ⟨S12582912, .i32⟩
  | .hbm, ⟨72, _⟩ => ⟨S12582912, .i32⟩
  | .hbm, ⟨73, _⟩ => ⟨S_, .i32⟩
  | .hbm, ⟨74, _⟩ => ⟨S12582912, .i32⟩
  | .hbm, ⟨75, _⟩ => ⟨S12582912, .i1⟩
  | .hbm, ⟨76, _⟩ => ⟨S_, .i32⟩
  | .hbm, ⟨77, _⟩ => ⟨S12582912, .i32⟩
  | .hbm, ⟨78, _⟩ => ⟨S12582912, .i32⟩
  | .hbm, ⟨79, _⟩ => ⟨S12582912, .i32⟩
  | .hbm, ⟨80, _⟩ => ⟨S12582912x1, .i32⟩
  | .hbm, ⟨81, _⟩ => ⟨S12582912x1, .i32⟩
  | .hbm, ⟨82, _⟩ => ⟨S12582912x2, .i32⟩
  | .hbm, ⟨83, _⟩ => ⟨S_, .f32⟩
  | .hbm, ⟨84, _⟩ => ⟨S12582912, .f32⟩
  | .hbm, ⟨85, _⟩ => ⟨S64x64, .f32⟩
  | _, _ => ⟨S2097152x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_c_3 : Ref sig .tc := ⟨.hbm, 11, rfl⟩
abbrev main_v2 : Ref sig .tc := ⟨.hbm, 12, rfl⟩
abbrev main_v3 : Ref sig .tc := ⟨.hbm, 13, rfl⟩
abbrev main_c_4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_5 : Ref sig .tc := ⟨.hbm, 19, rfl⟩
abbrev main_v8 : Ref sig .tc := ⟨.hbm, 20, rfl⟩
abbrev main_v9 : Ref sig .tc := ⟨.hbm, 21, rfl⟩
abbrev main_cst_6 : Ref sig .tc := ⟨.hbm, 22, rfl⟩
abbrev main_v10 : Ref sig .tc := ⟨.hbm, 23, rfl⟩
abbrev main_v11 : Ref sig .tc := ⟨.hbm, 24, rfl⟩
abbrev main_cst_7 : Ref sig .tc := ⟨.hbm, 25, rfl⟩
abbrev main_v12 : Ref sig .tc := ⟨.hbm, 26, rfl⟩
abbrev main_v13 : Ref sig .tc := ⟨.hbm, 27, rfl⟩
abbrev main_cst_8 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_9 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_10 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_11 : Ref sig .tc := ⟨.hbm, 46, rfl⟩
abbrev main_v29 : Ref sig .tc := ⟨.hbm, 47, rfl⟩
abbrev main_v30 : Ref sig .tc := ⟨.hbm, 48, rfl⟩
abbrev main_c_12 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_13 : Ref sig .tc := ⟨.hbm, 53, rfl⟩
abbrev main_v34 : Ref sig .tc := ⟨.hbm, 54, rfl⟩
abbrev main_v35 : Ref sig .tc := ⟨.hbm, 55, rfl⟩
abbrev main_c_14 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_15 : Ref sig .tc := ⟨.hbm, 63, rfl⟩
abbrev main_v42 : Ref sig .tc := ⟨.hbm, 64, rfl⟩
abbrev main_v43 : Ref sig .tc := ⟨.hbm, 65, rfl⟩
abbrev main_c_16 : Ref sig .tc := ⟨.hbm, 66, rfl⟩
abbrev main_v44 : Ref sig .tc := ⟨.hbm, 67, rfl⟩
abbrev main_v45 : Ref sig .tc := ⟨.hbm, 68, rfl⟩
abbrev main_c_17 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_18 : Ref sig .tc := ⟨.hbm, 73, rfl⟩
abbrev main_v49 : Ref sig .tc := ⟨.hbm, 74, rfl⟩
abbrev main_v50 : Ref sig .tc := ⟨.hbm, 75, rfl⟩
abbrev main_c_19 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_20 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]

class Facts₀ : Prop where
  shapeCasts_S2097152x4_S8388608 : S2097152x4.ShapeCasts S8388608
  bcast_S_S64 : S_.BroadcastsInDim S64 (![] : Fin 0 → Fin S64.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S6 : S_.BroadcastsInDim S6 (![] : Fin 0 → Fin S6.rank)
  bcast_S6_S6x1_0 : S6.BroadcastsInDim S6x1 (![0] : Fin 1 → Fin S6x1.rank)
  shapeCasts_S2097152x6_S12582912 : S2097152x6.ShapeCasts S12582912
  bcast_S_S12582912 : S_.BroadcastsInDim S12582912 (![] : Fin 0 → Fin S12582912.rank)
  bcast_S12582912_S12582912x1_0 : S12582912.BroadcastsInDim S12582912x1 (![0] : Fin 1 → Fin S12582912x1.rank)
  concatenates_S12582912x1_S12582912x1_S12582912x2_d1 : Shape.Concatenates [S12582912x1, S12582912x1] S12582912x2 1
  scatter_S64_S8388608x1_S8388608_n_0_0_1_wf : ScatterDims.WF S64 S8388608x1 S8388608 [] [0] [0] 1
  gather_S2097152x4_S6x1_S2097152x6_0_1_n_n_1_1_20971521_wf : GatherDims.WF S2097152x4 S6x1 S2097152x6 [0] [1] [] [1] [] 1 ![2097152, 1]
  scatter_S64x64_S12582912x2_S12582912_n_01_01_1_wf : ScatterDims.WF S64x64 S12582912x2 S12582912 [] [0, 1] [0, 1] 1

variable [Facts₀]

def scatter_S64_S8388608x1_S8388608_n_0_0_1 : ScatterDims S64 S8388608x1 S8388608 where
  updateWindowDims := []
  insertedWindowDims := [0]
  scatterDimsToOperandDims := [0]
  indexVectorDim := 1
  wf := scatter_S64_S8388608x1_S8388608_n_0_0_1_wf
def gather_S2097152x4_S6x1_S2097152x6_0_1_n_n_1_1_20971521 : GatherDims S2097152x4 S6x1 S2097152x6 where
  offsetDims := [0]
  collapsedSliceDims := [1]
  operandBatchingDims := []
  startIndicesBatchingDims := []
  startIndexMap := [1]
  indexVectorDim := 1
  sliceSizes := ![2097152, 1]
  wf := gather_S2097152x4_S6x1_S2097152x6_0_1_n_n_1_1_20971521_wf
def scatter_S64x64_S12582912x2_S12582912_n_01_01_1 : ScatterDims S64x64 S12582912x2 S12582912 where
  updateWindowDims := []
  insertedWindowDims := [0, 1]
  scatterDimsToOperandDims := [0, 1]
  indexVectorDim := 1
  wf := scatter_S64x64_S12582912x2_S12582912_n_01_01_1_wf

class Facts : Prop extends Facts₀ where

variable [Facts]
-- ==== Proof.Tail.lean ====
/-
  The host program around the pallas_call. Before it the index array is transposed; after it the two halves' partial
  results are added, the histogram is normalised and averaged into the first result, and the second result is the
  co-activation table plus the summed Gram matrix minus the diagonal matrix of the summed histogram.
-/
import proofs.«427305_j1271310319887_2_alg».proof.Proof.Gen.KernelIdeal.Frame
import Idealize.ShloMosaic.Lib.ValueIdx
import Idealize.ShloMosaic.Lib.Pipeline.Value
import Idealize.ShloMosaic.Lib.KernelVsHost
import Idealize.ShloMosaic.PureOps.Ideal.Laws

noncomputable section

namespace Cert.Tail

open Idealize.ShloMosaic Idealize.ShloMosaic.ValueIdx Idealize.SL.Sem Cert.KernelIdeal Cert.KernelIdeal.Gen

variable (m : (ℓ : Loc nD τ sig) → Buf (Elt Ideal) ℓ) (ρ : Dev nD → PrngReg)

/-- The array the region is launched on is the transpose of the index argument. -/
theorem transposed (c : Dev nD) (k : Fin 4) (n : Fin 2097152) :
    V m c main_v0 (ix2 k n) = m ((c.tc : Thread nD τ).loc main_arg0) (ix2 n k) := by
  have e : (V m c main_v0 : S4x2097152.Idx → BitVec 32)
      = transpose S4x2097152 [1, 0] (m ((c.tc : Thread nD τ).loc main_arg0)) transposes_S2097152x4_S4x2097152_1_0 := by
    dsimp only [Gen.V, Gen.V0]
    simp only [Gen.hostOps0, List.flatten_cons, List.flatten_nil, List.append_nil]
    after_results
  refine (congrFun e (ix2 k n)).trans ?_
  refine transpose_apply _ _ _ (ix2 k n) (ix2 n k) ?_
  intro b
  match b with
  | ⟨0, _⟩ => rfl
  | ⟨1, _⟩ => rfl

/-- The first output array of the region after its last write-back: two slots of 64 row sums. -/
abbrev A1 (c : Dev nD) : S2x64x1.Idx → EReal := (dats (F := Ideal) m 0 c).arrAt 1 cfg0.N
/-- The second output array of the region after its last write-back: two slots of a 64 × 64 Gram matrix. -/
abbrev A2 (c : Dev nD) : S2x64x64.Idx → EReal := (dats (F := Ideal) m 0 c).arrAt 2 cfg0.N
/-- The moving-average argument. -/
abbrev ema (c : Dev nD) : S64.Idx → EReal := m ((c.tc : Thread nD τ).loc main_arg2)
/-- The co-activation argument. -/
abbrev co (c : Dev nD) : S64x64.Idx → EReal := m ((c.tc : Thread nD τ).loc main_arg3)

/-! ## The tail's operations read at an entry

The two reductions add the two slots of each output array from the zero word; the reshape [64,1] → [64] keeps the row;
the diagonal matrix is a select between the row sums broadcast along the rows and zero, on the equality of the two
coordinates as 32-bit words. Each is read over an arbitrary array first, then the tail as a whole over arbitrary contents
of the buffers the region leaves, and last at what the region does leave. -/

/-- Summing the two slots of a [2,64,64] array from the zero word: entry (a,b) is slot 0 plus slot 1. -/
theorem slots2 (a2 : FVec Ideal S2x64x64 .f32) (a b : Fin 64) :
    (Host.reduceAdd (F := Ideal) a2 (constant (F := Ideal) S_ .f32 0x00000000#32) reducesTo_S2x64x64_S64x64_d0 h_S_ : S64x64.Idx → EReal) (ix2 a b)
      = a2 (ix3 0 a b) + a2 (ix3 1 a b) := by
  have hR : S2x64x64.Reduces [0] S64x64 := by decide
  show Ideal.hostReduceAdd reducesTo_S2x64x64_S64x64_d0 a2 (Ideal.ofBits .f32 0x00000000#32) (ix2 a b) = _
  rw [Ideal.hostReduceAdd_single _ hR, Ideal.ofBits_zero_f32, zero_add]
  show ∑ k : Fin 2, a2 (hR.lift (ix2 a b) k) = _
  rw [Fin.sum_univ_two]
  have e0 : hR.lift (ix2 a b) (0 : Fin 2) = ix3 0 a b := by
    funext d; match d with | ⟨0, _⟩ => rfl | ⟨1, _⟩ => rfl | ⟨2, _⟩ => rfl
  have e1 : hR.lift (ix2 a b) (1 : Fin 2) = ix3 1 a b := by
    funext d; match d with | ⟨0, _⟩ => rfl | ⟨1, _⟩ => rfl | ⟨2, _⟩ => rfl
  rw [e0, e1]

/-- The same for the [2,64,1] array of row sums. -/
theorem slots1' (a1 : FVec Ideal S2x64x1 .f32) (e : Fin 64) :
    (Host.reduceAdd (F := Ideal) a1 (constant (F := Ideal) S_ .f32 0x00000000#32) reducesTo_S2x64x1_S64x1_d0 h_S_ : S64x1.Idx → EReal) (ix2 e 0)
      = a1 (ix3 0 e 0) + a1 (ix3 1 e 0) := by
  have hR : S2x64x1.Reduces [0] S64x1 := by decide
  show Ideal.hostReduceAdd reducesTo_S2x64x1_S64x1_d0 a1 (Ideal.ofBits .f32 0x00000000#32) (ix2 e 0) = _
  rw [Ideal.hostReduceAdd_single _ hR, Ideal.ofBits_zero_f32, zero_add]
  show ∑ k : Fin 2, a1 (hR.lift (ix2 e 0) k) = _
  rw [Fin.sum_univ_two]
  have e0 : hR.lift (ix2 e (0 : Fin 1)) (0 : Fin 2) = ix3 0 e 0 := by
    funext d; match d with | ⟨0, _⟩ => rfl | ⟨1, _⟩ => rfl | ⟨2, _⟩ => rfl
  have e1 : hR.lift (ix2 e (0 : Fin 1)) (1 : Fin 2) = ix3 1 e 0 := by
    funext d; match d with | ⟨0, _⟩ => rfl | ⟨1, _⟩ => rfl | ⟨2, _⟩ => rfl
  rw [e0, e1]

/-- The row sums reshaped [64,1] → [64]: entry e is slot 0 plus slot 1 of row e. -/
theorem slots1 (a1 : FVec Ideal S2x64x1 .f32) (e : Fin 64) :
    (shapeCast S64 (Host.reduceAdd (F := Ideal) a1 (constant (F := Ideal) S_ .f32 0x00000000#32) reducesTo_S2x64x1_S64x1_d0 h_S_) shapeCasts_S64x1_S64 : S64.Idx → EReal) (ix1 e)
      = a1 (ix3 0 e 0) + a1 (ix3 1 e 0) := by
  refine (shapeCast_apply _ shapeCasts_S64x1_S64 (ix1 e) (ix2 e (0 : Fin 1)) ?_).trans (slots1' a1 e)
  rw [Shape.rowMajor_val_two, Shape.rowMajor_val_one]
  show e.val * 1 + 0 = e.val
  omega

/-- The host's diagonal embedding read at an entry: the vector on the diagonal, zero elsewhere. -/
theorem diag_apply (x : FVec Ideal S64 .f32) (a b : Fin 64) :
    select
      (cmpi .eq (addi (iotaInDim S64x64 32 0) (broadcastInDim S64x64 ![] bcast_S_S64x64 (constantI S_ 32 0#32))) (iotaInDim S64x64 32 1))
      (broadcastInDim S64x64 ![0, 1] bcast_S64x1_S64x64_0_1
        (broadcastInDim S64x1 ![0] bcast_S64_S64x1_0
          (pad S64 ![0] ![0] ![0] x (constant (F := Ideal) S_ .f32 0x00000000#32) pads_S64_S64_000 h_S_)))
      (broadcastInDim S64x64 ![] bcast_S_S64x64 (constant (F := Ideal) S_ .f32 0x00000000#32))
      (ix2 a b)
    = if a = b then x (ix1 a) else 0 := by
  rw [select_apply]
  -- the condition: the two coordinates as 32-bit words are equal exactly when the coordinates are
  have hc : cmpi .eq (addi (iotaInDim S64x64 32 0) (broadcastInDim S64x64 ![] bcast_S_S64x64 (constantI S_ 32 0#32)))
      (iotaInDim S64x64 32 1) (ix2 a b) = if a = b then 1#1 else 0#1 := by
    show BitVec.ofBool (BitVec.ofNat 32 a.val + 0#32 == BitVec.ofNat 32 b.val) = _
    rw [BitVec.add_zero]
    by_cases hab : a = b
    · subst hab
      rw [if_pos rfl, beq_self_eq_true]
      rfl
    · have hne : BitVec.ofNat 32 a.val ≠ BitVec.ofNat 32 b.val := fun h => by
        have h' := congrArg BitVec.toNat h
        simp only [BitVec.toNat_ofNat] at h'
        have ha := a.isLt; have hb := b.isLt
        exact hab (Fin.ext (by omega))
      rw [if_neg hab, beq_eq_false_iff_ne.mpr hne]
      rfl
  -- the selected value: the two broadcasts and the (empty) padding read back to the vector's entry
  have hpad : pad S64 ![0] ![0] ![0] x (constant (F := Ideal) S_ .f32 0x00000000#32) pads_S64_S64_000 h_S_ (ix1 a)
      = x (ix1 a) :=
    pad_apply_of_inside _ _ _ _ _ _ _ (ix1 a) (ix1 a) (fun k => match k with
      | ⟨0, _⟩ => (by show a.val = 0 + a.val * (0 + 1); omega))
  have hA : broadcastInDim S64x64 ![0, 1] bcast_S64x1_S64x64_0_1
        (broadcastInDim S64x1 ![0] bcast_S64_S64x1_0
          (pad S64 ![0] ![0] ![0] x (constant (F := Ideal) S_ .f32 0x00000000#32) pads_S64_S64_000 h_S_)) (ix2 a b)
      = x (ix1 a) := by
    rw [broadcastInDim_apply _ _ _ (ix2 a b) (ix2 a (0 : Fin 1)) (fun k => match k with | ⟨0, _⟩ => rfl | ⟨1, _⟩ => rfl),
      broadcastInDim_apply _ _ _ (ix2 a (0 : Fin 1)) (ix1 a) (fun k => match k with | ⟨0, _⟩ => rfl), hpad]
  have hB : broadcastInDim S64x64 ![] bcast_S_S64x64 (constant (F := Ideal) S_ .f32 0x00000000#32) (ix2 a b) = (0 : EReal) :=
    Ideal.ofBits_zero_f32
  rw [hc, hA, hB]
  unfold Scalar.select
  by_cases hab : a = b
  · rw [if_pos hab, if_pos hab, if_pos (by decide)]
  · rw [if_neg hab, if_neg hab, if_neg (by decide)]

/-- The four buffers the tail reads, out of any contents `W`, at their literal types. -/
abbrev rd1 (W : Valuation τ sig (Elt Ideal)) : S2x64x1.Idx → EReal := W (Proc.devRef .tc main_v1_0)
abbrev rd2 (W : Valuation τ sig (Elt Ideal)) : S2x64x64.Idx → EReal := W (Proc.devRef .tc main_v1_1)
abbrev rdE (W : Valuation τ sig (Elt Ideal)) : S64.Idx → EReal := W (Proc.devRef .tc main_arg2)
abbrev rdC (W : Valuation τ sig (Elt Ideal)) : S64x64.Idx → EReal := W (Proc.devRef .tc main_arg3)

/-- The first result after the tail's operations, from ANY contents `W` the region leaves: the moving average of the
    argument and the normalised sum of the two slots of row sums. -/
theorem v11_of (W : Valuation τ sig (Elt Ideal)) (e : Fin 64) :
    (StableHlo.after (List.flatten [hostOps1, hostOps1_1, hostOps1_2]) W (Proc.devRef .tc main_v11) : S64.Idx → EReal) (ix1 e)
      = rdE W (ix1 e) * Ideal.ofBits .f32 0x3F7D70A4#32
        + Ideal.div (rd1 W (ix3 0 e 0) + rd1 W (ix3 1 e 0)) (Ideal.ofBits .f32 0x4A000000#32)
          * Ideal.ofBits .f32 0x3C23D70A#32 := by
  simp only [hostOps1, hostOps1_1, hostOps1_2, List.flatten_cons, List.flatten_nil, List.append_nil, List.cons_append, List.nil_append]
  after_results_simp
  exact congrArg (fun s => rdE W (ix1 e) * Ideal.ofBits .f32 0x3F7D70A4#32
        + Ideal.div s (Ideal.ofBits .f32 0x4A000000#32) * Ideal.ofBits .f32 0x3C23D70A#32)
    (slots1 (rd1 W) e)

/-- The second result likewise: the argument plus the two slots of the Gram matrix, minus the two slots of row sums on
    the diagonal. -/
theorem v14_of (W : Valuation τ sig (Elt Ideal)) (a b : Fin 64) :
    (StableHlo.after (List.flatten [hostOps1, hostOps1_1, hostOps1_2]) W (Proc.devRef .tc main_v14) : S64x64.Idx → EReal) (ix2 a b)
      = (rdC W (ix2 a b) + (rd2 W (ix3 0 a b) + rd2 W (ix3 1 a b)))
        - (if a = b then rd1 W (ix3 0 a 0) + rd1 W (ix3 1 a 0) else 0) := by
  simp only [hostOps1, hostOps1_1, hostOps1_2, List.flatten_cons, List.flatten_nil, List.append_nil, List.cons_append, List.nil_append]
  after_results_simp
  simp only [StableHlo.TRef.ofBuf, StableHlo.TRef.toBuf, cast_eq]
  exact congrArg₂ (fun s d => rdC W (ix2 a b) + s - d) (slots2 (rd2 W) a b)
    ((diag_apply (fun i => shapeCast S64 (Host.reduceAdd (F := Ideal) (rd1 W) (constant (F := Ideal) S_ .f32 0x00000000#32)
        reducesTo_S2x64x1_S64x1_d0 h_S_) shapeCasts_S64x1_S64 i) a b).trans
      (congrArg (fun s => if a = b then s else (0 : EReal)) (slots1 (rd1 W) a)))

/-- What the region leaves on core `c`: its arrays as the pipeline's proof data has them after the last write-back,
    every other buffer as the region found it. -/
abbrev exit (c : Dev nD) : Valuation τ sig (Elt Ideal) :=
  Pipeline.withArrays (cfgs 0).spec c (V0 m c) fun w => (dats (F := Ideal) m 0 c).arrAt w (cfgs 0).N

/-- Read out of those contents, the two output arrays are the proof data's and the two arguments are as launched. -/
theorem rd1_exit (c : Dev nD) : rd1 (exit m c) = A1 m c :=
  Pipeline.withArrays_arr spec0 launch0.win.arr_inj c _ _ 1
theorem rd2_exit (c : Dev nD) : rd2 (exit m c) = A2 m c :=
  Pipeline.withArrays_arr spec0 launch0.win.arr_inj c _ _ 2
theorem rdE_exit (c : Dev nD) : rdE (exit m c) = ema m c :=
  (Pipeline.withArrays_of_ne _ c (V0 m c) _ main_arg2 (by exact (by decide : ∀ w, Pipeline.arrRef spec0 w ≠ main_arg2))).trans
    (V_main_arg2 m c)
theorem rdC_exit (c : Dev nD) : rdC (exit m c) = co m c :=
  (Pipeline.withArrays_of_ne _ c (V0 m c) _ main_arg3 (by exact (by decide : ∀ w, Pipeline.arrRef spec0 w ≠ main_arg3))).trans
    (V_main_arg3 m c)

/-- The first result at an entry. -/
theorem tail11 (c : Dev nD) (e : Fin 64) :
    (Pipeline.afterTail₀ cfgs (dats (F := Ideal) m) 0 (V0 m) [hostOps1, hostOps1_1, hostOps1_2] c main_v11 : S64.Idx → EReal) (ix1 e)
      = ema m c (ix1 e) * Ideal.ofBits .f32 0x3F7D70A4#32
        + Ideal.div (A1 m c (ix3 0 e 0) + A1 m c (ix3 1 e 0)) (Ideal.ofBits .f32 0x4A000000#32)
          * Ideal.ofBits .f32 0x3C23D70A#32 := by
  refine (v11_of (exit m c) e).trans ?_
  rw [rdE_exit, rd1_exit]

/-- The second result at an entry. -/
theorem tail14 (c : Dev nD) (a b : Fin 64) :
    (Pipeline.afterTail₀ cfgs (dats (F := Ideal) m) 0 (V0 m) [hostOps1, hostOps1_1, hostOps1_2] c main_v14 : S64x64.Idx → EReal) (ix2 a b)
      = (co m c (ix2 a b) + (A2 m c (ix3 0 a b) + A2 m c (ix3 1 a b)))
        - (if a = b then A1 m c (ix3 0 a 0) + A1 m c (ix3 1 a 0) else 0) := by
  refine (v14_of (exit m c) a b).trans ?_
  rw [rdC_exit, rd2_exit, rd1_exit]

/-- The kernel program's run with its two results read at an entry over the two output arrays of the region
    (`A1`, `A2`: what the pipeline's proof data says they hold after the last write-back), the arguments unchanged. -/
theorem run_tail :
    θ_run (defs (F := Ideal)) (onTc (τ := τ) (main (F := Ideal))) ⟨m, fun _ => 0, ρ⟩ (fun r => ∀ c : Dev nD,
      (∀ e : Fin 64, ((r.2.mem ((c.tc : Thread nD τ).loc main_v11) : S64.Idx → EReal) (ix1 e))
          = ema m c (ix1 e) * Ideal.ofBits .f32 0x3F7D70A4#32
            + Ideal.div (A1 m c (ix3 0 e 0) + A1 m c (ix3 1 e 0)) (Ideal.ofBits .f32 0x4A000000#32)
              * Ideal.ofBits .f32 0x3C23D70A#32)
      ∧ (∀ a b : Fin 64, ((r.2.mem ((c.tc : Thread nD τ).loc main_v14) : S64x64.Idx → EReal) (ix2 a b))
          = (co m c (ix2 a b) + (A2 m c (ix3 0 a b) + A2 m c (ix3 1 a b)))
            - (if a = b then A1 m c (ix3 0 a 0) + A1 m c (ix3 1 a 0) else 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨fun e => (congrFun ((h c).2 main_v11 (Pipeline.mem_restRefs_of main_v11 (by decide) (by decide))) (ix1 e)).trans (tail11 m c e),
     fun a b => (congrFun ((h c).2 main_v14 (Pipeline.mem_restRefs_of main_v14 (by decide) (by decide))) (ix2 a b)).trans (tail14 m c a b),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.Tail

end
-- ==== Proof.Spec.lean ====
/-
  The mathematics both programs compute, stated once over plain finite sums of natural numbers.

  A token `n` carries four slots `k`; slot `k` of token `n` names an expert, the 32-bit word `idx (n, k)`.
  `hit idx n k e` is 1 when that word is the expert number `e` and 0 otherwise.
    * `sel idx n e`   = Σ_k hit n k e            how many slots of token `n` chose `e`
    * `count idx e`   = Σ_n sel n e              the load histogram
    * `gram idx a b`  = Σ_n sel n a · sel n b    the Gram matrix of the selection counts
    * `pair idx a b`  = Σ_n Σ_{k₁<k₂} hit n k₁ a · hit n k₂ b   ordered slot pairs (k₁ < k₂) that chose (a, b)
  The law that joins the two programs: a row's Gram product splits into its diagonal slots and the two orders
  of its off-diagonal slot pairs, `gram a b = [a = b] · count a + pair a b + pair b a`.
  The results: `loadOut` is the moving average of the histogram, `coactOut` the co-activation table plus the
  two orders of pairs.
-/
import Idealize.ShloMosaic.PureOps.Ideal
import Idealize.ShloMosaic.Lib.ValueIdx

noncomputable section

open scoped BigOperators

namespace Cert.Coact

open Idealize.ShloMosaic Idealize.ShloMosaic.ValueIdx

/-- tokens × slots -/
abbrev STok : Shape := ⟨2, ![2097152, 4]⟩
/-- slots × tokens (the kernel's transposed layout) -/
abbrev STokT : Shape := ⟨2, ![4, 2097152]⟩
/-- one tile of the transposed layout: slots × 8192 tokens -/
abbrev STile : Shape := ⟨2, ![4, 8192]⟩
abbrev SE : Shape := ⟨1, ![64]⟩
abbrev SEE : Shape := ⟨2, ![64, 64]⟩

/-- 1 when slot `k` of token `n` names expert `e`, else 0. -/
def hit (idx : IVec STok 32) (n : Fin 2097152) (k : Fin 4) (e : ℕ) : ℕ :=
  if idx (ix2 n k) = BitVec.ofNat 32 e then 1 else 0

/-- How many of token `n`'s four slots name expert `e`. -/
def sel (idx : IVec STok 32) (n : Fin 2097152) (e : ℕ) : ℕ := ∑ k : Fin 4, hit idx n k e

/-- The load histogram: how many (token, slot) entries name expert `e`. -/
def count (idx : IVec STok 32) (e : ℕ) : ℕ := ∑ n : Fin 2097152, sel idx n e

/-- The Gram matrix of the per-token selection counts. -/
def gram (idx : IVec STok 32) (a b : ℕ) : ℕ := ∑ n : Fin 2097152, sel idx n a * sel idx n b

/-- The six slot pairs k₁ < k₂ of four slots, in the order (0,1) (0,2) (0,3) (1,2) (1,3) (2,3): the lower slot … -/
def lo : Fin 6 → Fin 4 := ![0, 0, 0, 1, 1, 2]
/-- … and the upper. -/
def hi : Fin 6 → Fin 4 := ![1, 2, 3, 2, 3, 3]

/-- How many (token, slot pair k₁ < k₂) have slot k₁ naming `a` and slot k₂ naming `b`. -/
def pair (idx : IVec STok 32) (a b : ℕ) : ℕ :=
  ∑ n : Fin 2097152, ∑ p : Fin 6, hit idx n (lo p) a * hit idx n (hi p) b

/-- Two expert numbers below 64 give the same 32-bit word only when they are equal. -/
private theorem ofNat_eq_iff {a b : ℕ} (ha : a < 64) (hb : b < 64) :
    BitVec.ofNat 32 a = BitVec.ofNat 32 b ↔ a = b := by
  constructor
  · intro h
    have h' := congrArg BitVec.toNat h
    rw [BitVec.toNat_ofNat, BitVec.toNat_ofNat] at h'
    omega
  · rintro rfl; rfl

/-- A slot names one word: the product of its two indicators is the indicator itself when a = b, else 0. -/
private theorem hit_mul_hit (idx : IVec STok 32) (n : Fin 2097152) (k : Fin 4) {a b : ℕ}
    (ha : a < 64) (hb : b < 64) :
    hit idx n k a * hit idx n k b = if a = b then hit idx n k a else 0 := by
  unfold hit
  by_cases hab : a = b
  · subst hab
    by_cases h1 : idx (ix2 n k) = BitVec.ofNat 32 a <;> simp [h1]
  · rw [if_neg hab]
    by_cases h1 : idx (ix2 n k) = BitVec.ofNat 32 a
    · have h2 : ¬ idx (ix2 n k) = BitVec.ofNat 32 b := by
        rw [h1, ofNat_eq_iff ha hb]; exact hab
      rw [if_pos h1, if_neg h2]
    · rw [if_neg h1, Nat.zero_mul]

/-- The product of two sums of four terms: the diagonal, the pairs k₁ < k₂, and the pairs k₂ < k₁. -/
private theorem four_mul_four (h0 h1 h2 h3 g0 g1 g2 g3 : ℕ) :
    (h0 + h1 + h2 + h3) * (g0 + g1 + g2 + g3)
      = (h0 * g0 + h1 * g1 + h2 * g2 + h3 * g3)
        + (h0 * g1 + h0 * g2 + h0 * g3 + h1 * g2 + h1 * g3 + h2 * g3)
        + (g0 * h1 + g0 * h2 + g0 * h3 + g1 * h2 + g1 * h3 + g2 * h3) := by
  ring

/-- One token's share of the law. -/
private theorem sel_mul_sel (idx : IVec STok 32) (n : Fin 2097152) {a b : ℕ} (ha : a < 64) (hb : b < 64) :
    sel idx n a * sel idx n b
      = (if a = b then sel idx n a else 0)
        + (∑ p : Fin 6, hit idx n (lo p) a * hit idx n (hi p) b)
        + (∑ p : Fin 6, hit idx n (lo p) b * hit idx n (hi p) a) := by
  have lo0 : lo 0 = 0 := rfl
  have lo1 : lo 1 = 0 := rfl
  have lo2 : lo 2 = 0 := rfl
  have lo3 : lo 3 = 1 := rfl
  have lo4 : lo 4 = 1 := rfl
  have lo5 : lo 5 = 2 := rfl
  have hi0 : hi 0 = 1 := rfl
  have hi1 : hi 1 = 2 := rfl
  have hi2 : hi 2 = 3 := rfl
  have hi3 : hi 3 = 2 := rfl
  have hi4 : hi 4 = 3 := rfl
  have hi5 : hi 5 = 3 := rfl
  unfold sel
  rw [Fin.sum_univ_four, Fin.sum_univ_four, Fin.sum_univ_six, Fin.sum_univ_six, four_mul_four,
    lo0, lo1, lo2, lo3, lo4, lo5, hi0, hi1, hi2, hi3, hi4, hi5,
    hit_mul_hit idx n 0 ha hb, hit_mul_hit idx n 1 ha hb, hit_mul_hit idx n 2 ha hb, hit_mul_hit idx n 3 ha hb]
  by_cases hab : a = b
  · simp only [if_pos hab]
  · simp only [if_neg hab]

/-- THE LAW. For expert numbers below 2³², the Gram entry is the diagonal count plus the pairs in both orders. -/
theorem gram_eq (idx : IVec STok 32) (a b : ℕ) (ha : a < 64) (hb : b < 64) :
    gram idx a b = (if a = b then count idx a else 0) + pair idx a b + pair idx b a := by
  unfold gram pair count
  rw [Finset.sum_congr rfl (fun n _ => sel_mul_sel idx n ha hb), Finset.sum_add_distrib, Finset.sum_add_distrib]
  by_cases hab : a = b
  · simp only [if_pos hab]
  · simp only [if_neg hab, Finset.sum_const_zero]

/-! ## The same sums over the transposed layout, cut into the kernel's tiles -/

/-- Selection count of token `n` read from the transposed array. -/
def selT (xt : IVec STokT 32) (n : Fin 2097152) (e : ℕ) : ℕ :=
  ∑ k : Fin 4, if xt (ix2 k n) = BitVec.ofNat 32 e then 1 else 0

/-- Token number of lane `u` of tile `q` of half `h`: halves of 128 tiles of 8192 tokens. -/
def tok (h : Fin 2) (q : Fin 128) (u : Fin 8192) : Fin 2097152 :=
  ⟨(h.val * 128 + q.val) * 8192 + u.val, by omega⟩

/-- One half's share of the histogram. -/
def partCount (xt : IVec STokT 32) (h : Fin 2) (e : ℕ) : ℕ :=
  ∑ q : Fin 128, ∑ u : Fin 8192, selT xt (tok h q u) e

/-- One half's share of the Gram matrix. -/
def partGram (xt : IVec STokT 32) (h : Fin 2) (a b : ℕ) : ℕ :=
  ∑ q : Fin 128, ∑ u : Fin 8192, selT xt (tok h q u) a * selT xt (tok h q u) b

/-- Selection count inside one tile. -/
def tileSel (x : IVec STile 32) (u : Fin 8192) (e : ℕ) : ℕ :=
  ∑ k : Fin 4, if x (ix2 k u) = BitVec.ofNat 32 e then 1 else 0

/-- One tile's share of the histogram. -/
def tileCount (x : IVec STile 32) (e : ℕ) : ℕ := ∑ u : Fin 8192, tileSel x u e

/-- One tile's share of the Gram matrix. -/
def tileGram (x : IVec STile 32) (a b : ℕ) : ℕ := ∑ u : Fin 8192, tileSel x u a * tileSel x u b

/-- Reading the transposed array gives the same selection count. -/
private theorem selT_eq (idx : IVec STok 32) (xt : IVec STokT 32)
    (hT : ∀ (k : Fin 4) (n : Fin 2097152), xt (ix2 k n) = idx (ix2 n k)) (n : Fin 2097152) (e : ℕ) :
    selT xt n e = sel idx n e := by
  unfold selT sel hit
  exact Finset.sum_congr rfl fun k _ => by rw [hT k n]

/-- Half, tile and lane number a token uniquely: n = (h · 128 + q) · 8192 + u. -/
private def tokEquiv : (Fin 2 × Fin 128 × Fin 8192) ≃ Fin 2097152 where
  toFun p := tok p.1 p.2.1 p.2.2
  invFun n := (⟨n.val / 1048576, by omega⟩, ⟨n.val / 8192 % 128, by omega⟩, ⟨n.val % 8192, by omega⟩)
  left_inv := by
    rintro ⟨h, q, u⟩
    refine Prod.ext ?_ (Prod.ext ?_ ?_) <;> apply Fin.ext <;> simp only [tok] <;> omega
  right_inv := by
    intro n
    apply Fin.ext
    simp only [tok]
    omega

/-- A sum over all tokens is the sum over halves, tiles and lanes. -/
private theorem sum_tok (f : Fin 2097152 → ℕ) :
    ∑ h : Fin 2, ∑ q : Fin 128, ∑ u : Fin 8192, f (tok h q u) = ∑ n : Fin 2097152, f n := by
  rw [← Fintype.sum_equiv tokEquiv (fun p => f (tok p.1 p.2.1 p.2.2)) f (fun _ => rfl),
    Fintype.sum_prod_type]
  exact Finset.sum_congr rfl fun h _ => by rw [Fintype.sum_prod_type]

/-- The two halves' shares of the histogram add up to it, when `xt` is the transpose of `idx`. -/
theorem partCount_add (idx : IVec STok 32) (xt : IVec STokT 32)
    (hT : ∀ (k : Fin 4) (n : Fin 2097152), xt (ix2 k n) = idx (ix2 n k)) (e : ℕ) :
    partCount xt 0 e + partCount xt 1 e = count idx e := by
  unfold count
  rw [← sum_tok (fun n => sel idx n e), Fin.sum_univ_two]
  unfold partCount
  simp only [selT_eq idx xt hT]

/-- The two halves' shares of the Gram matrix add up to it, when `xt` is the transpose of `idx`. -/
theorem partGram_add (idx : IVec STok 32) (xt : IVec STokT 32)
    (hT : ∀ (k : Fin 4) (n : Fin 2097152), xt (ix2 k n) = idx (ix2 n k)) (a b : ℕ) :
    partGram xt 0 a b + partGram xt 1 a b = gram idx a b := by
  unfold gram
  rw [← sum_tok (fun n => sel idx n a * sel idx n b), Fin.sum_univ_two]
  unfold partGram
  simp only [selT_eq idx xt hT]

/-! ## The results -/

/-- The first result: the moving average `ema · 0.99 + (count / 2²¹) · 0.01`, the constants the f32 words both programs
    print. -/
def loadOut (idx : IVec STok 32) (ema : SE.Idx → EReal) : SE.Idx → EReal := fun i =>
  ema i * Ideal.ofBits .f32 0x3F7D70A4#32
    + Ideal.div ((count idx (i 0).val : ℕ) : EReal) (Ideal.ofBits .f32 0x4A000000#32) * Ideal.ofBits .f32 0x3C23D70A#32

/-- The second result: the table plus the ordered pairs in both orders. -/
def coactOut (idx : IVec STok 32) (co : SEE.Idx → EReal) : SEE.Idx → EReal := fun i =>
  co i + ((pair idx (i 0).val (i 1).val : ℕ) : EReal) + ((pair idx (i 1).val (i 0).val : ℕ) : EReal)

/-- Adding a real and taking it away again leaves any extended real as it was plus the rest. -/
theorem add_sub_nat (x : EReal) (d r : ℕ) : (x + ((d + r : ℕ) : EReal)) - ((d : ℕ) : EReal) = x + ((r : ℕ) : EReal) := by
  rw [← EReal.coe_coe_eq_natCast, ← EReal.coe_coe_eq_natCast, ← EReal.coe_coe_eq_natCast]
  induction x using EReal.rec with
  | bot => rw [EReal.bot_add, EReal.bot_sub, EReal.bot_add]
  | coe x =>
    rw [← EReal.coe_add, ← EReal.coe_sub, ← EReal.coe_add]
    congr 1
    push_cast
    ring
  | top => rw [EReal.top_add_coe, EReal.top_sub_coe, EReal.top_add_coe]

end Cert.Coact

end
-- ==== Proof.Payload.lean ====
/-
  The kernel body's arithmetic at an entry, at the ideal instance. From a tile of index words (4 slots × 8192 tokens):
  the selection count S[e, u] is the sum over the four slots of "the word is e" (a compare against the row number,
  widened and converted: 1 or 0); the row sums are Σ_u S[e, u]; the matrix product of S with itself over the token axis
  is Σ_u S[a, u]·S[b, u]. All of these are natural numbers.
-/
import proofs.«427305_j1271310319887_2_alg».proof.Proof.Gen.KernelIdeal.Skeleton
import proofs.«427305_j1271310319887_2_alg».proof.Proof.Spec
import Idealize.ShloMosaic.Lib.Pipeline.Value
import Idealize.ShloMosaic.PureOps.Ideal.Laws

noncomputable section

namespace Cert.Payload

open Idealize.ShloMosaic Idealize.ShloMosaic.ValueIdx Cert.KernelIdeal Cert.KernelIdeal.Gen Cert.Coact

/-- A one-bit word widened to 32 bits and read as a signed integer is 1 or 0. -/
theorem bit_toInt (b : Bool) : (((BitVec.ofBool b).setWidth 32).toInt : ℝ) = if b then 1 else 0 := by
  cases b
  · show (((BitVec.ofBool false).setWidth 32).toInt : ℝ) = 0
    rw [show ((BitVec.ofBool false).setWidth 32).toInt = 0 from by decide]; norm_num
  · show (((BitVec.ofBool true).setWidth 32).toInt : ℝ) = 1
    rw [show ((BitVec.ofBool true).setWidth 32).toInt = 1 from by decide]; norm_num

/-- One slot's plane at row `e`, lane `u`: row `k` of the tile, spread over the 64 rows, compared with the row
    number, the bit converted to a float. It is 1 when slot `k` of token `u` names expert `e`, else 0. -/
theorem slot_entry (x : IVec S4x8192 32) (off : Fin 2 → Nat) (hs : S4x8192.Slices off S1x8192) (k : Fin 4)
    (h0 : off 0 = k.val) (h1 : off 1 = 0)
    (hb1 : S1x8192.Broadcasts S64x8192) (hb2 : S64x1.Broadcasts S64x8192) (hi : S64x1.Iotas .tc 32 [0])
    (hw : 1 < 32) (hbits : FTy.bits .bf16 < FTy.bits .f32) (e : Fin 64) (u : Fin 8192) :
    (truncf .bf16 (sitofp (F := Ideal) .f32 (extui 32 (cmpi .eq (broadcastTo S64x8192 (extractStridedSlice S1x8192 off x hs) hb1)
        (broadcastTo S64x8192 (iota .tc S64x1 32 [0] hi) hb2)) hw)) hbits : FVec Ideal S64x8192 .bf16) (ix2 e u)
      = ((if x (ix2 k u) = BitVec.ofNat 32 e.val then 1 else 0 : ℕ) : EReal) := by
  have e1 : broadcastTo S64x8192 (extractStridedSlice S1x8192 off x hs) hb1 (ix2 e u) = x (ix2 k u) := by
    refine (broadcastTo_apply _ hb1 (ix2 e u) (ix2 (0 : Fin 1) u) (fun a => match a with | ⟨0, _⟩ => rfl | ⟨1, _⟩ => rfl)).trans ?_
    exact extractStridedSlice_apply off x hs (ix2 (0 : Fin 1) u) (ix2 k u)
      (fun a => match a with
        | ⟨0, _⟩ => by show k.val = off 0 + 0; omega
        | ⟨1, _⟩ => by show u.val = off 1 + u.val; omega)
  have e2 : broadcastTo S64x8192 (iota .tc S64x1 32 [0] hi) hb2 (ix2 e u) = BitVec.ofNat 32 e.val := by
    refine (broadcastTo_apply _ hb2 (ix2 e u) (ix2 e (0 : Fin 1)) (fun a => match a with | ⟨0, _⟩ => rfl | ⟨1, _⟩ => rfl)).trans ?_
    exact iota_single_apply .tc S64x1 32 0 hi (ix2 e (0 : Fin 1))
  show (((((IntOp.cmpi .eq (broadcastTo S64x8192 (extractStridedSlice S1x8192 off x hs) hb1 (ix2 e u))
      (broadcastTo S64x8192 (iota .tc S64x1 32 [0] hi) hb2 (ix2 e u))).setWidth 32).toInt : ℝ) : EReal)) = _
  rw [e1, e2]
  show ((((BitVec.ofBool (x (ix2 k u) == BitVec.ofNat 32 e.val)).setWidth 32).toInt : ℝ) : EReal) = _
  rw [bit_toInt]
  by_cases hx : x (ix2 k u) = BitVec.ofNat 32 e.val
  · rw [if_pos hx, if_pos (by simpa using hx)]; simp
  · rw [if_neg hx, if_neg (by simpa using hx)]; simp

/-- An entry of the selection counts: how many of token `u`'s four slots name expert `e`. -/
theorem sel_entry (x0 : Vec Ideal S4x8192 .i32) (e : Fin 64) (u : Fin 8192) :
    (k0_pay6 (F := Ideal) x0 (ix2 e u) : EReal) = ((tileSel x0 u e.val : ℕ) : EReal) := by
  unfold k0_pay6
  simp only [shapeCast_self]
  refine (addf_apply _ _ _).trans ?_
  refine (congrArg₂ (· + ·) ((addf_apply _ _ _).trans (congrArg₂ (· + ·) ((addf_apply _ _ _).trans (congrArg₂ (· + ·)
    (slot_entry x0 ![0, 0] _ 0 rfl rfl _ _ _ _ _ e u) (slot_entry x0 ![1, 0] _ 1 rfl rfl _ _ _ _ _ e u)))
    (slot_entry x0 ![2, 0] _ 2 rfl rfl _ _ _ _ _ e u))) (slot_entry x0 ![3, 0] _ 3 rfl rfl _ _ _ _ _ e u)).trans ?_
  unfold tileSel
  rw [Fin.sum_univ_four]
  push_cast
  rfl

/-- The widened selection counts are the selection counts: widening the format changes no value. -/
theorem pay8_entry (x0 : Vec Ideal S4x8192 .i32) (e : Fin 64) (u : Fin 8192) :
    (k0_pay8 (F := Ideal) x0 (ix2 e u) : EReal) = ((tileSel x0 u e.val : ℕ) : EReal) := by
  unfold k0_pay8
  show (k0_pay6 (F := Ideal) x0 (ix2 e u) : EReal) = _
  exact sel_entry x0 e u

/-- A vector of 64 entries viewed as a column [64, 1]: entry (e, 0) of the column is entry e of the vector, both at
    row-major position e. -/
theorem col_cast {α : Type} (v : S64.Idx → α) (h : S64.ShapeCasts S64x1) (e : Fin 64) :
    shapeCast S64x1 v h (ix2 e (0 : Fin 1)) = v (ix1 e) := by
  refine shapeCast_apply v h (ix2 e (0 : Fin 1)) (ix1 e) ?_
  rw [Shape.rowMajor_val_one, Shape.rowMajor_val_two]
  show e.val = e.val * 1 + 0
  omega

/-- The sum along the lanes of a [64, 8192] array, at row `e`, is the plain sum of the row's 8192 entries: the index over
    row `e` with lane `u` put back in is (e, u). -/
theorem lane_sum (src : FVec Ideal S64x8192 .f32) (h : S64x8192.Reduces [1] S64) (hφ : FKind.Formats .f32)
    (hacc : (0x00000000#32 : BitVec 32) = 0x00000000#32) (e : Fin 64) :
    multiReduction (F := Ideal) .add [1] S64 src 0x00000000#32 h hφ hacc (ix1 e) = ∑ u : Fin 8192, src (ix2 e u) := by
  refine (Ideal.multiReduction_add_single src 0x00000000#32 h hφ hacc (ix1 e)).trans ?_
  exact Finset.sum_congr rfl fun u _ =>
    congrArg src (funext fun c => match c with | ⟨0, _⟩ => rfl | ⟨1, _⟩ => rfl)

/-- The row-sum update: the carried value plus the tile's share of the histogram. -/
theorem count_entry (v43 : Vec Ideal S64x1 .f32) (x0 : Vec Ideal S4x8192 .i32) (e : Fin 64) :
    (k0_pay1 (F := Ideal) v43 (k0_pay8 (F := Ideal) x0) (ix2 e 0) : EReal)
      = (v43 (ix2 e 0) : EReal) + ((tileCount x0 e.val : ℕ) : EReal) := by
  unfold k0_pay1
  simp only [shapeCast_self]
  refine (addf_apply _ _ _).trans ?_
  refine congrArg (v43 (ix2 e 0) + ·) ?_
  refine (col_cast _ _ e).trans ?_
  refine (lane_sum _ _ _ _ e).trans ?_
  unfold tileCount
  rw [Nat.cast_sum]
  exact Finset.sum_congr rfl fun u _ => pay8_entry x0 e u

/-! ## The Gram update at an entry

The product contracts the lane axis of both operands: entry (a, b) of S·Sᵀ is Σ_u S[a, u]·S[b, u]. The left operand is
read at (row a, lane u), the right operand at (row b, lane u). -/

/-- The left operand's row is the result's row. -/
theorem gram_lhs_0 (i : S64x64.Idx) (q : dot_S64x8192_S64x8192_S64x64_1_1_0_0_n_n.contr.Idx) :
    (dot_S64x8192_S64x8192_S64x64_1_1_0_0_n_n.lhsIdx i q 0).val = (i 0).val := by
  unfold DotDims.lhsIdx
  rw [dif_neg (show ¬(0 : Fin S64x8192.rank) ∈ dot_S64x8192_S64x8192_S64x64_1_1_0_0_n_n.lhsBatch by decide),
    dif_pos (show (0 : Fin S64x8192.rank) ∈ dot_S64x8192_S64x8192_S64x64_1_1_0_0_n_n.lhsNonContracting by decide)]
  rfl

/-- The left operand's lane is the contraction position. -/
theorem gram_lhs_1 (i : S64x64.Idx) (q : dot_S64x8192_S64x8192_S64x64_1_1_0_0_n_n.contr.Idx) :
    (dot_S64x8192_S64x8192_S64x64_1_1_0_0_n_n.lhsIdx i q 1).val = (q ⟨0, by decide⟩).val :=
  dot_S64x8192_S64x8192_S64x64_1_1_0_0_n_n.lhsIdx_val_of_single rfl i q

/-- The right operand's row is the result's column. -/
theorem gram_rhs_0 (i : S64x64.Idx) (q : dot_S64x8192_S64x8192_S64x64_1_1_0_0_n_n.contr.Idx) :
    (dot_S64x8192_S64x8192_S64x64_1_1_0_0_n_n.rhsIdx i q 0).val = (i 1).val := by
  unfold DotDims.rhsIdx
  rw [dif_neg (show ¬(0 : Fin S64x8192.rank) ∈ dot_S64x8192_S64x8192_S64x64_1_1_0_0_n_n.rhsBatch by decide),
    dif_pos (show (0 : Fin S64x8192.rank) ∈ dot_S64x8192_S64x8192_S64x64_1_1_0_0_n_n.rhsNonContracting by decide)]
  rfl

/-- The right operand's lane is the contraction position. -/
theorem gram_rhs_1 (i : S64x64.Idx) (q : dot_S64x8192_S64x8192_S64x64_1_1_0_0_n_n.contr.Idx) :
    (dot_S64x8192_S64x8192_S64x64_1_1_0_0_n_n.rhsIdx i q 1).val = (q ⟨0, by decide⟩).val :=
  dot_S64x8192_S64x8192_S64x64_1_1_0_0_n_n.rhsIdx_val_of_single rfl i q

/-- The product of a plane with itself over the lanes, into zeros, at entry (a, b): Σ_u S[a, u]·S[b, u]. -/
theorem gram_matmul_entry (S : FVec Ideal S64x8192 .bf16) (a b : Fin 64) :
    matmul dot_S64x8192_S64x8192_S64x64_1_1_0_0_n_n none S S (constant (F := Ideal) S64x64 .f32 0x00000000#32) (ix2 a b)
      = ∑ u : Fin 8192, S (ix2 a u) * S (ix2 b u) := by
  refine (Ideal.matmul_constant_zero_apply dot_S64x8192_S64x8192_S64x64_1_1_0_0_n_n none S S (ix2 a b)).trans ?_
  rw [← Equiv.sum_comp (contrEquiv1 dot_S64x8192_S64x8192_S64x64_1_1_0_0_n_n 8192 rfl rfl).symm]
  refine Finset.sum_congr rfl fun k _ => ?_
  have hk := contrEquiv1_symm_val dot_S64x8192_S64x8192_S64x64_1_1_0_0_n_n 8192 rfl rfl k
  have el : dot_S64x8192_S64x8192_S64x64_1_1_0_0_n_n.lhsIdx (ix2 a b)
      ((contrEquiv1 dot_S64x8192_S64x8192_S64x64_1_1_0_0_n_n 8192 rfl rfl).symm k) = ix2 a k := funext fun c => Fin.ext (by
    match c with
    | ⟨0, _⟩ => exact gram_lhs_0 _ _
    | ⟨1, _⟩ => exact (gram_lhs_1 _ _).trans hk)
  have er : dot_S64x8192_S64x8192_S64x64_1_1_0_0_n_n.rhsIdx (ix2 a b)
      ((contrEquiv1 dot_S64x8192_S64x8192_S64x64_1_1_0_0_n_n 8192 rfl rfl).symm k) = ix2 b k := funext fun c => Fin.ext (by
    match c with
    | ⟨0, _⟩ => exact gram_rhs_0 _ _
    | ⟨1, _⟩ => exact (gram_rhs_1 _ _).trans hk)
  rw [el, er]

/-- The Gram update: the carried value plus the tile's share of the Gram matrix. The product adds Σ_u S[a, u]·S[b, u],
    and each S[e, u] is the natural number `tileSel u e`, so the sum is the natural number `tileGram a b`. -/
theorem gram_entry (x0 : Vec Ideal S4x8192 .i32) (v38 : Vec Ideal S64x64 .f32) (a b : Fin 64) :
    (k0_pay7 (F := Ideal) x0 v38 (ix2 a b) : EReal)
      = (v38 (ix2 a b) : EReal) + ((tileGram x0 a.val b.val : ℕ) : EReal) := by
  unfold k0_pay7
  simp only [shapeCast_self]
  refine (addf_apply _ _ _).trans ?_
  refine congrArg (fun z : EReal => (v38 (ix2 a b) : EReal) + z) ?_
  refine (gram_matmul_entry (k0_pay6 (F := Ideal) x0) a b).trans ?_
  unfold tileGram
  rw [Nat.cast_sum]
  refine Finset.sum_congr rfl fun u _ => ?_
  rw [sel_entry x0 a u, sel_entry x0 b u, EReal.natCast_mul]

/-- The reset values are zero. -/
theorem zero_count_entry (e : Fin 64) : ((k0_pay4 (F := Ideal)) (ix2 e 0) : EReal) = 0 := by
  unfold k0_pay4
  simp only [shapeCast_self]
  exact Ideal.ofBits_zero_f32

theorem zero_gram_entry (a b : Fin 64) : ((k0_pay5 (F := Ideal)) (ix2 a b) : EReal) = 0 := by
  unfold k0_pay5
  simp only [shapeCast_self]
  exact Ideal.ofBits_zero_f32

/-- The outputs are the accumulators with a leading unit axis. -/
theorem out_count_entry (v54 : Vec Ideal S64x1 .f32) (e : Fin 64) :
    (k0_pay2 (F := Ideal) v54 (ix3 0 e 0) : EReal) = (v54 (ix2 e 0) : EReal) := by
  unfold k0_pay2
  refine (shapeCast_addUnit_apply ![64, 1] v54 _ (ix3 0 e 0)).trans ?_
  exact congrArg v54 (funext fun a => match a with | ⟨0, _⟩ => rfl | ⟨1, _⟩ => rfl)

theorem out_gram_entry (v57 : Vec Ideal S64x64 .f32) (a b : Fin 64) :
    (k0_pay3 (F := Ideal) v57 (ix3 0 a b) : EReal) = (v57 (ix2 a b) : EReal) := by
  unfold k0_pay3
  refine (shapeCast_addUnit_apply ![64, 64] v57 _ (ix3 0 a b)).trans ?_
  exact congrArg v57 (funext fun c => match c with | ⟨0, _⟩ => rfl | ⟨1, _⟩ => rfl)

end Cert.Payload

end
-- ==== Proof.TileValue.lean ====
/-
  What one grid point leaves behind, as numbers. The body builds, from the point's tile of index words (4 slots ×
  8192 tokens), the selection counts S[e, u] = how many of token u's slots name expert e; adds the tile's Gram matrix
  Σ_u S[a, u]·S[b, u] into one carried accumulator and the tile's row sums Σ_u S[e, u] into the other; the first point
  of a half starts both from zero, the last point of a half also copies both accumulators into the outputs.
  Read at an entry, at the ideal instance: zero plus / the carried value plus the natural numbers `tileCount` and `tileGram`.

  Two steps. First, for any float values: what each control case leaves in each accumulator (and, at the last point of
  a half, in each output) is ONE term of the values the body loaded — the update applied to the carried accumulator
  and the tile; at the first point of a half the accumulator the update reads is the block of zeros just stored, so the
  update is applied to zeros. Second, at the ideal values, that term read at an entry: the carried entry (or zero)
  plus the tile's share, a natural number.
-/
import proofs.«427305_j1271310319887_2_alg».proof.Proof.Gen.KernelIdeal.Frame
import proofs.«427305_j1271310319887_2_alg».proof.Proof.Spec
import proofs.«427305_j1271310319887_2_alg».proof.Proof.Payload
import Idealize.ShloMosaic.Lib.Pipeline.Value

noncomputable section

namespace Cert.TileValue

open Idealize.ShloMosaic Idealize.ShloMosaic.ValueIdx Cert.KernelIdeal Cert.KernelIdeal.Gen Cert.Coact

section Pieces

variable {F : FTy → Type} [FloatOps F]

/-! ## What each case leaves, as one term of the loaded values (any float values) -/

/-- The zero offsets of a whole-buffer access, rank 2. -/
theorem hz2 : (![0, 0] : Fin 2 → Nat) = fun _ => 0 := funext fun a => by fin_cases a <;> rfl
/-- The zero offsets of a whole-buffer access, rank 3. -/
theorem hz3 : (![0, 0, 0] : Fin 3 → Nat) = fun _ => 0 := funext fun a => by fin_cases a <;> rfl

/-- A middle point leaves in the row-sum accumulator the update of what it carried: the carried column plus the
    tile's row sums. The body's one store covers the whole accumulator, and its loads read whole buffers. -/
theorem pieceB0 (c : Dev nD) (i : grid0.Coords) (arg2 : Memref sig .tc .vmem S4x8192 .i32) (harg2 : arg2.IsWhole) (arg3 : Memref sig .tc .vmem S1x64x1 .f32) (harg3 : arg3.IsWhole) (arg4 : Memref sig .tc .vmem S1x64x64 .f32) (harg4 : arg4.IsWhole) (arg5 : Memref sig .tc .vmem S64x1 .f32) (harg5 : arg5.IsWhole) (arg6 : Memref sig .tc .vmem S64x64 .f32) (harg6 : arg6.IsWhole)
    (hc0 : ¬cond0_0 i) (hc1 : ¬cond0_1 i) (x0 : Vec F S4x8192 .i32) (xs0 : Vec F S64x1 .f32) (xs1 : Vec F S64x64 .f32) :
    sout0_B_0 c i arg2 harg2 arg3 harg3 arg4 harg4 arg5 harg5 arg6 harg6 hc0 hc1 x0 xs0 xs1 = k0_pay1 xs0 (k0_pay8 x0) := by
  unfold sout0_B_0
  rw [View.read_writes_eq_canon _ _ _ (scover0_B_0 c i arg2 harg2 arg3 harg3 arg4 harg4 arg5 harg5 arg6 harg6 hc0 hc1 x0 xs0 xs1)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S64x1) hz2, View.ld_unit_zero (S := S64x64) hz2, View.ld_unit_zero (S := S4x8192) hz2, View.ld_unit_zero (S := S1x64x1) hz3, View.ld_unit_zero (S := S1x64x64) hz3]

/-- A middle point leaves in the Gram accumulator the update of what it carried: the carried matrix plus the
    tile's Gram matrix. -/
theorem pieceB1 (c : Dev nD) (i : grid0.Coords) (arg2 : Memref sig .tc .vmem S4x8192 .i32) (harg2 : arg2.IsWhole) (arg3 : Memref sig .tc .vmem S1x64x1 .f32) (harg3 : arg3.IsWhole) (arg4 : Memref sig .tc .vmem S1x64x64 .f32) (harg4 : arg4.IsWhole) (arg5 : Memref sig .tc .vmem S64x1 .f32) (harg5 : arg5.IsWhole) (arg6 : Memref sig .tc .vmem S64x64 .f32) (harg6 : arg6.IsWhole)
    (hc0 : ¬cond0_0 i) (hc1 : ¬cond0_1 i) (x0 : Vec F S4x8192 .i32) (xs0 : Vec F S64x1 .f32) (xs1 : Vec F S64x64 .f32) :
    sout0_B_1 c i arg2 harg2 arg3 harg3 arg4 harg4 arg5 harg5 arg6 harg6 hc0 hc1 x0 xs0 xs1 = k0_pay7 x0 xs1 := by
  unfold sout0_B_1
  rw [View.read_writes_eq_canon _ _ _ (scover0_B_1 c i arg2 harg2 arg3 harg3 arg4 harg4 arg5 harg5 arg6 harg6 hc0 hc1 x0 xs0 xs1)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S64x1) hz2, View.ld_unit_zero (S := S64x64) hz2, View.ld_unit_zero (S := S4x8192) hz2, View.ld_unit_zero (S := S1x64x1) hz3, View.ld_unit_zero (S := S1x64x64) hz3]

/-- The last point of a half updates the row-sum accumulator exactly as a middle point does. -/
theorem pieceC0 (c : Dev nD) (i : grid0.Coords) (arg2 : Memref sig .tc .vmem S4x8192 .i32) (harg2 : arg2.IsWhole) (arg3 : Memref sig .tc .vmem S1x64x1 .f32) (harg3 : arg3.IsWhole) (arg4 : Memref sig .tc .vmem S1x64x64 .f32) (harg4 : arg4.IsWhole) (arg5 : Memref sig .tc .vmem S64x1 .f32) (harg5 : arg5.IsWhole) (arg6 : Memref sig .tc .vmem S64x64 .f32) (harg6 : arg6.IsWhole)
    (hc0 : ¬cond0_0 i) (hc1 : cond0_1 i) (x0 : Vec F S4x8192 .i32) (xs0 : Vec F S64x1 .f32) (xs1 : Vec F S64x64 .f32) :
    sout0_C_0 c i arg2 harg2 arg3 harg3 arg4 harg4 arg5 harg5 arg6 harg6 hc0 hc1 x0 xs0 xs1 = k0_pay1 xs0 (k0_pay8 x0) := by
  unfold sout0_C_0
  rw [View.read_writes_eq_canon _ _ _ (scover0_C_0 c i arg2 harg2 arg3 harg3 arg4 harg4 arg5 harg5 arg6 harg6 hc0 hc1 x0 xs0 xs1)]
  unfold kernelRun0_C
  dsimp only
  sl_unfold_words
  rw [View.canon_unit_zero hz2]
  simp only [View.readAt_eq_ld, harg2.read_unread, harg3.read_unread, harg4.read_unread, harg5.read_unread, harg6.read_unread, View.ld_unit_zero (S := S64x1) hz2, View.ld_unit_zero (S := S64x64) hz2, View.ld_unit_zero (S := S4x8192) hz2, View.ld_unit_zero (S := S1x64x1) hz3, View.ld_unit_zero (S := S1x64x64) hz3]

/-- The last point of a half updates the Gram accumulator exactly as a middle point does. -/
theorem pieceC1 (c : Dev nD) (i : grid0.Coords) (arg2 : Memref sig .tc .vmem S4x8192 .i32) (harg2 : arg2.IsWhole) (arg3 : Memref sig .tc .vmem S1x64x1 .f32) (harg3 : arg3.IsWhole) (arg4 : Memref sig .tc .vmem S1x64x64 .f32) (harg4 : arg4.IsWhole) (arg5 : Memref sig .tc .vmem S64x1 .f32) (harg5 : arg5.IsWhole) (arg6 : Memref sig .tc .vmem S64x64 .f32) (harg6 : arg6.IsWhole)
    (hc0 : ¬cond0_0 i) (hc1 : cond0_1 i) (x0 : Vec F S4x8192 .i32) (xs0 : Vec F S64x1 .f32) (xs1 : Vec F S64x64 .f32) :
    sout0_C_1 c i arg2 harg2 arg3 harg3 arg4 harg4 arg5 harg5 arg6 harg6 hc0 hc1 x0 xs0 xs1 = k0_pay7 x0 xs1 := by
  unfold sout0_C_1
  rw [View.read_writes_eq_canon _ _ _ (scover0_C_1 c i arg2 harg2 arg3 harg3 arg4 harg4 arg5 harg5 arg6 harg6 hc0 hc1 x0 xs0 xs1)]
  unfold kernelRun0_C
  dsimp only
  sl_unfold_words
  rw [View.canon_unit_zero hz2]
  simp only [View.readAt_eq_ld, harg2.read_unread, harg3.read_unread, harg4.read_unread, harg5.read_unread, harg6.read_unread, View.ld_unit_zero (S := S64x1) hz2, View.ld_unit_zero (S := S64x64) hz2, View.ld_unit_zero (S := S4x8192) hz2, View.ld_unit_zero (S := S1x64x1) hz3, View.ld_unit_zero (S := S1x64x64) hz3]

/-- The last point of a half stores into the first output the row-sum accumulator it has just updated, read back
    whole and given a leading unit axis. -/
theorem pieceCo1 (c : Dev nD) (i : grid0.Coords) (arg2 : Memref sig .tc .vmem S4x8192 .i32) (harg2 : arg2.IsWhole) (arg3 : Memref sig .tc .vmem S1x64x1 .f32) (harg3 : arg3.IsWhole) (arg4 : Memref sig .tc .vmem S1x64x64 .f32) (harg4 : arg4.IsWhole) (arg5 : Memref sig .tc .vmem S64x1 .f32) (harg5 : arg5.IsWhole) (arg6 : Memref sig .tc .vmem S64x64 .f32) (harg6 : arg6.IsWhole)
    (hc0 : ¬cond0_0 i) (hc1 : cond0_1 i) (x0 : Vec F S4x8192 .i32) (xs0 : Vec F S64x1 .f32) (xs1 : Vec F S64x64 .f32) :
    out0_C_1 c i arg2 harg2 arg3 harg3 arg4 harg4 arg5 harg5 arg6 harg6 hc0 hc1 x0 xs0 xs1 = k0_pay2 (k0_pay1 xs0 (k0_pay8 x0)) := by
  unfold out0_C_1
  rw [View.read_writes_eq_canon _ _ _ (cover0_C_1 c i arg2 harg2 arg3 harg3 arg4 harg4 arg5 harg5 arg6 harg6 hc0 hc1 x0 xs0 xs1)]
  unfold kernelRun0_C
  dsimp only
  sl_unfold_words
  rw [View.canon_unit_zero hz3]
  simp only [View.readAt_eq_ld, harg2.read_unread, harg3.read_unread, harg4.read_unread, harg5.read_unread, harg6.read_unread, View.ld_unit_zero (S := S64x1) hz2, View.ld_unit_zero (S := S64x64) hz2, View.ld_unit_zero (S := S4x8192) hz2, View.ld_unit_zero (S := S1x64x1) hz3, View.ld_unit_zero (S := S1x64x64) hz3, View.readCov_unit_zero (S := S64x1) _ hz2]

/-- The last point of a half stores into the second output the Gram accumulator it has just updated, read back
    whole and given a leading unit axis. -/
theorem pieceCo2 (c : Dev nD) (i : grid0.Coords) (arg2 : Memref sig .tc .vmem S4x8192 .i32) (harg2 : arg2.IsWhole) (arg3 : Memref sig .tc .vmem S1x64x1 .f32) (harg3 : arg3.IsWhole) (arg4 : Memref sig .tc .vmem S1x64x64 .f32) (harg4 : arg4.IsWhole) (arg5 : Memref sig .tc .vmem S64x1 .f32) (harg5 : arg5.IsWhole) (arg6 : Memref sig .tc .vmem S64x64 .f32) (harg6 : arg6.IsWhole)
    (hc0 : ¬cond0_0 i) (hc1 : cond0_1 i) (x0 : Vec F S4x8192 .i32) (xs0 : Vec F S64x1 .f32) (xs1 : Vec F S64x64 .f32) :
    out0_C_2 c i arg2 harg2 arg3 harg3 arg4 harg4 arg5 harg5 arg6 harg6 hc0 hc1 x0 xs0 xs1 = k0_pay3 (k0_pay7 x0 xs1) := by
  unfold out0_C_2
  rw [View.read_writes_eq_canon _ _ _ (cover0_C_2 c i arg2 harg2 arg3 harg3 arg4 harg4 arg5 harg5 arg6 harg6 hc0 hc1 x0 xs0 xs1)]
  unfold kernelRun0_C
  dsimp only
  sl_unfold_words
  rw [View.canon_unit_zero hz3]
  simp only [View.readAt_eq_ld, harg2.read_unread, harg3.read_unread, harg4.read_unread, harg5.read_unread, harg6.read_unread, View.ld_unit_zero (S := S64x1) hz2, View.ld_unit_zero (S := S64x64) hz2, View.ld_unit_zero (S := S4x8192) hz2, View.ld_unit_zero (S := S1x64x1) hz3, View.ld_unit_zero (S := S1x64x64) hz3, View.readCov_unit_zero (S := S64x64) _ hz2]

/-- The first point of a half stores zeros into the row-sum accumulator and then updates it: the later store
    covers the earlier, and the column the update reads is the zeros just stored. -/
theorem pieceA0 (c : Dev nD) (i : grid0.Coords) (arg2 : Memref sig .tc .vmem S4x8192 .i32) (harg2 : arg2.IsWhole) (arg3 : Memref sig .tc .vmem S1x64x1 .f32) (harg3 : arg3.IsWhole) (arg4 : Memref sig .tc .vmem S1x64x64 .f32) (harg4 : arg4.IsWhole) (arg5 : Memref sig .tc .vmem S64x1 .f32) (harg5 : arg5.IsWhole) (arg6 : Memref sig .tc .vmem S64x64 .f32) (harg6 : arg6.IsWhole)
    (hc0 : cond0_0 i) (hc1 : ¬cond0_1 i) (x0 : Vec F S4x8192 .i32) :
    sout0_A_0 c i arg2 harg2 arg3 harg3 arg4 harg4 arg5 harg5 arg6 harg6 hc0 hc1 x0 = k0_pay1 k0_pay4 (k0_pay8 x0) := by
  unfold sout0_A_0
  rw [View.read_writes_eq_canon _ _ _ (scover0_A_0 c i arg2 harg2 arg3 harg3 arg4 harg4 arg5 harg5 arg6 harg6 hc0 hc1 x0)]
  unfold kernelRun0_A
  dsimp only
  sl_unfold_words
  rw [View.canon_cons_unit_zero (S := S64x1) hz2]
  simp only [View.readAt_eq_ld, harg2.read_unread, harg3.read_unread, harg4.read_unread, harg5.read_unread, harg6.read_unread, View.ld_unit_zero (S := S64x1) hz2, View.ld_unit_zero (S := S64x64) hz2, View.ld_unit_zero (S := S4x8192) hz2, View.ld_unit_zero (S := S1x64x1) hz3, View.ld_unit_zero (S := S1x64x64) hz3, View.readCov_unit_zero (S := S64x1) _ hz2]

/-- The first point of a half stores zeros into the Gram accumulator and then updates it: the matrix the update
    reads is the zeros just stored. -/
theorem pieceA1 (c : Dev nD) (i : grid0.Coords) (arg2 : Memref sig .tc .vmem S4x8192 .i32) (harg2 : arg2.IsWhole) (arg3 : Memref sig .tc .vmem S1x64x1 .f32) (harg3 : arg3.IsWhole) (arg4 : Memref sig .tc .vmem S1x64x64 .f32) (harg4 : arg4.IsWhole) (arg5 : Memref sig .tc .vmem S64x1 .f32) (harg5 : arg5.IsWhole) (arg6 : Memref sig .tc .vmem S64x64 .f32) (harg6 : arg6.IsWhole)
    (hc0 : cond0_0 i) (hc1 : ¬cond0_1 i) (x0 : Vec F S4x8192 .i32) :
    sout0_A_1 c i arg2 harg2 arg3 harg3 arg4 harg4 arg5 harg5 arg6 harg6 hc0 hc1 x0 = k0_pay7 x0 k0_pay5 := by
  unfold sout0_A_1
  rw [View.read_writes_eq_canon _ _ _ (scover0_A_1 c i arg2 harg2 arg3 harg3 arg4 harg4 arg5 harg5 arg6 harg6 hc0 hc1 x0)]
  unfold kernelRun0_A
  dsimp only
  sl_unfold_words
  rw [View.canon_cons_unit_zero (S := S64x64) hz2]
  simp only [View.readAt_eq_ld, harg2.read_unread, harg3.read_unread, harg4.read_unread, harg5.read_unread, harg6.read_unread, View.ld_unit_zero (S := S64x1) hz2, View.ld_unit_zero (S := S64x64) hz2, View.ld_unit_zero (S := S4x8192) hz2, View.ld_unit_zero (S := S1x64x1) hz3, View.ld_unit_zero (S := S1x64x64) hz3, View.readCov_unit_zero (S := S64x64) _ hz2]

end Pieces

variable (c : Dev nD) (i : grid0.Coords) (arg2 : Memref sig .tc .vmem S4x8192 .i32) (harg2 : arg2.IsWhole) (arg3 : Memref sig .tc .vmem S1x64x1 .f32) (harg3 : arg3.IsWhole) (arg4 : Memref sig .tc .vmem S1x64x64 .f32) (harg4 : arg4.IsWhole) (arg5 : Memref sig .tc .vmem S64x1 .f32) (harg5 : arg5.IsWhole) (arg6 : Memref sig .tc .vmem S64x64 .f32) (harg6 : arg6.IsWhole)

/-! ## The first point of a half: both accumulators start from zero -/

theorem scratchA_count (hc0 : cond0_0 i) (hc1 : ¬cond0_1 i) (x0 : Vec Ideal S4x8192 .i32) (e : Fin 64) :
    sout0_A_0 (F := Ideal) c i arg2 harg2 arg3 harg3 arg4 harg4 arg5 harg5 arg6 harg6 hc0 hc1 x0 (ix2 e 0) = ((tileCount x0 e.val : ℕ) : EReal) := by
  refine (congrFun (pieceA0 (F := Ideal) c i arg2 harg2 arg3 harg3 arg4 harg4 arg5 harg5 arg6 harg6 hc0 hc1 x0) (ix2 e 0)).trans ?_
  refine (Cert.Payload.count_entry (k0_pay4 (F := Ideal)) x0 e).trans ?_
  rw [Cert.Payload.zero_count_entry e, zero_add]

theorem scratchA_gram (hc0 : cond0_0 i) (hc1 : ¬cond0_1 i) (x0 : Vec Ideal S4x8192 .i32) (a b : Fin 64) :
    sout0_A_1 (F := Ideal) c i arg2 harg2 arg3 harg3 arg4 harg4 arg5 harg5 arg6 harg6 hc0 hc1 x0 (ix2 a b) = ((tileGram x0 a.val b.val : ℕ) : EReal) := by
  refine (congrFun (pieceA1 (F := Ideal) c i arg2 harg2 arg3 harg3 arg4 harg4 arg5 harg5 arg6 harg6 hc0 hc1 x0) (ix2 a b)).trans ?_
  refine (Cert.Payload.gram_entry x0 (k0_pay5 (F := Ideal)) a b).trans ?_
  rw [Cert.Payload.zero_gram_entry a b, zero_add]

/-! ## A middle point: the accumulators grow by the tile's share -/

theorem scratchB_count (hc0 : ¬cond0_0 i) (hc1 : ¬cond0_1 i) (x0 : Vec Ideal S4x8192 .i32)
    (xs0 : Vec Ideal S64x1 .f32) (xs1 : Vec Ideal S64x64 .f32) (e : Fin 64) :
    sout0_B_0 (F := Ideal) c i arg2 harg2 arg3 harg3 arg4 harg4 arg5 harg5 arg6 harg6 hc0 hc1 x0 xs0 xs1 (ix2 e 0)
      = (xs0 (ix2 e 0) : EReal) + ((tileCount x0 e.val : ℕ) : EReal) :=
  (congrFun (pieceB0 (F := Ideal) c i arg2 harg2 arg3 harg3 arg4 harg4 arg5 harg5 arg6 harg6 hc0 hc1 x0 xs0 xs1) (ix2 e 0)).trans (Cert.Payload.count_entry xs0 x0 e)

theorem scratchB_gram (hc0 : ¬cond0_0 i) (hc1 : ¬cond0_1 i) (x0 : Vec Ideal S4x8192 .i32)
    (xs0 : Vec Ideal S64x1 .f32) (xs1 : Vec Ideal S64x64 .f32) (a b : Fin 64) :
    sout0_B_1 (F := Ideal) c i arg2 harg2 arg3 harg3 arg4 harg4 arg5 harg5 arg6 harg6 hc0 hc1 x0 xs0 xs1 (ix2 a b)
      = (xs1 (ix2 a b) : EReal) + ((tileGram x0 a.val b.val : ℕ) : EReal) :=
  (congrFun (pieceB1 (F := Ideal) c i arg2 harg2 arg3 harg3 arg4 harg4 arg5 harg5 arg6 harg6 hc0 hc1 x0 xs0 xs1) (ix2 a b)).trans (Cert.Payload.gram_entry x0 xs1 a b)

/-! ## The last point of a half: the same growth, and the outputs take the accumulators -/

theorem scratchC_count (hc0 : ¬cond0_0 i) (hc1 : cond0_1 i) (x0 : Vec Ideal S4x8192 .i32)
    (xs0 : Vec Ideal S64x1 .f32) (xs1 : Vec Ideal S64x64 .f32) (e : Fin 64) :
    sout0_C_0 (F := Ideal) c i arg2 harg2 arg3 harg3 arg4 harg4 arg5 harg5 arg6 harg6 hc0 hc1 x0 xs0 xs1 (ix2 e 0)
      = (xs0 (ix2 e 0) : EReal) + ((tileCount x0 e.val : ℕ) : EReal) :=
  (congrFun (pieceC0 (F := Ideal) c i arg2 harg2 arg3 harg3 arg4 harg4 arg5 harg5 arg6 harg6 hc0 hc1 x0 xs0 xs1) (ix2 e 0)).trans (Cert.Payload.count_entry xs0 x0 e)

theorem scratchC_gram (hc0 : ¬cond0_0 i) (hc1 : cond0_1 i) (x0 : Vec Ideal S4x8192 .i32)
    (xs0 : Vec Ideal S64x1 .f32) (xs1 : Vec Ideal S64x64 .f32) (a b : Fin 64) :
    sout0_C_1 (F := Ideal) c i arg2 harg2 arg3 harg3 arg4 harg4 arg5 harg5 arg6 harg6 hc0 hc1 x0 xs0 xs1 (ix2 a b)
      = (xs1 (ix2 a b) : EReal) + ((tileGram x0 a.val b.val : ℕ) : EReal) :=
  (congrFun (pieceC1 (F := Ideal) c i arg2 harg2 arg3 harg3 arg4 harg4 arg5 harg5 arg6 harg6 hc0 hc1 x0 xs0 xs1) (ix2 a b)).trans (Cert.Payload.gram_entry x0 xs1 a b)

theorem outC_count (hc0 : ¬cond0_0 i) (hc1 : cond0_1 i) (x0 : Vec Ideal S4x8192 .i32)
    (xs0 : Vec Ideal S64x1 .f32) (xs1 : Vec Ideal S64x64 .f32) (e : Fin 64) :
    out0_C_1 (F := Ideal) c i arg2 harg2 arg3 harg3 arg4 harg4 arg5 harg5 arg6 harg6 hc0 hc1 x0 xs0 xs1 (ix3 0 e 0)
      = (xs0 (ix2 e 0) : EReal) + ((tileCount x0 e.val : ℕ) : EReal) :=
  (congrFun (pieceCo1 (F := Ideal) c i arg2 harg2 arg3 harg3 arg4 harg4 arg5 harg5 arg6 harg6 hc0 hc1 x0 xs0 xs1) (ix3 0 e 0)).trans
    ((Cert.Payload.out_count_entry (k0_pay1 (F := Ideal) xs0 (k0_pay8 (F := Ideal) x0)) e).trans (Cert.Payload.count_entry xs0 x0 e))

theorem outC_gram (hc0 : ¬cond0_0 i) (hc1 : cond0_1 i) (x0 : Vec Ideal S4x8192 .i32)
    (xs0 : Vec Ideal S64x1 .f32) (xs1 : Vec Ideal S64x64 .f32) (a b : Fin 64) :
    out0_C_2 (F := Ideal) c i arg2 harg2 arg3 harg3 arg4 harg4 arg5 harg5 arg6 harg6 hc0 hc1 x0 xs0 xs1 (ix3 0 a b)
      = (xs1 (ix2 a b) : EReal) + ((tileGram x0 a.val b.val : ℕ) : EReal) :=
  (congrFun (pieceCo2 (F := Ideal) c i arg2 harg2 arg3 harg3 arg4 harg4 arg5 harg5 arg6 harg6 hc0 hc1 x0 xs0 xs1) (ix3 0 a b)).trans
    ((Cert.Payload.out_gram_entry (k0_pay7 (F := Ideal) x0 xs1) a b).trans (Cert.Payload.gram_entry x0 xs1 a b))

end Cert.TileValue

end
-- ==== Proof.Accumulate.lean ====
/-
  The two partial results the pallas_call leaves in HBM. The grid is 2 halves × 128 tiles; within a half the two
  accumulators run from the half's first tile to its last, where they are written back into the half's slot of the
  outputs. So slot `h` of the first output holds the half's share of the histogram, `partCount`, and slot `h` of the
  second the half's share of the Gram matrix, `partGram`, of the transposed index array the region was launched on.
-/
import proofs.«427305_j1271310319887_2_alg».proof.Proof.TileValue
import Idealize.ShloMosaic.Lib.Pipeline.Value

noncomputable section

namespace Cert.Accumulate

open Idealize.ShloMosaic Idealize.ShloMosaic.ValueIdx Cert.KernelIdeal Cert.KernelIdeal.Gen Cert.Coact
open Idealize.ShloMosaic.TcCoe

variable (m : (ℓ : Loc nD τ sig) → Buf (Elt Ideal) ℓ)

/-- The tile a point works on: lane `u` of slot `k` at point `t` is token `8192·t + u` of the transposed array. -/
theorem iblk_apply (c : Dev nD) (t : Fin cfg0.N) (k : Fin 4) (u : Fin 8192) (hn : t.val * 8192 + u.val < 2097152) :
    iblk m c 0 t (ix2 k u) = V m c main_v0 (ix2 k ⟨t.val * 8192 + u.val, hn⟩) := by
  have hi : win0_0.index t (0 : Fin 2) = 0 ∧ win0_0.index t (1 : Fin 2) = t.val :=
    (by decide +kernel : ∀ t : Fin grid0.N, win0_0.index t (0 : Fin 2) = 0 ∧ win0_0.index t (1 : Fin 2) = t.val) t
  unfold iblk
  rw [View.read_apply]
  show V m c main_v0 _ = V m c main_v0 _
  congr 1
  funext a
  apply Fin.ext
  match a with
  | ⟨0, _⟩ => show win0_0.index t 0 * 4 + 1 * k.val = k.val; rw [hi.1]; omega
  | ⟨1, _⟩ => show win0_0.index t 1 * 8192 + 1 * u.val = t.val * 8192 + u.val; rw [hi.2]; omega

/-! ## What one point adds -/

/-- The tile of point `t`, at its literal type. -/
abbrev tile (c : Dev nD) (t : Fin cfg0.N) : Vec Ideal S4x8192 .i32 := iblk m c 0 t

/-- What the point before `t` left (the two outputs' buffers and the two accumulators). -/
abbrev prevAt (c : Dev nD) (t : Fin cfg0.N) :=
  outsAt0 m c (t.val - 1) (Nat.lt_of_le_of_lt (Nat.sub_le _ _) t.isLt)

/-- The first point of a half leaves the tile's own shares in the accumulators. -/
theorem first_point (c : Dev nD) (t : Fin cfg0.N) (h0 : t.val % 128 = 0) (h1 : ¬t.val % 128 = 127) :
    (∀ e : Fin 64, (outsAt0 m c t.val t.isLt).2.2.1 (ix2 e 0) = ((tileCount (tile m c t) e.val : ℕ) : EReal))
    ∧ (∀ a b : Fin 64, (outsAt0 m c t.val t.isLt).2.2.2 (ix2 a b) = ((tileGram (tile m c t) a.val b.val : ℕ) : EReal)) := by
  rw [outsAt0_A m c t h0 h1]
  dsimp only
  exact ⟨fun e => Cert.TileValue.scratchA_count c (grid0.coords t) (ms0_0 t) (hs0_0 t) (ms0_1 t) (hs0_1 t) (ms0_2 t) (hs0_2 t)
      scM0_0 (Memref.isWhole_whole _) scM0_1 (Memref.isWhole_whole _) ((hcond0_0 t).mpr h0) (fun h => h1 ((hcond0_1 t).mp h))
      (iblk m c 0 t) e,
    fun a b => Cert.TileValue.scratchA_gram c (grid0.coords t) (ms0_0 t) (hs0_0 t) (ms0_1 t) (hs0_1 t) (ms0_2 t) (hs0_2 t)
      scM0_0 (Memref.isWhole_whole _) scM0_1 (Memref.isWhole_whole _) ((hcond0_0 t).mpr h0) (fun h => h1 ((hcond0_1 t).mp h))
      (iblk m c 0 t) a b⟩

/-- A middle point of a half adds the tile's shares to what the point before left in the accumulators. -/
theorem middle_point (c : Dev nD) (t : Fin cfg0.N) (h0 : ¬t.val % 128 = 0) (h1 : ¬t.val % 128 = 127) :
    (∀ e : Fin 64, (outsAt0 m c t.val t.isLt).2.2.1 (ix2 e 0)
        = ((prevAt m c t).2.2.1 (ix2 e 0) : EReal) + ((tileCount (tile m c t) e.val : ℕ) : EReal))
    ∧ (∀ a b : Fin 64, (outsAt0 m c t.val t.isLt).2.2.2 (ix2 a b)
        = ((prevAt m c t).2.2.2 (ix2 a b) : EReal) + ((tileGram (tile m c t) a.val b.val : ℕ) : EReal)) := by
  rw [outsAt0_B m c t h0 h1]
  dsimp only
  exact ⟨fun e => Cert.TileValue.scratchB_count c (grid0.coords t) (ms0_0 t) (hs0_0 t) (ms0_1 t) (hs0_1 t) (ms0_2 t) (hs0_2 t)
      scM0_0 (Memref.isWhole_whole _) scM0_1 (Memref.isWhole_whole _) (fun h => h0 ((hcond0_0 t).mp h)) (fun h => h1 ((hcond0_1 t).mp h))
      (iblk m c 0 t) (prevAt m c t).2.2.1 (prevAt m c t).2.2.2 e,
    fun a b => Cert.TileValue.scratchB_gram c (grid0.coords t) (ms0_0 t) (hs0_0 t) (ms0_1 t) (hs0_1 t) (ms0_2 t) (hs0_2 t)
      scM0_0 (Memref.isWhole_whole _) scM0_1 (Memref.isWhole_whole _) (fun h => h0 ((hcond0_0 t).mp h)) (fun h => h1 ((hcond0_1 t).mp h))
      (iblk m c 0 t) (prevAt m c t).2.2.1 (prevAt m c t).2.2.2 a b⟩

/-- The last point of a half does the same to the accumulators … -/
theorem last_point_acc (c : Dev nD) (t : Fin cfg0.N) (h0 : ¬t.val % 128 = 0) (h1 : t.val % 128 = 127) :
    (∀ e : Fin 64, (outsAt0 m c t.val t.isLt).2.2.1 (ix2 e 0)
        = ((prevAt m c t).2.2.1 (ix2 e 0) : EReal) + ((tileCount (tile m c t) e.val : ℕ) : EReal))
    ∧ (∀ a b : Fin 64, (outsAt0 m c t.val t.isLt).2.2.2 (ix2 a b)
        = ((prevAt m c t).2.2.2 (ix2 a b) : EReal) + ((tileGram (tile m c t) a.val b.val : ℕ) : EReal)) := by
  rw [outsAt0_C m c t h0 h1]
  dsimp only
  exact ⟨fun e => Cert.TileValue.scratchC_count c (grid0.coords t) (ms0_0 t) (hs0_0 t) (ms0_1 t) (hs0_1 t) (ms0_2 t) (hs0_2 t)
      scM0_0 (Memref.isWhole_whole _) scM0_1 (Memref.isWhole_whole _) (fun h => h0 ((hcond0_0 t).mp h)) ((hcond0_1 t).mpr h1)
      (iblk m c 0 t) (prevAt m c t).2.2.1 (prevAt m c t).2.2.2 e,
    fun a b => Cert.TileValue.scratchC_gram c (grid0.coords t) (ms0_0 t) (hs0_0 t) (ms0_1 t) (hs0_1 t) (ms0_2 t) (hs0_2 t)
      scM0_0 (Memref.isWhole_whole _) scM0_1 (Memref.isWhole_whole _) (fun h => h0 ((hcond0_0 t).mp h)) ((hcond0_1 t).mpr h1)
      (iblk m c 0 t) (prevAt m c t).2.2.1 (prevAt m c t).2.2.2 a b⟩

/-- … and leaves the same sums in the two outputs' buffers. -/
theorem last_point_out (c : Dev nD) (t : Fin cfg0.N) (h0 : ¬t.val % 128 = 0) (h1 : t.val % 128 = 127) :
    (∀ e : Fin 64, (outsAt0 m c t.val t.isLt).1 (ix3 0 e 0)
        = ((prevAt m c t).2.2.1 (ix2 e 0) : EReal) + ((tileCount (tile m c t) e.val : ℕ) : EReal))
    ∧ (∀ a b : Fin 64, (outsAt0 m c t.val t.isLt).2.1 (ix3 0 a b)
        = ((prevAt m c t).2.2.2 (ix2 a b) : EReal) + ((tileGram (tile m c t) a.val b.val : ℕ) : EReal)) := by
  rw [outsAt0_C m c t h0 h1]
  dsimp only
  exact ⟨fun e => Cert.TileValue.outC_count c (grid0.coords t) (ms0_0 t) (hs0_0 t) (ms0_1 t) (hs0_1 t) (ms0_2 t) (hs0_2 t)
      scM0_0 (Memref.isWhole_whole _) scM0_1 (Memref.isWhole_whole _) (fun h => h0 ((hcond0_0 t).mp h)) ((hcond0_1 t).mpr h1)
      (iblk m c 0 t) (prevAt m c t).2.2.1 (prevAt m c t).2.2.2 e,
    fun a b => Cert.TileValue.outC_gram c (grid0.coords t) (ms0_0 t) (hs0_0 t) (ms0_1 t) (hs0_1 t) (ms0_2 t) (hs0_2 t)
      scM0_0 (Memref.isWhole_whole _) scM0_1 (Memref.isWhole_whole _) (fun h => h0 ((hcond0_0 t).mp h)) ((hcond0_1 t).mpr h1)
      (iblk m c 0 t) (prevAt m c t).2.2.1 (prevAt m c t).2.2.2 a b⟩

/-! ## The running sums inside a half -/

/-- Tile `n`'s share of the histogram (zero past the grid). -/
def tcnt (c : Dev nD) (e : ℕ) (n : ℕ) : ℕ := if h : n < cfg0.N then tileCount (tile m c ⟨n, h⟩) e else 0

/-- Tile `n`'s share of the Gram matrix (zero past the grid). -/
def tgrm (c : Dev nD) (a b : ℕ) (n : ℕ) : ℕ := if h : n < cfg0.N then tileGram (tile m c ⟨n, h⟩) a b else 0

theorem tcnt_val (c : Dev nD) (e : ℕ) (t : Fin cfg0.N) : tcnt m c e t.val = tileCount (tile m c t) e := by
  unfold tcnt; exact dif_pos t.isLt

theorem tgrm_val (c : Dev nD) (a b : ℕ) (t : Fin cfg0.N) : tgrm m c a b t.val = tileGram (tile m c t) a b := by
  unfold tgrm; exact dif_pos t.isLt

/-- The sum over the tiles of `n`'s half up to `n`, when `n` is the half's first tile, is tile `n`'s share. -/
theorem sum_first (f : ℕ → ℕ) (n : ℕ) (h0 : n % 128 = 0) :
    ∑ s ∈ Finset.range (n % 128 + 1), f (n - n % 128 + s) = f n := by
  rw [h0, Nat.zero_add, Nat.sub_zero, Finset.sum_range_one, Nat.add_zero]

/-- The sum over the tiles of a half up to `k + 1`, when that is not the half's first tile, is the sum up to `k` plus
    tile `k + 1`'s share. -/
theorem sum_next (f : ℕ → ℕ) (k : ℕ) (h0 : ¬(k + 1) % 128 = 0) :
    ∑ s ∈ Finset.range ((k + 1) % 128 + 1), f (k + 1 - (k + 1) % 128 + s)
      = ∑ s ∈ Finset.range (k % 128 + 1), f (k - k % 128 + s) + f (k + 1) := by
  have e1 : (k + 1) % 128 = k % 128 + 1 := by omega
  have e2 : k + 1 - (k % 128 + 1) = k - k % 128 := by omega
  have e3 : k - k % 128 + (k % 128 + 1) = k + 1 := by omega
  rw [e1, e2, Finset.sum_range_succ, e3]

/-- THE INVARIANT. After point `n` the two accumulators hold the sums of the shares of the tiles of `n`'s half from its
    first tile `n - n % 128` up to `n`. -/
theorem acc_at (c : Dev nD) (n : ℕ) : ∀ hn : n < cfg0.N,
    (∀ e : Fin 64, (outsAt0 m c n hn).2.2.1 (ix2 e 0)
        = ((∑ s ∈ Finset.range (n % 128 + 1), tcnt m c e.val (n - n % 128 + s) : ℕ) : EReal))
    ∧ (∀ a b : Fin 64, (outsAt0 m c n hn).2.2.2 (ix2 a b)
        = ((∑ s ∈ Finset.range (n % 128 + 1), tgrm m c a.val b.val (n - n % 128 + s) : ℕ) : EReal)) := by
  have first : ∀ (n : ℕ) (hn : n < cfg0.N), n % 128 = 0 →
      (∀ e : Fin 64, (outsAt0 m c n hn).2.2.1 (ix2 e 0)
          = ((∑ s ∈ Finset.range (n % 128 + 1), tcnt m c e.val (n - n % 128 + s) : ℕ) : EReal))
      ∧ (∀ a b : Fin 64, (outsAt0 m c n hn).2.2.2 (ix2 a b)
          = ((∑ s ∈ Finset.range (n % 128 + 1), tgrm m c a.val b.val (n - n % 128 + s) : ℕ) : EReal)) := by
    intro n hn h0
    have S := first_point m c ⟨n, hn⟩ h0 (by show ¬n % 128 = 127; omega)
    refine ⟨fun e => ?_, fun a b => ?_⟩
    · rw [sum_first _ n h0]
      exact (S.1 e).trans (congrArg _ (tcnt_val m c e.val ⟨n, hn⟩).symm)
    · rw [sum_first _ n h0]
      exact (S.2 a b).trans (congrArg _ (tgrm_val m c a.val b.val ⟨n, hn⟩).symm)
  induction n with
  | zero => exact fun hn => first 0 hn rfl
  | succ k ih =>
    intro hn
    by_cases h0 : (k + 1) % 128 = 0
    · exact first (k + 1) hn h0
    · have hk : k < cfg0.N := Nat.lt_of_succ_lt hn
      have S : (∀ e : Fin 64, (outsAt0 m c (k + 1) hn).2.2.1 (ix2 e 0)
            = ((outsAt0 m c k hk).2.2.1 (ix2 e 0) : EReal) + ((tileCount (tile m c ⟨k + 1, hn⟩) e.val : ℕ) : EReal))
          ∧ (∀ a b : Fin 64, (outsAt0 m c (k + 1) hn).2.2.2 (ix2 a b)
            = ((outsAt0 m c k hk).2.2.2 (ix2 a b) : EReal) + ((tileGram (tile m c ⟨k + 1, hn⟩) a.val b.val : ℕ) : EReal)) := by
        by_cases h1 : (k + 1) % 128 = 127
        · exact last_point_acc m c ⟨k + 1, hn⟩ h0 h1
        · exact middle_point m c ⟨k + 1, hn⟩ h0 h1
      refine ⟨fun e => ?_, fun a b => ?_⟩
      · rw [sum_next _ k h0, Nat.cast_add, ← (ih hk).1 e]
        exact (S.1 e).trans (congrArg _ (congrArg _ (tcnt_val m c e.val ⟨k + 1, hn⟩).symm))
      · rw [sum_next _ k h0, Nat.cast_add, ← (ih hk).2 a b]
        exact (S.2 a b).trans (congrArg _ (congrArg _ (tgrm_val m c a.val b.val ⟨k + 1, hn⟩).symm))

/-! ## A half's tiles are the half's tokens -/

/-- Inside tile `t = 128·h + q`, lane `u`'s selection count is that of token `tok h q u` of the transposed array. -/
theorem tileSel_tile (c : Dev nD) (h : Fin 2) (q : Fin 128) (t : Fin cfg0.N) (ht : t.val = 128 * h.val + q.val)
    (u : Fin 8192) (e : ℕ) : tileSel (tile m c t) u e = selT (V m c main_v0) (tok h q u) e := by
  unfold tileSel selT
  refine Finset.sum_congr rfl fun k _ => ?_
  have hn : t.val * 8192 + u.val < 2097152 := by have := h.isLt; have := q.isLt; have := u.isLt; omega
  have e2 : (⟨t.val * 8192 + u.val, hn⟩ : Fin 2097152) = tok h q u := Fin.ext (by simp only [tok]; omega)
  have e1 : tile m c t (ix2 k u) = V m c main_v0 (ix2 k (tok h q u)) :=
    (iblk_apply m c t k u hn).trans (by rw [e2])
  rw [e1]

/-- So the tile's share of the histogram is the sum over its 8192 tokens … -/
theorem tileCount_tile (c : Dev nD) (h : Fin 2) (q : Fin 128) (t : Fin cfg0.N) (ht : t.val = 128 * h.val + q.val) (e : ℕ) :
    tileCount (tile m c t) e = ∑ u : Fin 8192, selT (V m c main_v0) (tok h q u) e := by
  unfold tileCount
  exact Finset.sum_congr rfl fun u _ => tileSel_tile m c h q t ht u e

/-- … and its share of the Gram matrix the sum of their products. -/
theorem tileGram_tile (c : Dev nD) (h : Fin 2) (q : Fin 128) (t : Fin cfg0.N) (ht : t.val = 128 * h.val + q.val) (a b : ℕ) :
    tileGram (tile m c t) a b = ∑ u : Fin 8192, selT (V m c main_v0) (tok h q u) a * selT (V m c main_v0) (tok h q u) b := by
  unfold tileGram
  exact Finset.sum_congr rfl fun u _ => by rw [tileSel_tile m c h q t ht u a, tileSel_tile m c h q t ht u b]

/-- The shares of a half's 128 tiles add up to the half's share of the histogram … -/
theorem half_count (c : Dev nD) (h : Fin 2) (e : ℕ) :
    ∑ s ∈ Finset.range 128, tcnt m c e (128 * h.val + s) = partCount (V m c main_v0) h e := by
  rw [Finset.sum_range]
  unfold partCount
  refine Finset.sum_congr rfl fun q _ => ?_
  have hN : cfg0.N = 256 := N_0
  have hq : 128 * h.val + q.val < cfg0.N := by have := h.isLt; have := q.isLt; omega
  exact (tcnt_val m c e ⟨128 * h.val + q.val, hq⟩).trans (tileCount_tile m c h q ⟨_, hq⟩ rfl e)

/-- … and of the Gram matrix. -/
theorem half_gram (c : Dev nD) (h : Fin 2) (a b : ℕ) :
    ∑ s ∈ Finset.range 128, tgrm m c a b (128 * h.val + s) = partGram (V m c main_v0) h a b := by
  rw [Finset.sum_range]
  unfold partGram
  refine Finset.sum_congr rfl fun q _ => ?_
  have hN : cfg0.N = 256 := N_0
  have hq : 128 * h.val + q.val < cfg0.N := by have := h.isLt; have := q.isLt; omega
  exact (tgrm_val m c a b ⟨128 * h.val + q.val, hq⟩).trans (tileGram_tile m c h q ⟨_, hq⟩ rfl a b)

/-! ## What the run leaves in the outputs -/

/-- After the last point `t` of half `h` the first output's buffer holds the half's share of the histogram … -/
theorem out_count (c : Dev nD) (h : Fin 2) (t : Fin cfg0.N) (ht : t.val = 128 * h.val + 127) (e : Fin 64) :
    (outsAt0 m c t.val t.isLt).1 (ix3 0 e 0) = ((partCount (V m c main_v0) h e.val : ℕ) : EReal) := by
  have hN : cfg0.N = 256 := N_0
  have h0 : ¬t.val % 128 = 0 := by omega
  have h1 : t.val % 128 = 127 := by omega
  have hp : t.val - 1 < cfg0.N := Nat.lt_of_le_of_lt (Nat.sub_le _ _) t.isLt
  have A := (acc_at m c (t.val - 1) hp).1 e
  have e1 : (t.val - 1) % 128 + 1 = 127 := by omega
  have e2 : t.val - 1 - (t.val - 1) % 128 = 128 * h.val := by omega
  rw [e1, e2] at A
  have key : ∑ s ∈ Finset.range 128, tcnt m c e.val (128 * h.val + s)
      = ∑ s ∈ Finset.range 127, tcnt m c e.val (128 * h.val + s) + tcnt m c e.val (128 * h.val + 127) :=
    Finset.sum_range_succ _ 127
  rw [← half_count m c h e.val, key, Nat.cast_add, ← A, ← ht, tcnt_val m c e.val t]
  exact (last_point_out m c t h0 h1).1 e

/-- … and the second output's buffer the half's share of the Gram matrix. -/
theorem out_gram (c : Dev nD) (h : Fin 2) (t : Fin cfg0.N) (ht : t.val = 128 * h.val + 127) (a b : Fin 64) :
    (outsAt0 m c t.val t.isLt).2.1 (ix3 0 a b) = ((partGram (V m c main_v0) h a.val b.val : ℕ) : EReal) := by
  have hN : cfg0.N = 256 := N_0
  have h0 : ¬t.val % 128 = 0 := by omega
  have h1 : t.val % 128 = 127 := by omega
  have hp : t.val - 1 < cfg0.N := Nat.lt_of_le_of_lt (Nat.sub_le _ _) t.isLt
  have A := (acc_at m c (t.val - 1) hp).2 a b
  have e1 : (t.val - 1) % 128 + 1 = 127 := by omega
  have e2 : t.val - 1 - (t.val - 1) % 128 = 128 * h.val := by omega
  rw [e1, e2] at A
  have key : ∑ s ∈ Finset.range 128, tgrm m c a.val b.val (128 * h.val + s)
      = ∑ s ∈ Finset.range 127, tgrm m c a.val b.val (128 * h.val + s) + tgrm m c a.val b.val (128 * h.val + 127) :=
    Finset.sum_range_succ _ 127
  rw [← half_gram m c h a.val b.val, key, Nat.cast_add, ← A, ← ht, tgrm_val m c a.val b.val t]
  exact (last_point_out m c t h0 h1).2 a b

/-- The first output as the run leaves it: slot `h` holds the half's share of the histogram. -/
abbrev countsArr (c : Dev nD) : Buf (Elt Ideal) ((c : Thread nD τ).loc main_v1_0) :=
  fun i => ((partCount (V m c main_v0) (i 0) (i 1).val : ℕ) : EReal)

/-- The second output as the run leaves it: slot `h` holds the half's share of the Gram matrix. -/
abbrev gramArr (c : Dev nD) : Buf (Elt Ideal) ((c : Thread nD τ).loc main_v1_1) :=
  fun i => ((partGram (V m c main_v0) (i 0) (i 1).val (i 2).val : ℕ) : EReal)

/-- The first output's block at point `t` is slot `t / 128`, whole. -/
theorem index1 : ∀ t : Fin cfg0.N, win0_1.index t (0 : Fin 3) = t.val / 128 ∧ win0_1.index t (1 : Fin 3) = 0 ∧ win0_1.index t (2 : Fin 3) = 0 :=
  (by decide +kernel : ∀ t : Fin grid0.N, win0_1.index t (0 : Fin 3) = t.val / 128 ∧ win0_1.index t (1 : Fin 3) = 0 ∧ win0_1.index t (2 : Fin 3) = 0)

/-- The second output's block at point `t` is slot `t / 128`, whole. -/
theorem index2 : ∀ t : Fin cfg0.N, win0_2.index t (0 : Fin 3) = t.val / 128 ∧ win0_2.index t (1 : Fin 3) = 0 ∧ win0_2.index t (2 : Fin 3) = 0 :=
  (by decide +kernel : ∀ t : Fin grid0.N, win0_2.index t (0 : Fin 3) = t.val / 128 ∧ win0_2.index t (1 : Fin 3) = 0 ∧ win0_2.index t (2 : Fin 3) = 0)

/-- What a half's last point writes back into the first output is its slot of `countsArr`. -/
theorem flushed1_eq (c : Dev nD) (t : Fin cfg0.N) (hf : (cfg0.win 1).flush t = true) :
    (dats m 0 c).flushed 1 t = ((cfg0.win 1).blk t).view.read (Elt Ideal) (countsArr m c) := by
  have hN : cfg0.N = 256 := N_0
  have h1 : t.val % 128 = 127 := (flush0_1 t).mp hf
  have hh : t.val / 128 < 2 := by have := t.isLt; omega
  show (cfg0.win 1).cut (grid0.coords t) ((dats m 0 c).after 1 t) = _
  rw [after0_1]
  funext y
  obtain ⟨z, e, o, rfl⟩ : ∃ (z : Fin 1) (e : Fin 64) (o : Fin 1), y = ix3 z e o := ⟨y 0, y 1, y 2, eq_ix3 y⟩
  obtain rfl : z = 0 := Subsingleton.elim _ _
  obtain rfl : o = 0 := Subsingleton.elim _ _
  rw [View.read_apply]
  have key : ((cfg0.win 1).blk t).view.emb (ix3 0 e 0) = ix3 (⟨t.val / 128, hh⟩ : Fin 2) e (0 : Fin 1) := by
    funext a
    apply Fin.ext
    match a with
    | ⟨0, _⟩ => show win0_1.index t 0 * 1 + 1 * 0 = t.val / 128; rw [(index1 t).1]; omega
    | ⟨1, _⟩ => show win0_1.index t 1 * 64 + 1 * e.val = e.val; rw [(index1 t).2.1]; omega
    | ⟨2, _⟩ => show win0_1.index t 2 * 1 + 1 * 0 = 0; rw [(index1 t).2.2]
  rw [key]
  show (outsAt0 m c t.val t.isLt).1 (ix3 0 e 0) = ((partCount (V m c main_v0) ⟨t.val / 128, hh⟩ e.val : ℕ) : EReal)
  exact out_count m c ⟨t.val / 128, hh⟩ t (by show t.val = 128 * (t.val / 128) + 127; omega) e

/-- What a half's last point writes back into the second output is its slot of `gramArr`. -/
theorem flushed2_eq (c : Dev nD) (t : Fin cfg0.N) (hf : (cfg0.win 2).flush t = true) :
    (dats m 0 c).flushed 2 t = ((cfg0.win 2).blk t).view.read (Elt Ideal) (gramArr m c) := by
  have hN : cfg0.N = 256 := N_0
  have h1 : t.val % 128 = 127 := (flush0_2 t).mp hf
  have hh : t.val / 128 < 2 := by have := t.isLt; omega
  show (cfg0.win 2).cut (grid0.coords t) ((dats m 0 c).after 2 t) = _
  rw [after0_2]
  funext y
  obtain ⟨z, a, b, rfl⟩ : ∃ (z : Fin 1) (a : Fin 64) (b : Fin 64), y = ix3 z a b := ⟨y 0, y 1, y 2, eq_ix3 y⟩
  obtain rfl : z = 0 := Subsingleton.elim _ _
  rw [View.read_apply]
  have key : ((cfg0.win 2).blk t).view.emb (ix3 0 a b) = ix3 (⟨t.val / 128, hh⟩ : Fin 2) a b := by
    funext d
    apply Fin.ext
    match d with
    | ⟨0, _⟩ => show win0_2.index t 0 * 1 + 1 * 0 = t.val / 128; rw [(index2 t).1]; omega
    | ⟨1, _⟩ => show win0_2.index t 1 * 64 + 1 * a.val = a.val; rw [(index2 t).2.1]; omega
    | ⟨2, _⟩ => show win0_2.index t 2 * 64 + 1 * b.val = b.val; rw [(index2 t).2.2]; omega
  rw [key]
  show (outsAt0 m c t.val t.isLt).2.1 (ix3 0 a b) = ((partGram (V m c main_v0) ⟨t.val / 128, hh⟩ a.val b.val : ℕ) : EReal)
  exact out_gram m c ⟨t.val / 128, hh⟩ t (by show t.val = 128 * (t.val / 128) + 127; omega) a b

/-- Slot `h` of the first output lies in the block of every point of half `h` … -/
theorem mem_blk1 (t : Fin cfg0.N) (h : Fin 2) (hh : t.val / 128 = h.val) (e : Fin 64) :
    ix3 h e (0 : Fin 1) ∈ ((cfg0.win 1).blk t).view.set := by
  show ix3 h e 0 ∈ ((View.whole main_v1_0).slice (win0_1.rect t)).set
  rw [View.set_slice_whole, Rect.mem_set_unit]
  intro a
  match a with
  | ⟨0, _⟩ => show win0_1.index t 0 * 1 ≤ h.val ∧ h.val < win0_1.index t 0 * 1 + 1; rw [(index1 t).1]; omega
  | ⟨1, _⟩ => show win0_1.index t 1 * 64 ≤ e.val ∧ e.val < win0_1.index t 1 * 64 + 64; rw [(index1 t).2.1]; have := e.isLt; omega
  | ⟨2, _⟩ => show win0_1.index t 2 * 1 ≤ 0 ∧ 0 < win0_1.index t 2 * 1 + 1; rw [(index1 t).2.2]; omega

/-- … and slot `h` of the second output likewise. -/
theorem mem_blk2 (t : Fin cfg0.N) (h : Fin 2) (hh : t.val / 128 = h.val) (a b : Fin 64) :
    ix3 h a b ∈ ((cfg0.win 2).blk t).view.set := by
  show ix3 h a b ∈ ((View.whole main_v1_1).slice (win0_2.rect t)).set
  rw [View.set_slice_whole, Rect.mem_set_unit]
  intro d
  match d with
  | ⟨0, _⟩ => show win0_2.index t 0 * 1 ≤ h.val ∧ h.val < win0_2.index t 0 * 1 + 1; rw [(index2 t).1]; omega
  | ⟨1, _⟩ => show win0_2.index t 1 * 64 ≤ a.val ∧ a.val < win0_2.index t 1 * 64 + 64; rw [(index2 t).2.1]; have := a.isLt; omega
  | ⟨2, _⟩ => show win0_2.index t 2 * 64 ≤ b.val ∧ b.val < win0_2.index t 2 * 64 + 64; rw [(index2 t).2.2]; have := b.isLt; omega

/-- Slot `h` of the first output after the run: the half's share of the histogram. -/
theorem counts_partial (c : Dev nD) (h : Fin 2) (e : Fin 64) :
    (dats (F := Ideal) m 0 c).arrAt 1 cfg0.N (ix3 h e 0) = ((partCount (V m c main_v0) h e.val : ℕ) : EReal) := by
  have hN : cfg0.N = 256 := N_0
  have ht : 128 * h.val + 127 < cfg0.N := by have := h.isLt; omega
  exact (dats m 0 c).arrAt_apply_of_mem 1 (countsArr m c) (flushed1_eq m c) cfg0.N ⟨128 * h.val + 127, ht⟩ (ix3 h e 0) ht
    ((flush0_1 ⟨128 * h.val + 127, ht⟩).mpr (by show (128 * h.val + 127) % 128 = 127; omega))
    (mem_blk1 ⟨128 * h.val + 127, ht⟩ h (by show (128 * h.val + 127) / 128 = h.val; omega) e)

/-- Slot `h` of the second output after the run: the half's share of the Gram matrix. -/
theorem gram_partial (c : Dev nD) (h : Fin 2) (a b : Fin 64) :
    (dats (F := Ideal) m 0 c).arrAt 2 cfg0.N (ix3 h a b) = ((partGram (V m c main_v0) h a.val b.val : ℕ) : EReal) := by
  have hN : cfg0.N = 256 := N_0
  have ht : 128 * h.val + 127 < cfg0.N := by have := h.isLt; omega
  exact (dats m 0 c).arrAt_apply_of_mem 2 (gramArr m c) (flushed2_eq m c) cfg0.N ⟨128 * h.val + 127, ht⟩ (ix3 h a b) ht
    ((flush0_2 ⟨128 * h.val + 127, ht⟩).mpr (by show (128 * h.val + 127) % 128 = 127; omega))
    (mem_blk2 ⟨128 * h.val + 127, ht⟩ h (by show (128 * h.val + 127) / 128 = h.val; omega) a b)

end Cert.Accumulate

end
-- ==== Proof.KernelValue.lean ====
/-
  The kernel program's two results as the specification's functions of the argument arrays: the two halves' partial
  histograms and Gram matrices add up to the whole ones; the first result is the moving average of the histogram; and
  in the second, adding the Gram matrix and taking the diagonal matrix of the histogram away again leaves the ordered
  slot pairs in both orders (the law `gram_eq`).
-/
import proofs.«427305_j1271310319887_2_alg».proof.Proof.Tail
import proofs.«427305_j1271310319887_2_alg».proof.Proof.Accumulate
import proofs.«427305_j1271310319887_2_alg».proof.Proof.Spec

noncomputable section

namespace Cert.KernelValue

open Idealize.ShloMosaic Idealize.ShloMosaic.ValueIdx Idealize.SL.Sem Cert.KernelIdeal Cert.KernelIdeal.Gen

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11)
          = Cert.Coact.loadOut (m ((c.tc : Thread nD τ).loc main_arg0)) (m ((c.tc : Thread nD τ).loc main_arg2))
      ∧ r.2.mem ((c.tc : Thread nD τ).loc main_v14)
          = Cert.Coact.coactOut (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ?_) (Cert.Tail.run_tail m ρ)
  obtain ⟨h1, h2, h3, h4, h5, h6⟩ := h c
  -- the array the region was launched on is the transpose of the index argument
  have hT : ∀ (k : Fin 4) (n : Fin 2097152),
      V m c main_v0 (ix2 k n) = m ((c.tc : Thread nD τ).loc main_arg0) (ix2 n k) :=
    fun k n => Cert.Tail.transposed m c k n
  -- the two halves' histogram slots add up to the histogram
  have hcount : ∀ e : Fin 64, Cert.Tail.A1 m c (ix3 0 e 0) + Cert.Tail.A1 m c (ix3 1 e 0)
      = ((Cert.Coact.count (m ((c.tc : Thread nD τ).loc main_arg0)) e.val : ℕ) : EReal) := by
    intro e
    have c0 : Cert.Tail.A1 m c (ix3 0 e 0)
        = ((Cert.Coact.partCount (V m c main_v0) 0 e.val : ℕ) : EReal) := Cert.Accumulate.counts_partial m c 0 e
    have c1 : Cert.Tail.A1 m c (ix3 1 e 0)
        = ((Cert.Coact.partCount (V m c main_v0) 1 e.val : ℕ) : EReal) := Cert.Accumulate.counts_partial m c 1 e
    rw [c0, c1, ← Nat.cast_add, Cert.Coact.partCount_add _ _ hT]
  -- the two halves' Gram slots add up to the Gram matrix
  have hgram : ∀ a b : Fin 64, Cert.Tail.A2 m c (ix3 0 a b) + Cert.Tail.A2 m c (ix3 1 a b)
      = ((Cert.Coact.gram (m ((c.tc : Thread nD τ).loc main_arg0)) a.val b.val : ℕ) : EReal) := by
    intro a b
    have g0 : Cert.Tail.A2 m c (ix3 0 a b)
        = ((Cert.Coact.partGram (V m c main_v0) 0 a.val b.val : ℕ) : EReal) := Cert.Accumulate.gram_partial m c 0 a b
    have g1 : Cert.Tail.A2 m c (ix3 1 a b)
        = ((Cert.Coact.partGram (V m c main_v0) 1 a.val b.val : ℕ) : EReal) := Cert.Accumulate.gram_partial m c 1 a b
    rw [g0, g1, ← Nat.cast_add, Cert.Coact.partGram_add _ _ hT]
  refine ⟨?_, ?_, h3, h4, h5, h6⟩
  · -- the first result: the moving average of the histogram
    funext i
    obtain ⟨e, rfl⟩ : ∃ e : Fin 64, i = ix1 e := ⟨i 0, eq_ix1 i⟩
    rw [h1 e, hcount e]
    rfl
  · -- the second result: the Gram matrix comes in, its diagonal part goes out, the ordered pairs stay
    funext i
    obtain ⟨a, b, rfl⟩ : ∃ a b : Fin 64, i = ix2 a b := ⟨i 0, i 1, eq_ix2 i⟩
    have hd : (if a = b then ((Cert.Coact.count (m ((c.tc : Thread nD τ).loc main_arg0)) a.val : ℕ) : EReal) else 0)
        = (((if a.val = b.val then Cert.Coact.count (m ((c.tc : Thread nD τ).loc main_arg0)) a.val else 0) : ℕ) : EReal) := by
      by_cases hab : a = b
      · rw [if_pos hab, if_pos (congrArg Fin.val hab)]
      · rw [if_neg hab, if_neg (fun hv => hab (Fin.ext hv)), Nat.cast_zero]
    rw [h2 a b, hgram a b, hcount a, hd, Cert.Coact.gram_eq _ a.val b.val a.isLt b.isLt, Nat.add_assoc,
      Cert.Coact.add_sub_nat, Nat.cast_add, ← add_assoc]
    rfl

end Cert.KernelValue

end
-- ==== Proof.RefTerm.lean ====
/-
  The reference's two results as pure terms of its argument arrays: each line is one operation of the reference's
  host program, composed in order. `refLoad` is the moving average of the scatter-added histogram; `refCoact` the
  co-activation table after the two scatter-adds over the gathered slot pairs.
-/
import proofs.«427305_j1271310319887_2_alg».proof.ReferenceIdeal

noncomputable section

namespace Cert.RefTerm

open Idealize.ShloMosaic Cert.ReferenceIdeal Cert.ReferenceIdeal.Facts₀

variable {F : FTy → Type} [FloatOps F] [Cert.ReferenceIdeal.Facts]

/-- A flat index vector with its negative entries moved up by 64 (the wrap-around of a negative index). -/
def wrapFlat (v : IVec S8388608 32) : IVec S8388608 32 :=
  select (cmpi .slt v (broadcastInDim S8388608 ![] bcast_S_S8388608 (constantI S_ 32 0#32)))
    (addi v (broadcastInDim S8388608 ![] bcast_S_S8388608 (constantI S_ 32 64#32))) v

/-- The same wrap for the pair vectors. -/
def wrapPairs (v : IVec S12582912 32) : IVec S12582912 32 :=
  select (cmpi .slt v (broadcastInDim S12582912 ![] bcast_S_S12582912 (constantI S_ 32 0#32)))
    (addi v (broadcastInDim S12582912 ![] bcast_S_S12582912 (constantI S_ 32 64#32))) v

/-- The histogram: ones scatter-added into zeros at the flattened (wrapped) indices. -/
def refCounts (a0 : IVec S2097152x4 32) : FVec F S64 .f32 :=
  Host.scatterAdd scatter_S64_S8388608x1_S8388608_n_0_0_1
    (broadcastInDim S64 ![] bcast_S_S64 (constant S_ .f32 0x00000000#32))
    (broadcastInDim S8388608x1 ![0] bcast_S8388608_S8388608x1_0
      (wrapFlat (shapeCast S8388608 a0 shapeCasts_S2097152x4_S8388608)))
    (broadcastInDim S8388608 ![] bcast_S_S8388608 (constant S_ .f32 0x3F800000#32))

/-- First result: `ema · 0.99 + (counts / 2²¹) · 0.01`. -/
def refLoad (a0 : IVec S2097152x4 32) (a2 : FVec F S64 .f32) : FVec F S64 .f32 :=
  addf (mulf a2 (broadcastInDim S64 ![] bcast_S_S64 (constant S_ .f32 0x3F7D70A4#32)))
    (mulf (Host.divf (refCounts (F := F) a0) (broadcastInDim S64 ![] bcast_S_S64 (constant S_ .f32 0x4A000000#32)))
      (broadcastInDim S64 ![] bcast_S_S64 (constant S_ .f32 0x3C23D70A#32)))

/-- The slot numbers of a literal table, as gather start indices (the table's own negative-index wrap selects nothing:
    its mask is all false). -/
def slotStarts (lit : Fin 6 → BitVec 32) : IVec S6x1 32 :=
  broadcastInDim S6x1 ![0] bcast_S6_S6x1_0
    (select (constantI S6 1 0#1)
      (addi (fun i => lit (S6.rowMajor i)) (broadcastInDim S6 ![] bcast_S_S6 (constantI S_ 32 4#32)))
      (fun i => lit (S6.rowMajor i)))

/-- The six gathered slot columns, flattened: entry `6·n + p` is slot `lit p` of token `n`. -/
def pairCols (a0 : IVec S2097152x4 32) (lit : Fin 6 → BitVec 32) : IVec S12582912 32 :=
  shapeCast S12582912 (Host.gather gather_S2097152x4_S6x1_S2097152x6_0_1_n_n_1_1_20971521 a0 (slotStarts lit))
    shapeCasts_S2097152x6_S12582912

/-- Two index vectors side by side as the scatter's index pairs. -/
def pairIdx (u v : IVec S12582912 32) : IVec S12582912x2 32 :=
  concatenate S12582912x2 1
    [⟨S12582912x1, broadcastInDim S12582912x1 ![0] bcast_S12582912_S12582912x1_0 u⟩,
     ⟨S12582912x1, broadcastInDim S12582912x1 ![0] bcast_S12582912_S12582912x1_0 v⟩]
    concatenates_S12582912x1_S12582912x1_S12582912x2_d1

/-- Second result: the table, plus one at every (lower slot, upper slot) pair, plus one at every (upper, lower) pair. -/
def refCoact (a0 : IVec S2097152x4 32) (a3 : FVec F S64x64 .f32) : FVec F S64x64 .f32 :=
  Host.scatterAdd scatter_S64x64_S12582912x2_S12582912_n_01_01_1
    (Host.scatterAdd scatter_S64x64_S12582912x2_S12582912_n_01_01_1 a3
      (pairIdx (wrapPairs (pairCols a0 lit0)) (wrapPairs (pairCols a0 lit1)))
      (broadcastInDim S12582912 ![] bcast_S_S12582912 (constant S_ .f32 0x3F800000#32)))
    (pairIdx (wrapPairs (pairCols a0 lit1)) (wrapPairs (pairCols a0 lit0)))
    (broadcastInDim S12582912 ![] bcast_S_S12582912 (constant S_ .f32 0x3F800000#32))

end Cert.RefTerm

end
-- ==== Proof.RefRun.lean ====
/-
  The reference's run: every weakly fair execution of its host program terminates, with its two results at the
  composed terms of the argument arrays and the arguments unchanged.
-/
import proofs.«427305_j1271310319887_2_alg».proof.Proof.RefTerm
import proofs.«427305_j1271310319887_2_alg».proof.Proof.Gen.ReferenceIdeal
import Idealize.ShloMosaic.Lib.StableHlo.Run

noncomputable section

namespace Cert.RefRun

open Idealize.ShloMosaic Idealize.SL.Sem Cert.ReferenceIdeal Cert.RefTerm
open Idealize.ShloMosaic.StableHlo Cert.ReferenceIdeal.Facts₀

variable {F : FTy → Type} [FloatOps F]

/-- Operations 1 to 58: everything up to the two index columns of the first scatter. -/
abbrev opsA : List (HloOp τ sig (Elt F)) :=
  [ nullary main_c (fun i => lit0 (S6.rowMajor i)),
    nullary main_c_0 (constantI S6 1 0#1),
    nullary main_c_1 (fun i => lit1 (S6.rowMajor i)),
    nullary main_c_2 (constantI S6 1 0#1),
    reshape main_arg0 main_v0 rfl shapeCasts_S2097152x4_S8388608,
    nullary main_cst (constant S_ .f32 0x00000000#32),
    unary main_cst main_v1 (broadcastInDim S64 ![] bcast_S_S64 : (⟨S_, .f32⟩ : BufTy).Contents (Elt F) → (⟨S64, .f32⟩ : BufTy).Contents (Elt F)),
    nullary main_c_3 (constantI S_ 32 0#32),
    unary main_c_3 main_v2 (broadcastInDim S8388608 ![] bcast_S_S8388608 : (⟨S_, .i32⟩ : BufTy).Contents (Elt F) → (⟨S8388608, .i32⟩ : BufTy).Contents (Elt F)),
    binary main_v0 main_v2 main_v3 (cmpi .slt : (⟨S8388608, .i32⟩ : BufTy).Contents (Elt F) → (⟨S8388608, .i32⟩ : BufTy).Contents (Elt F) → (⟨S8388608, .i1⟩ : BufTy).Contents (Elt F)),
    nullary main_c_4 (constantI S_ 32 64#32),
    unary main_c_4 main_v4 (broadcastInDim S8388608 ![] bcast_S_S8388608 : (⟨S_, .i32⟩ : BufTy).Contents (Elt F) → (⟨S8388608, .i32⟩ : BufTy).Contents (Elt F)),
    binary main_v0 main_v4 main_v5 (addi : (⟨S8388608, .i32⟩ : BufTy).Contents (Elt F) → (⟨S8388608, .i32⟩ : BufTy).Contents (Elt F) → (⟨S8388608, .i32⟩ : BufTy).Contents (Elt F)),
    ternary main_v3 main_v5 main_v0 main_v6 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v6 main_v7 (broadcastInDim S8388608x1 ![0] bcast_S8388608_S8388608x1_0 : (⟨S8388608, .i32⟩ : BufTy).Contents (Elt F) → (⟨S8388608x1, .i32⟩ : BufTy).Contents (Elt F)),
    nullary main_cst_5 (constant S_ .f32 0x3F800000#32),
    unary main_cst_5 main_v8 (broadcastInDim S8388608 ![] bcast_S_S8388608 : (⟨S_, .f32⟩ : BufTy).Contents (Elt F) → (⟨S8388608, .f32⟩ : BufTy).Contents (Elt F)),
    ternary main_v1 main_v7 main_v8 main_v9 ((fun x i u => Host.scatterAdd scatter_S64_S8388608x1_S8388608_n_0_0_1 x i u) : (⟨S64, .f32⟩ : BufTy).Contents (Elt F) → (⟨S8388608x1, .i32⟩ : BufTy).Contents (Elt F) → (⟨S8388608, .f32⟩ : BufTy).Contents (Elt F) → (⟨S64, .f32⟩ : BufTy).Contents (Elt F)),
    nullary main_cst_6 (constant S_ .f32 0x4A000000#32),
    unary main_cst_6 main_v10 (broadcastInDim S64 ![] bcast_S_S64 : (⟨S_, .f32⟩ : BufTy).Contents (Elt F) → (⟨S64, .f32⟩ : BufTy).Contents (Elt F)),
    binary main_v9 main_v10 main_v11 (Host.divf : (⟨S64, .f32⟩ : BufTy).Contents (Elt F) → (⟨S64, .f32⟩ : BufTy).Contents (Elt F) → (⟨S64, .f32⟩ : BufTy).Contents (Elt F)),
    nullary main_cst_7 (constant S_ .f32 0x3F7D70A4#32),
    unary main_cst_7 main_v12 (broadcastInDim S64 ![] bcast_S_S64 : (⟨S_, .f32⟩ : BufTy).Contents (Elt F) → (⟨S64, .f32⟩ : BufTy).Contents (Elt F)),
    binary main_arg2 main_v12 main_v13 (mulf : (⟨S64, .f32⟩ : BufTy).Contents (Elt F) → (⟨S64, .f32⟩ : BufTy).Contents (Elt F) → (⟨S64, .f32⟩ : BufTy).Contents (Elt F)),
    nullary main_cst_8 (constant S_ .f32 0x3C23D70A#32),
    unary main_cst_8 main_v14 (broadcastInDim S64 ![] bcast_S_S64 : (⟨S_, .f32⟩ : BufTy).Contents (Elt F) → (⟨S64, .f32⟩ : BufTy).Contents (Elt F)),
    binary main_v11 main_v14 main_v15 (mulf : (⟨S64, .f32⟩ : BufTy).Contents (Elt F) → (⟨S64, .f32⟩ : BufTy).Contents (Elt F) → (⟨S64, .f32⟩ : BufTy).Contents (Elt F)),
    binary main_v13 main_v15 main_v16 (addf : (⟨S64, .f32⟩ : BufTy).Contents (Elt F) → (⟨S64, .f32⟩ : BufTy).Contents (Elt F) → (⟨S64, .f32⟩ : BufTy).Contents (Elt F)),
    nullary main_c_9 (constantI S_ 32 4#32),
    unary main_c_9 main_v17 (broadcastInDim S6 ![] bcast_S_S6 : (⟨S_, .i32⟩ : BufTy).Contents (Elt F) → (⟨S6, .i32⟩ : BufTy).Contents (Elt F)),
    binary main_c main_v17 main_v18 (addi : (⟨S6, .i32⟩ : BufTy).Contents (Elt F) → (⟨S6, .i32⟩ : BufTy).Contents (Elt F) → (⟨S6, .i32⟩ : BufTy).Contents (Elt F)),
    ternary main_c_0 main_v18 main_c main_v19 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v19 main_v20 (broadcastInDim S6x1 ![0] bcast_S6_S6x1_0 : (⟨S6, .i32⟩ : BufTy).Contents (Elt F) → (⟨S6x1, .i32⟩ : BufTy).Contents (Elt F)),
    binary main_arg0 main_v20 main_v21 ((fun x i => Host.gather gather_S2097152x4_S6x1_S2097152x6_0_1_n_n_1_1_20971521 x i) : (⟨S2097152x4, .i32⟩ : BufTy).Contents (Elt F) → (⟨S6x1, .i32⟩ : BufTy).Contents (Elt F) → (⟨S2097152x6, .i32⟩ : BufTy).Contents (Elt F)),
    reshape main_v21 main_v22 rfl shapeCasts_S2097152x6_S12582912,
    nullary main_c_10 (constantI S_ 32 4#32),
    unary main_c_10 main_v23 (broadcastInDim S6 ![] bcast_S_S6 : (⟨S_, .i32⟩ : BufTy).Contents (Elt F) → (⟨S6, .i32⟩ : BufTy).Contents (Elt F)),
    binary main_c_1 main_v23 main_v24 (addi : (⟨S6, .i32⟩ : BufTy).Contents (Elt F) → (⟨S6, .i32⟩ : BufTy).Contents (Elt F) → (⟨S6, .i32⟩ : BufTy).Contents (Elt F)),
    ternary main_c_2 main_v24 main_c_1 main_v25 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v25 main_v26 (broadcastInDim S6x1 ![0] bcast_S6_S6x1_0 : (⟨S6, .i32⟩ : BufTy).Contents (Elt F) → (⟨S6x1, .i32⟩ : BufTy).Contents (Elt F)),
    binary main_arg0 main_v26 main_v27 ((fun x i => Host.gather gather_S2097152x4_S6x1_S2097152x6_0_1_n_n_1_1_20971521 x i) : (⟨S2097152x4, .i32⟩ : BufTy).Contents (Elt F) → (⟨S6x1, .i32⟩ : BufTy).Contents (Elt F) → (⟨S2097152x6, .i32⟩ : BufTy).Contents (Elt F)),
    reshape main_v27 main_v28 rfl shapeCasts_S2097152x6_S12582912,
    nullary main_c_11 (constantI S_ 32 0#32),
    unary main_c_11 main_v29 (broadcastInDim S12582912 ![] bcast_S_S12582912 : (⟨S_, .i32⟩ : BufTy).Contents (Elt F) → (⟨S12582912, .i32⟩ : BufTy).Contents (Elt F)),
    binary main_v22 main_v29 main_v30 (cmpi .slt : (⟨S12582912, .i32⟩ : BufTy).Contents (Elt F) → (⟨S12582912, .i32⟩ : BufTy).Contents (Elt F) → (⟨S12582912, .i1⟩ : BufTy).Contents (Elt F)),
    nullary main_c_12 (constantI S_ 32 64#32),
    unary main_c_12 main_v31 (broadcastInDim S12582912 ![] bcast_S_S12582912 : (⟨S_, .i32⟩ : BufTy).Contents (Elt F) → (⟨S12582912, .i32⟩ : BufTy).Contents (Elt F)),
    binary main_v22 main_v31 main_v32 (addi : (⟨S12582912, .i32⟩ : BufTy).Contents (Elt F) → (⟨S12582912, .i32⟩ : BufTy).Contents (Elt F) → (⟨S12582912, .i32⟩ : BufTy).Contents (Elt F)),
    ternary main_v30 main_v32 main_v22 main_v33 (select : (⟨S12582912, .i1⟩ : BufTy).Contents (Elt F) → (⟨S12582912, .i32⟩ : BufTy).Contents (Elt F) → (⟨S12582912, .i32⟩ : BufTy).Contents (Elt F) → (⟨S12582912, .i32⟩ : BufTy).Contents (Elt F)),
    nullary main_c_13 (constantI S_ 32 0#32),
    unary main_c_13 main_v34 (broadcastInDim S12582912 ![] bcast_S_S12582912 : (⟨S_, .i32⟩ : BufTy).Contents (Elt F) → (⟨S12582912, .i32⟩ : BufTy).Contents (Elt F)),
    binary main_v28 main_v34 main_v35 (cmpi .slt : (⟨S12582912, .i32⟩ : BufTy).Contents (Elt F) → (⟨S12582912, .i32⟩ : BufTy).Contents (Elt F) → (⟨S12582912, .i1⟩ : BufTy).Contents (Elt F)),
    nullary main_c_14 (constantI S_ 32 64#32),
    unary main_c_14 main_v36 (broadcastInDim S12582912 ![] bcast_S_S12582912 : (⟨S_, .i32⟩ : BufTy).Contents (Elt F) → (⟨S12582912, .i32⟩ : BufTy).Contents (Elt F)),
    binary main_v28 main_v36 main_v37 (addi : (⟨S12582912, .i32⟩ : BufTy).Contents (Elt F) → (⟨S12582912, .i32⟩ : BufTy).Contents (Elt F) → (⟨S12582912, .i32⟩ : BufTy).Contents (Elt F)),
    ternary main_v35 main_v37 main_v28 main_v38 (select : (⟨S12582912, .i1⟩ : BufTy).Contents (Elt F) → (⟨S12582912, .i32⟩ : BufTy).Contents (Elt F) → (⟨S12582912, .i32⟩ : BufTy).Contents (Elt F) → (⟨S12582912, .i32⟩ : BufTy).Contents (Elt F)),
    unary main_v33 main_v39 (broadcastInDim S12582912x1 ![0] bcast_S12582912_S12582912x1_0 : (⟨S12582912, .i32⟩ : BufTy).Contents (Elt F) → (⟨S12582912x1, .i32⟩ : BufTy).Contents (Elt F)),
    unary main_v38 main_v40 (broadcastInDim S12582912x1 ![0] bcast_S12582912_S12582912x1_0 : (⟨S12582912, .i32⟩ : BufTy).Contents (Elt F) → (⟨S12582912x1, .i32⟩ : BufTy).Contents (Elt F)) ]

/-- Operations 59 and 60: the first scatter's index pairs, and the constant one. -/
abbrev opsC : List (HloOp τ sig (Elt F)) :=
  [ binary main_v39 main_v40 main_v41 ((fun a b => concatenate S12582912x2 1 [⟨S12582912x1, a⟩, ⟨S12582912x1, b⟩] concatenates_S12582912x1_S12582912x1_S12582912x2_d1) : (⟨S12582912x1, .i32⟩ : BufTy).Contents (Elt F) → (⟨S12582912x1, .i32⟩ : BufTy).Contents (Elt F) → (⟨S12582912x2, .i32⟩ : BufTy).Contents (Elt F)),
    nullary main_cst_15 (constant S_ .f32 0x3F800000#32) ]

/-- Operations 61 to 78: the first scatter into the table, and the two index columns of the second. -/
abbrev opsD : List (HloOp τ sig (Elt F)) :=
  [ unary main_cst_15 main_v42 (broadcastInDim S12582912 ![] bcast_S_S12582912 : (⟨S_, .f32⟩ : BufTy).Contents (Elt F) → (⟨S12582912, .f32⟩ : BufTy).Contents (Elt F)),
    ternary main_arg3 main_v41 main_v42 main_v43 ((fun x i u => Host.scatterAdd scatter_S64x64_S12582912x2_S12582912_n_01_01_1 x i u) : (⟨S64x64, .f32⟩ : BufTy).Contents (Elt F) → (⟨S12582912x2, .i32⟩ : BufTy).Contents (Elt F) → (⟨S12582912, .f32⟩ : BufTy).Contents (Elt F) → (⟨S64x64, .f32⟩ : BufTy).Contents (Elt F)),
    nullary main_c_16 (constantI S_ 32 0#32),
    unary main_c_16 main_v44 (broadcastInDim S12582912 ![] bcast_S_S12582912 : (⟨S_, .i32⟩ : BufTy).Contents (Elt F) → (⟨S12582912, .i32⟩ : BufTy).Contents (Elt F)),
    binary main_v28 main_v44 main_v45 (cmpi .slt : (⟨S12582912, .i32⟩ : BufTy).Contents (Elt F) → (⟨S12582912, .i32⟩ : BufTy).Contents (Elt F) → (⟨S12582912, .i1⟩ : BufTy).Contents (Elt F)),
    nullary main_c_17 (constantI S_ 32 64#32),
    unary main_c_17 main_v46 (broadcastInDim S12582912 ![] bcast_S_S12582912 : (⟨S_, .i32⟩ : BufTy).Contents (Elt F) → (⟨S12582912, .i32⟩ : BufTy).Contents (Elt F)),
    binary main_v28 main_v46 main_v47 (addi : (⟨S12582912, .i32⟩ : BufTy).Contents (Elt F) → (⟨S12582912, .i32⟩ : BufTy).Contents (Elt F) → (⟨S12582912, .i32⟩ : BufTy).Contents (Elt F)),
    ternary main_v45 main_v47 main_v28 main_v48 (select : (⟨S12582912, .i1⟩ : BufTy).Contents (Elt F) → (⟨S12582912, .i32⟩ : BufTy).Contents (Elt F) → (⟨S12582912, .i32⟩ : BufTy).Contents (Elt F) → (⟨S12582912, .i32⟩ : BufTy).Contents (Elt F)),
    nullary main_c_18 (constantI S_ 32 0#32),
    unary main_c_18 main_v49 (broadcastInDim S12582912 ![] bcast_S_S12582912 : (⟨S_, .i32⟩ : BufTy).Contents (Elt F) → (⟨S12582912, .i32⟩ : BufTy).Contents (Elt F)),
    binary main_v22 main_v49 main_v50 (cmpi .slt : (⟨S12582912, .i32⟩ : BufTy).Contents (Elt F) → (⟨S12582912, .i32⟩ : BufTy).Contents (Elt F) → (⟨S12582912, .i1⟩ : BufTy).Contents (Elt F)),
    nullary main_c_19 (constantI S_ 32 64#32),
    unary main_c_19 main_v51 (broadcastInDim S12582912 ![] bcast_S_S12582912 : (⟨S_, .i32⟩ : BufTy).Contents (Elt F) → (⟨S12582912, .i32⟩ : BufTy).Contents (Elt F)),
    binary main_v22 main_v51 main_v52 (addi : (⟨S12582912, .i32⟩ : BufTy).Contents (Elt F) → (⟨S12582912, .i32⟩ : BufTy).Contents (Elt F) → (⟨S12582912, .i32⟩ : BufTy).Contents (Elt F)),
    ternary main_v50 main_v52 main_v22 main_v53 (select : (⟨S12582912, .i1⟩ : BufTy).Contents (Elt F) → (⟨S12582912, .i32⟩ : BufTy).Contents (Elt F) → (⟨S12582912, .i32⟩ : BufTy).Contents (Elt F) → (⟨S12582912, .i32⟩ : BufTy).Contents (Elt F)),
    unary main_v48 main_v54 (broadcastInDim S12582912x1 ![0] bcast_S12582912_S12582912x1_0 : (⟨S12582912, .i32⟩ : BufTy).Contents (Elt F) → (⟨S12582912x1, .i32⟩ : BufTy).Contents (Elt F)),
    unary main_v53 main_v55 (broadcastInDim S12582912x1 ![0] bcast_S12582912_S12582912x1_0 : (⟨S12582912, .i32⟩ : BufTy).Contents (Elt F) → (⟨S12582912x1, .i32⟩ : BufTy).Contents (Elt F)) ]

/-- Operations 79 to 82: the second scatter's index pairs, its updates, and the second scatter. -/
abbrev opsE : List (HloOp τ sig (Elt F)) :=
  [ binary main_v54 main_v55 main_v56 ((fun a b => concatenate S12582912x2 1 [⟨S12582912x1, a⟩, ⟨S12582912x1, b⟩] concatenates_S12582912x1_S12582912x1_S12582912x2_d1) : (⟨S12582912x1, .i32⟩ : BufTy).Contents (Elt F) → (⟨S12582912x1, .i32⟩ : BufTy).Contents (Elt F) → (⟨S12582912x2, .i32⟩ : BufTy).Contents (Elt F)),
    nullary main_cst_20 (constant S_ .f32 0x3F800000#32),
    unary main_cst_20 main_v57 (broadcastInDim S12582912 ![] bcast_S_S12582912 : (⟨S_, .f32⟩ : BufTy).Contents (Elt F) → (⟨S12582912, .f32⟩ : BufTy).Contents (Elt F)),
    ternary main_v43 main_v56 main_v57 main_v58 ((fun x i u => Host.scatterAdd scatter_S64x64_S12582912x2_S12582912_n_01_01_1 x i u) : (⟨S64x64, .f32⟩ : BufTy).Contents (Elt F) → (⟨S12582912x2, .i32⟩ : BufTy).Contents (Elt F) → (⟨S12582912, .f32⟩ : BufTy).Contents (Elt F) → (⟨S64x64, .f32⟩ : BufTy).Contents (Elt F)) ]

/-- The first window of the host program (its operations 1 to 60). -/
abbrev ops_part0 : List (HloOp τ sig (Elt F)) := opsA ++ opsC
/-- The second window (operations 61 to 82). -/
abbrev ops_part1 : List (HloOp τ sig (Elt F)) := opsD ++ opsE
/-- All 82 operations, in order. -/
abbrev ops : List (HloOp τ sig (Elt F)) := ops_part0 ++ ops_part1

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, and determines its result. -/

set_option maxRecDepth 8192 in
theorem opsA_sub : (opsA : List (HloOp τ sig (Elt F))).Forall fun op => op.bufs ⊆ tcRefs τ sig :=
  ⟨nullary_bufs_sub .., nullary_bufs_sub .., nullary_bufs_sub .., nullary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
set_option maxRecDepth 8192 in
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsC_sub : (opsC : List (HloOp τ sig (Elt F))).Forall fun op => op.bufs ⊆ tcRefs τ sig :=
  ⟨binary_bufs_sub .., nullary_bufs_sub ..⟩
set_option maxRecDepth 8192 in
theorem opsC_fresh : (opsC : List (HloOp τ sig (Elt F))).Forall fun op => op.fresh = ∅ :=
  ⟨rfl, rfl⟩

set_option maxRecDepth 8192 in
theorem opsD_sub : (opsD : List (HloOp τ sig (Elt F))).Forall fun op => op.bufs ⊆ tcRefs τ sig :=
  ⟨unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
set_option maxRecDepth 8192 in
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl⟩

set_option maxRecDepth 8192 in
theorem opsE_sub : (opsE : List (HloOp τ sig (Elt F))).Forall fun op => op.bufs ⊆ tcRefs τ sig :=
  ⟨binary_bufs_sub .., nullary_bufs_sub .., unary_bufs_sub .., ternary_bufs_sub ..⟩
set_option maxRecDepth 8192 in
theorem opsE_fresh : (opsE : List (HloOp τ sig (Elt F))).Forall fun op => op.fresh = ∅ :=
  ⟨rfl, rfl, rfl, rfl⟩

theorem ops_sub : (ops : List (HloOp τ sig (Elt F))).Forall fun op => op.bufs ⊆ tcRefs τ sig :=
  List.forall_iff_forall_mem.mpr fun op h => by
    simp only [ops, ops_part0, ops_part1, List.mem_append] at h
    rcases h with (h | h) | (h | h)
    exacts [List.forall_iff_forall_mem.mp opsA_sub op h, List.forall_iff_forall_mem.mp opsC_sub op h,
      List.forall_iff_forall_mem.mp opsD_sub op h, List.forall_iff_forall_mem.mp opsE_sub op h]

theorem ops_fresh : ∀ op ∈ (ops : List (HloOp τ sig (Elt F))), op.fresh = ∅ := fun op h => by
  simp only [ops, ops_part0, ops_part1, List.mem_append] at h
  rcases h with (h | h) | (h | h)
  exacts [List.forall_iff_forall_mem.mp opsA_fresh op h, List.forall_iff_forall_mem.mp opsC_fresh op h,
    List.forall_iff_forall_mem.mp opsD_fresh op h, List.forall_iff_forall_mem.mp opsE_fresh op h]

/-- Every weakly fair execution terminates with every buffer at the fold of the operations over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## What the buffers hold, stretch by stretch

The operations are read in four stretches, cut before each concatenate, so that the two columns a concatenate joins
are buffers of the stretch before it. The contents the first stretch starts from are arbitrary. -/

section Values

variable (V0 : Valuation τ sig (Elt F))

/-- Running two lists one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The contents after operations 1 to 58. -/
def val1 : Valuation τ sig (Elt F) := after opsA V0
/-- The contents after operations 1 to 60. -/
def val2 : Valuation τ sig (Elt F) := after opsC (val1 V0)
/-- The contents after operations 1 to 78. -/
def val3 : Valuation τ sig (Elt F) := after opsD (val2 V0)
/-- The contents after all 82 operations. -/
def val4 : Valuation τ sig (Elt F) := after opsE (val3 V0)

/-- All 82 operations run from any contents end at the last stretch's contents. -/
theorem after_ops : after ops V0 = val4 V0 := by
  simp only [ops, ops_part0, ops_part1, after_app]
  rfl

/-! ### After operations 1 to 58 -/

set_option maxRecDepth 8192 in
set_option maxHeartbeats 2000000 in
theorem val1_v16 : val1 V0 (no_index (Proc.devRef .tc main_v16))
    = refLoad (F := F) (V0 (Proc.devRef .tc main_arg0)) (V0 (Proc.devRef .tc main_arg2)) := by
  unfold val1
  after_results_simp
  rfl

set_option maxRecDepth 8192 in
set_option maxHeartbeats 2000000 in
theorem val1_v22 : val1 V0 (no_index (Proc.devRef .tc main_v22))
    = pairCols (V0 (Proc.devRef .tc main_arg0)) lit0 := by
  unfold val1
  after_results_simp
  rfl

set_option maxRecDepth 8192 in
set_option maxHeartbeats 2000000 in
theorem val1_v28 : val1 V0 (no_index (Proc.devRef .tc main_v28))
    = pairCols (V0 (Proc.devRef .tc main_arg0)) lit1 := by
  unfold val1
  after_results_simp
  rfl

set_option maxRecDepth 8192 in
set_option maxHeartbeats 2000000 in
theorem val1_v39 : val1 V0 (no_index (Proc.devRef .tc main_v39))
    = broadcastInDim S12582912x1 ![0] bcast_S12582912_S12582912x1_0 (wrapPairs (pairCols (V0 (Proc.devRef .tc main_arg0)) lit0)) := by
  unfold val1
  after_results_simp
  rfl

set_option maxRecDepth 8192 in
set_option maxHeartbeats 2000000 in
theorem val1_v40 : val1 V0 (no_index (Proc.devRef .tc main_v40))
    = broadcastInDim S12582912x1 ![0] bcast_S12582912_S12582912x1_0 (wrapPairs (pairCols (V0 (Proc.devRef .tc main_arg0)) lit1)) := by
  unfold val1
  after_results_simp
  rfl

set_option maxRecDepth 8192 in
set_option maxHeartbeats 2000000 in
theorem val1_arg3 : val1 V0 (no_index (Proc.devRef .tc main_arg3))
    = (V0 (Proc.devRef .tc main_arg3)) := by
  unfold val1
  after_results_simp

/-! ### After operations 59 and 60 -/

theorem val2_v41 : val2 V0 (no_index (Proc.devRef .tc main_v41))
    = pairIdx (wrapPairs (pairCols (V0 (Proc.devRef .tc main_arg0)) lit0)) (wrapPairs (pairCols (V0 (Proc.devRef .tc main_arg0)) lit1)) := by
  unfold val2
  after_results_simp
  rw [val1_v39, val1_v40]
  rfl

theorem val2_cst_15 : val2 V0 (no_index (Proc.devRef .tc main_cst_15))
    = constant (F := F) S_ .f32 0x3F800000#32 := by
  unfold val2
  after_results_simp

theorem val2_v16 : val2 V0 (no_index (Proc.devRef .tc main_v16))
    = refLoad (F := F) (V0 (Proc.devRef .tc main_arg0)) (V0 (Proc.devRef .tc main_arg2)) := by
  unfold val2
  after_results_simp
  exact val1_v16 V0

theorem val2_v22 : val2 V0 (no_index (Proc.devRef .tc main_v22))
    = pairCols (V0 (Proc.devRef .tc main_arg0)) lit0 := by
  unfold val2
  after_results_simp
  exact val1_v22 V0

theorem val2_v28 : val2 V0 (no_index (Proc.devRef .tc main_v28))
    = pairCols (V0 (Proc.devRef .tc main_arg0)) lit1 := by
  unfold val2
  after_results_simp
  exact val1_v28 V0

theorem val2_arg3 : val2 V0 (no_index (Proc.devRef .tc main_arg3))
    = (V0 (Proc.devRef .tc main_arg3)) := by
  unfold val2
  after_results_simp
  exact val1_arg3 V0

/-! ### After operations 61 to 78 -/

set_option maxRecDepth 8192 in
set_option maxHeartbeats 1000000 in
theorem val3_v43 : val3 V0 (no_index (Proc.devRef .tc main_v43))
    = Host.scatterAdd scatter_S64x64_S12582912x2_S12582912_n_01_01_1 (V0 (Proc.devRef .tc main_arg3)) (pairIdx (wrapPairs (pairCols (V0 (Proc.devRef .tc main_arg0)) lit0)) (wrapPairs (pairCols (V0 (Proc.devRef .tc main_arg0)) lit1))) (broadcastInDim S12582912 ![] bcast_S_S12582912 (constant (F := F) S_ .f32 0x3F800000#32)) := by
  unfold val3
  after_results_simp
  rw [val2_arg3, val2_v41, val2_cst_15]

set_option maxRecDepth 8192 in
set_option maxHeartbeats 1000000 in
theorem val3_v54 : val3 V0 (no_index (Proc.devRef .tc main_v54))
    = broadcastInDim S12582912x1 ![0] bcast_S12582912_S12582912x1_0 (wrapPairs (pairCols (V0 (Proc.devRef .tc main_arg0)) lit1)) := by
  unfold val3
  after_results_simp
  rw [val2_v28]
  rfl

set_option maxRecDepth 8192 in
set_option maxHeartbeats 1000000 in
theorem val3_v55 : val3 V0 (no_index (Proc.devRef .tc main_v55))
    = broadcastInDim S12582912x1 ![0] bcast_S12582912_S12582912x1_0 (wrapPairs (pairCols (V0 (Proc.devRef .tc main_arg0)) lit0)) := by
  unfold val3
  after_results_simp
  rw [val2_v22]
  rfl

set_option maxRecDepth 8192 in
set_option maxHeartbeats 1000000 in
theorem val3_v16 : val3 V0 (no_index (Proc.devRef .tc main_v16))
    = refLoad (F := F) (V0 (Proc.devRef .tc main_arg0)) (V0 (Proc.devRef .tc main_arg2)) := by
  unfold val3
  after_results_simp
  exact val2_v16 V0

/-! ### After all 82 operations -/

theorem val4_v58 : val4 V0 (no_index (Proc.devRef .tc main_v58))
    = refCoact (F := F) (V0 (Proc.devRef .tc main_arg0)) (V0 (Proc.devRef .tc main_arg3)) := by
  unfold val4
  after_results_simp
  rw [val3_v43, val3_v54, val3_v55]
  rfl

theorem val4_v16 : val4 V0 (no_index (Proc.devRef .tc main_v16))
    = refLoad (F := F) (V0 (Proc.devRef .tc main_arg0)) (V0 (Proc.devRef .tc main_arg2)) := by
  unfold val4
  after_results_simp
  exact val3_v16 V0

end Values

/-! ## The arguments

No operation writes an argument buffer: each ends as it started. -/

section Arguments

variable (V0 : Valuation τ sig (Elt F))

set_option maxRecDepth 8192 in
set_option maxHeartbeats 2000000 in
theorem after_ops_arg0 : after ops V0 (Proc.devRef .tc main_arg0) = V0 (Proc.devRef .tc main_arg0) :=
  after_of_forall_not_mem (b := Proc.devRef .tc main_arg0) _ _ (List.forall_iff_forall_mem.mp (by
    simp only [ops, ops_part0, ops_part1, opsA, opsC, opsD, opsE, List.cons_append, List.nil_append, List.Forall,
      nullary_writes, unary_writes, binary_writes, ternary_writes, reshape_writes, Finset.mem_singleton]
    repeat' apply And.intro
    all_goals exact devRef_ne_of_ne (by decide)))

set_option maxRecDepth 8192 in
set_option maxHeartbeats 2000000 in
theorem after_ops_arg1 : after ops V0 (Proc.devRef .tc main_arg1) = V0 (Proc.devRef .tc main_arg1) :=
  after_of_forall_not_mem (b := Proc.devRef .tc main_arg1) _ _ (List.forall_iff_forall_mem.mp (by
    simp only [ops, ops_part0, ops_part1, opsA, opsC, opsD, opsE, List.cons_append, List.nil_append, List.Forall,
      nullary_writes, unary_writes, binary_writes, ternary_writes, reshape_writes, Finset.mem_singleton]
    repeat' apply And.intro
    all_goals exact devRef_ne_of_ne (by decide)))

set_option maxRecDepth 8192 in
set_option maxHeartbeats 2000000 in
theorem after_ops_arg2 : after ops V0 (Proc.devRef .tc main_arg2) = V0 (Proc.devRef .tc main_arg2) :=
  after_of_forall_not_mem (b := Proc.devRef .tc main_arg2) _ _ (List.forall_iff_forall_mem.mp (by
    simp only [ops, ops_part0, ops_part1, opsA, opsC, opsD, opsE, List.cons_append, List.nil_append, List.Forall,
      nullary_writes, unary_writes, binary_writes, ternary_writes, reshape_writes, Finset.mem_singleton]
    repeat' apply And.intro
    all_goals exact devRef_ne_of_ne (by decide)))

set_option maxRecDepth 8192 in
set_option maxHeartbeats 2000000 in
theorem after_ops_arg3 : after ops V0 (Proc.devRef .tc main_arg3) = V0 (Proc.devRef .tc main_arg3) :=
  after_of_forall_not_mem (b := Proc.devRef .tc main_arg3) _ _ (List.forall_iff_forall_mem.mp (by
    simp only [ops, ops_part0, ops_part1, opsA, opsC, opsD, opsE, List.cons_append, List.nil_append, List.Forall,
      nullary_writes, unary_writes, binary_writes, ternary_writes, reshape_writes, Finset.mem_singleton]
    repeat' apply And.intro
    all_goals exact devRef_ne_of_ne (by decide)))

end Arguments

/-- On every device, for any float values, from any memory with zero counters: every weakly fair execution of the host
    program terminates with its first result at `refLoad`, its second at `refCoact`, of the argument arrays, and the four
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v16)
          = refLoad (F := F) (m ((c.tc : Thread nD τ).loc main_arg0)) (m ((c.tc : Thread nD τ).loc main_arg2))
      ∧ r.2.mem ((c.tc : Thread nD τ).loc main_v58)
          = refCoact (F := F) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v16).trans (by rw [after_ops]; exact val4_v16 _),
       (h c main_v58).trans (by rw [after_ops]; exact val4_v58 _),
       (h c main_arg0).trans (after_ops_arg0 _),
       (h c main_arg1).trans (after_ops_arg1 _),
       (h c main_arg2).trans (after_ops_arg2 _),
       (h c main_arg3).trans (after_ops_arg3 _)⟩)
    (run_all m ρ)

end Cert.RefRun

end
-- ==== Proof.LibScatterRows.lean ====
/-
  An accumulating scatter into a table, read at one entry, as a sum over the rows of the updates.

  At the ideal instance the scatter's entry `i` is the operand's entry plus the sum of the updates that land on `i`.
  When the updates are laid out one row per scatter index — `[N, D]` updates into a `[C, D]` table, row `r` landing on
  class row `c` exactly when a condition `hit r` holds, feature column kept — the updates landing on `(c, f)` are the
  entries `(r, f)` of the rows with `hit r`: the entry is the operand's plus the sum over ALL rows `r` of the update at
  `(r, f)` where `hit r` and zero elsewhere. Stated for any sizes; which rows hit is a hypothesis.
-/
import Idealize.ShloMosaic.PureOps.Ideal
import Idealize.ShloMosaic.PureOps.Contract
import Idealize.ShloMosaic.Lib.ValueIdx

namespace Cert.ClassStats.Scatter

open Idealize.ShloMosaic Idealize.ShloMosaic.ValueIdx

/-- A sum over the indices of a vector shape is the sum over its one coordinate. -/
theorem sum_idx1 {M : Type*} [AddCommMonoid M] {n : ℕ} (g : (⟨1, ![n]⟩ : Shape).Idx → M) :
    ∑ i, g i = ∑ a : Fin n, g (ix1 a) :=
  Fintype.sum_equiv ⟨fun j => j 0, ix1, fun j => (eq_ix1 j).symm, fun _ => rfl⟩ g (fun a => g (ix1 a))
    (fun j => congrArg g (eq_ix1 j))

/-- Rows of `[N, D]` updates scattered into a `[C, D]` table: entry `(c, f)`. -/
theorem scatter2_apply {N C D w : ℕ} (d : ScatterDims ⟨2, ![C, D]⟩ ⟨2, ![N, 1]⟩ ⟨2, ![N, D]⟩)
    (x : (⟨2, ![C, D]⟩ : Shape).Idx → EReal) (idx : IVec ⟨2, ![N, 1]⟩ w) (upd : (⟨2, ![N, D]⟩ : Shape).Idx → EReal)
    (c : Fin C) (f : Fin D) (hit : Fin N → Prop) [DecidablePred hit]
    (hchar : ∀ (r : Fin N) (b : Fin D), d.resultIdx? (ix2 r b) idx = some (ix2 c f) ↔ hit r ∧ b = f) :
    Host.scatterAdd (F := Ideal) (φ := .f32) d x idx upd (ix2 c f)
      = x (ix2 c f) + ∑ r : Fin N, if hit r then upd (ix2 r f) else 0 := by
  show x (ix2 c f) + ∑ j ∈ Finset.univ.filter (fun j => d.resultIdx? j idx = some (ix2 c f)), upd j = _
  congr 1
  rw [Finset.sum_filter, sum_idx2]
  refine Finset.sum_congr rfl fun r _ => ?_
  by_cases h : hit r
  · rw [if_pos h]
    have e : ∀ b : Fin D, (if d.resultIdx? (ix2 r b) idx = some (ix2 c f) then upd (ix2 r b) else 0)
        = if b = f then upd (ix2 r b) else 0 := fun b => by
      by_cases hb : b = f
      · rw [if_pos ((hchar r b).mpr ⟨h, hb⟩), if_pos hb]
      · rw [if_neg (fun hh => hb ((hchar r b).mp hh).2), if_neg hb]
    rw [Finset.sum_congr rfl fun b _ => e b, Finset.sum_ite_eq' Finset.univ f fun b => upd (ix2 r b), if_pos (Finset.mem_univ f)]
  · rw [if_neg h]
    exact Finset.sum_eq_zero fun b _ => if_neg fun hh => h ((hchar r b).mp hh).1

/-- A vector of `N` updates scattered into a vector of `C` entries: entry `c`. -/
theorem scatter1_apply {N C w : ℕ} (d : ScatterDims ⟨1, ![C]⟩ ⟨2, ![N, 1]⟩ ⟨1, ![N]⟩)
    (x : (⟨1, ![C]⟩ : Shape).Idx → EReal) (idx : IVec ⟨2, ![N, 1]⟩ w) (upd : (⟨1, ![N]⟩ : Shape).Idx → EReal)
    (c : Fin C) (hit : Fin N → Prop) [DecidablePred hit]
    (hchar : ∀ r : Fin N, d.resultIdx? (ix1 r) idx = some (ix1 c) ↔ hit r) :
    Host.scatterAdd (F := Ideal) (φ := .f32) d x idx upd (ix1 c)
      = x (ix1 c) + ∑ r : Fin N, if hit r then upd (ix1 r) else 0 := by
  show x (ix1 c) + ∑ j ∈ Finset.univ.filter (fun j => d.resultIdx? j idx = some (ix1 c)), upd j = _
  congr 1
  rw [Finset.sum_filter, sum_idx1]
  refine Finset.sum_congr rfl fun r _ => ?_
  by_cases h : hit r
  · rw [if_pos h, if_pos ((hchar r).mpr h)]
  · rw [if_neg h, if_neg fun hh => h ((hchar r).mp hh)]

end Cert.ClassStats.Scatter
-- ==== Proof.RefValue.lean ====
/-
  The reference's first result term, read at the ideal instance, is the specification's function when every index is
  an expert number: the scatter-added ones are the histogram.

  The road: an update of the one-index scatter lands on entry `c` exactly when its index word, read signed, is `c`;
  so the scatter of ones into zeros at entry `e` is the number of index words equal to `e`. The index words are the
  argument's, flattened row-major (entry `4·n + k` is slot `k` of token `n`) and kept by the wrap-around of negative
  indices since none is negative; the sum over the flat index is the double sum over tokens and slots.
-/
import proofs.«427305_j1271310319887_2_alg».proof.Proof.RefTerm
import proofs.«427305_j1271310319887_2_alg».proof.Proof.Gen.ReferenceIdeal
import proofs.«427305_j1271310319887_2_alg».proof.Proof.Spec
import proofs.«427305_j1271310319887_2_alg».proof.Proof.LibScatterRows
import Idealize.ShloMosaic.Lib.IdealHost
import Idealize.ShloMosaic.PureOps.Ideal.Laws
import Idealize.ShloMosaic.Lib.Pipeline.Value

noncomputable section

open scoped BigOperators

namespace Cert.RefValue

open Idealize.ShloMosaic Idealize.ShloMosaic.ValueIdx Cert.ReferenceIdeal Cert.RefTerm

/-! ## The one-index accumulating scatter: where an update lands -/

/-- The dimension numbers of a scatter of `N` scalars into a vector of `C` entries, one index word per update. -/
abbrev scat1 (N C : Nat) (wf : ScatterDims.WF ⟨1, ![C]⟩ ⟨2, ![N, 1]⟩ ⟨1, ![N]⟩ [] [0] [0] 1) :
    ScatterDims ⟨1, ![C]⟩ ⟨2, ![N, 1]⟩ ⟨1, ![N]⟩ where
  updateWindowDims := []
  insertedWindowDims := [0]
  scatterDimsToOperandDims := [0]
  indexVectorDim := 1
  wf := wf

theorem scat1_window {N C : Nat} (wf : ScatterDims.WF ⟨1, ![C]⟩ ⟨2, ![N, 1]⟩ ⟨1, ![N]⟩ [] [0] [0] 1)
    (j : (⟨1, ![N]⟩ : Shape).Idx) (a : Fin 1) : (scat1 N C wf).window j a = 0 := by
  unfold ScatterDims.window
  rw [dif_neg]
  obtain rfl : a = 0 := Subsingleton.elim _ _
  simp [Shape.kept]

theorem scat1_start {N C w : Nat} (wf : ScatterDims.WF ⟨1, ![C]⟩ ⟨2, ![N, 1]⟩ ⟨1, ![N]⟩ [] [0] [0] 1)
    (idx : IVec ⟨2, ![N, 1]⟩ w) (r : Fin N) (a : Fin 1) :
    (scat1 N C wf).start (ix1 r) idx a = (idx (ix2 r 0)).toInt := by
  obtain rfl : a = 0 := Subsingleton.elim _ _
  unfold ScatterDims.start
  rw [dif_pos (show (0 : Fin 1) ∈ (scat1 N C wf).scatterDimsToOperandDims from List.mem_singleton.mpr rfl)]
  have hsi : (scat1 N C wf).siIdx (ix1 r) ⟨List.idxOf (0 : Fin 1) (scat1 N C wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- An update lands on entry `c` exactly when its index word, read signed, is `c`. -/
theorem scat1_resultIdx {N C w : Nat} (wf : ScatterDims.WF ⟨1, ![C]⟩ ⟨2, ![N, 1]⟩ ⟨1, ![N]⟩ [] [0] [0] 1)
    (idx : IVec ⟨2, ![N, 1]⟩ w) (r : Fin N) (c : Fin C) :
    (scat1 N C wf).resultIdx? (ix1 r) idx = some (ix1 c) ↔ (idx (ix2 r 0)).toInt = (c.val : Int) := by
  have hsw : ∀ a : Fin 1, (scat1 N C wf).start (ix1 r) idx a + ((scat1 N C wf).window (ix1 r) a : Int)
      = (idx (ix2 r 0)).toInt := fun a => by
    rw [scat1_start, scat1_window]; simp
  unfold ScatterDims.resultIdx?
  split
  · next h =>
    rw [Option.some.injEq]
    constructor
    · intro e
      have e0 := congrArg (fun f => ((f 0 : Fin C) : Nat)) e
      simp only [hsw] at e0
      have h0 := (h 0).1
      rw [hsw] at h0
      show (idx (ix2 r 0)).toInt = (c.val : Int)
      have : ((idx (ix2 r 0)).toInt.toNat : Int) = (c.val : Int) := by exact_mod_cast e0
      omega
    · intro e
      funext a
      obtain rfl : a = 0 := Subsingleton.elim _ _
      refine Fin.ext ?_
      show ((scat1 N C wf).start (ix1 r) idx 0 + ((scat1 N C wf).window (ix1 r) 0 : Int)).toNat = c.val
      rw [hsw, e]; simp
  · next h =>
    constructor
    · intro e; exact absurd e (by simp)
    · intro e
      exfalso; apply h
      intro a
      rw [hsw, e]
      obtain rfl : a = 0 := Subsingleton.elim _ _
      have := c.isLt
      constructor
      · omega
      · show (c.val : Int) < ((C : Nat) : Int); omega

/-! ## Words in range -/

/-- A word below 64 is not negative as a signed integer: the wrap-around select keeps it. -/
theorem wrap_keep (x : BitVec 32) (h : x.toNat < 64) :
    Scalar.select (IntOp.cmpi .slt x 0#32) (IntOp.addi x 64#32) x = x := by
  have hm : x.msb = false := BitVec.msb_eq_false_iff_two_mul_lt.2 (by omega)
  have : IntOp.cmpi .slt x 0#32 = 0#1 := by
    show BitVec.ofBool (x.slt 0#32) = 0#1
    rw [BitVec.slt_zero_eq_msb, hm]; rfl
  rw [this]
  exact select_zero _ _

/-- A word below 64, read signed, is the number `e` exactly when it is the word of `e`. -/
theorem toInt_eq_iff (x : BitVec 32) (h : x.toNat < 64) (e : ℕ) (he : e < 64) :
    x.toInt = (e : Int) ↔ x = BitVec.ofNat 32 e := by
  rw [BitVec.toInt_eq_toNat_of_lt (by omega)]
  constructor
  · intro h1
    apply BitVec.eq_of_toNat_eq
    rw [BitVec.toNat_ofNat]
    have : x.toNat = e := by exact_mod_cast h1
    omega
  · intro h1
    rw [h1, BitVec.toNat_ofNat]
    have : e % 2 ^ 32 = e := by omega
    rw [this]

/-! ## A sum over a flattened index is the double sum over its two coordinates -/

theorem sum_flat {M : Type*} [AddCommMonoid M] (A B T : ℕ) (hT : A * B = T) (g : Fin T → M)
    (hlt : ∀ (n : Fin A) (k : Fin B), B * n.val + k.val < T) :
    ∑ r : Fin T, g r = ∑ n : Fin A, ∑ k : Fin B, g ⟨B * n.val + k.val, hlt n k⟩ := by
  subst hT
  rw [← finProdFinEquiv.sum_comp g, Fintype.sum_prod_type]
  refine Finset.sum_congr rfl fun n _ => Finset.sum_congr rfl fun k _ => ?_
  refine congrArg g (Fin.ext ?_)
  show k.val + B * n.val = B * n.val + k.val
  rw [Nat.add_comm]

/-! ## The histogram -/

/-- The flattened index words: entry `4·n + k` is slot `k` of token `n`. -/
theorem flat_apply (a0 : IVec S2097152x4 32) (n : Fin 2097152) (k : Fin 4) (hlt : 4 * n.val + k.val < 8388608) :
    shapeCast S8388608 a0 Facts₀.shapeCasts_S2097152x4_S8388608 (ix1 ⟨4 * n.val + k.val, hlt⟩) = a0 (ix2 n k) := by
  refine shapeCast_apply a0 _ _ (ix2 n k) ?_
  rw [Shape.rowMajor_val_two, Shape.rowMajor_val_one]
  show n.val * 4 + k.val = 4 * n.val + k.val
  omega

/-- The wrap-around of a negative index keeps an index in range. -/
theorem wrapFlat_apply (v : IVec S8388608 32) (j : S8388608.Idx) (h : (v j).toNat < 64) : wrapFlat v j = v j := by
  show Scalar.select (IntOp.cmpi .slt (v j) 0#32) (IntOp.addi (v j) 64#32) (v j) = v j
  exact wrap_keep _ h

/-- The scatter-added histogram at expert `e` is the specification's count. -/
theorem refCounts_apply (a0 : IVec S2097152x4 32) (hr : ∀ j, (a0 j).toNat < 64) (e : Fin 64) :
    refCounts (F := Ideal) a0 (ix1 e) = ((Cert.Coact.count a0 e.val : ℕ) : EReal) := by
  unfold refCounts
  -- the index word of update `4·n + k` is slot `k` of token `n`
  have hword : ∀ (n : Fin 2097152) (k : Fin 4) (hlt : 4 * n.val + k.val < 8388608),
      (broadcastInDim S8388608x1 ![0] Facts₀.bcast_S8388608_S8388608x1_0
        (wrapFlat (shapeCast S8388608 a0 Facts₀.shapeCasts_S2097152x4_S8388608)))
        (ix2 (⟨4 * n.val + k.val, hlt⟩ : Fin 8388608) (0 : Fin 1)) = a0 (ix2 n k) := fun n k hlt => by
    refine (broadcastInDim_apply _ _ _ _ (ix1 ⟨4 * n.val + k.val, hlt⟩) ?_).trans ?_
    · intro a
      obtain rfl : a = 0 := Subsingleton.elim _ _
      rw [if_neg (by decide)]
      rfl
    · rw [wrapFlat_apply _ _ (by rw [flat_apply]; exact hr _), flat_apply]
  refine (Cert.ClassStats.Scatter.scatter1_apply scatter_S64_S8388608x1_S8388608_n_0_0_1 _ _ _ e
    (fun r => ((broadcastInDim S8388608x1 ![0] Facts₀.bcast_S8388608_S8388608x1_0
        (wrapFlat (shapeCast S8388608 a0 Facts₀.shapeCasts_S2097152x4_S8388608))) (ix2 r (0 : Fin 1))).toInt = (e.val : Int))
    (fun r => scat1_resultIdx _ _ r e)).trans ?_
  have hz : (broadcastInDim S64 ![] Facts₀.bcast_S_S64 (constant (F := Ideal) S_ .f32 0x00000000#32)) (ix1 e) = 0 :=
    Ideal.ofBits_zero_f32
  rw [hz, zero_add, sum_flat 2097152 4 8388608 rfl _ (fun n k => by omega)]
  unfold Cert.Coact.count Cert.Coact.sel
  rw [Nat.cast_sum]
  refine Finset.sum_congr rfl fun n _ => ?_
  rw [Nat.cast_sum]
  refine Finset.sum_congr rfl fun k _ => ?_
  rw [hword n k]
  unfold Cert.Coact.hit
  have h1 : (broadcastInDim S8388608 ![] Facts₀.bcast_S_S8388608 (constant (F := Ideal) S_ .f32 0x3F800000#32))
      (ix1 ⟨4 * n.val + k.val, by omega⟩) = 1 := Ideal.ofBits_one_f32
  by_cases hc : a0 (ix2 n k) = BitVec.ofNat 32 e.val
  · rw [if_pos ((toInt_eq_iff _ (hr _) _ e.isLt).2 hc), h1, if_pos hc, Nat.cast_one]
  · rw [if_neg (fun h => hc ((toInt_eq_iff _ (hr _) _ e.isLt).1 h)), if_neg hc, Nat.cast_zero]

theorem refLoad_eq (a0 : IVec S2097152x4 32) (a2 : FVec Ideal S64 .f32) (hr : ∀ j, (a0 j).toNat < 64) :
    refLoad (F := Ideal) a0 a2 = Cert.Coact.loadOut a0 a2 := by
  funext i
  obtain ⟨e, rfl⟩ : ∃ e : Fin 64, i = ix1 e := ⟨i 0, eq_ix1 i⟩
  show a2 (ix1 e) * Ideal.ofBits .f32 0x3F7D70A4#32
      + Ideal.div (refCounts (F := Ideal) a0 (ix1 e)) (Ideal.ofBits .f32 0x4A000000#32) * Ideal.ofBits .f32 0x3C23D70A#32 = _
  rw [refCounts_apply a0 hr e]
  rfl

end Cert.RefValue

end
-- ==== Proof.LibColumnGather.lean ====
/-
  A gather that reads whole columns of a table, read at one entry.

  The operand is an `N × K` table; the start indices are `P` words, one per result column; the row axis is the one
  offset axis (the slice takes all `N` rows) and the column axis is collapsed and start-indexed (slice size 1). Result
  entry `(n, p)` is then the table at row `n` and the column that start word `p` names, the word read signed and clamped
  into `[0, K − 1]`. This is what `x[:, cols]` with a vector of column numbers lowers to. Stated for any sizes.
-/
import Idealize.ShloMosaic.PureOps.Ideal
import Idealize.ShloMosaic.PureOps.Contract
import Idealize.ShloMosaic.Lib.ValueIdx

noncomputable section

namespace Cert.ColumnGather

open Idealize.ShloMosaic Idealize.ShloMosaic.ValueIdx

/-- The dimension numbers of a gather that reads, for result column `p`, the whole column of an `N × K` table that
    start word `p` names: the row axis is the one offset axis, the column axis is collapsed and start-indexed. -/
abbrev slotDims (N K P : Nat) (wf : GatherDims.WF ⟨2, ![N, K]⟩ ⟨2, ![P, 1]⟩ ⟨2, ![N, P]⟩ [0] [1] [] [1] [] 1 ![N, 1]) :
    GatherDims ⟨2, ![N, K]⟩ ⟨2, ![P, 1]⟩ ⟨2, ![N, P]⟩ where
  offsetDims := [0]
  collapsedSliceDims := [1]
  operandBatchingDims := []
  startIndicesBatchingDims := []
  startIndexMap := [1]
  indexVectorDim := 1
  sliceSizes := ![N, 1]
  wf := wf

/-- Entry `(n, p)` of that gather is the table at row `n` and the column start word `p` names, read signed and clamped
    into `[0, K − 1]`. -/
theorem slot_gather_apply {α : Type} {N K P w : Nat} (hK : 0 < K)
    (wf : GatherDims.WF ⟨2, ![N, K]⟩ ⟨2, ![P, 1]⟩ ⟨2, ![N, P]⟩ [0] [1] [] [1] [] 1 ![N, 1])
    (x : (⟨2, ![N, K]⟩ : Shape).Idx → α) (idx : IVec ⟨2, ![P, 1]⟩ w) (n : Fin N) (p : Fin P) :
    Host.gather (slotDims N K P wf) x idx (ix2 n p)
      = x (ix2 n ⟨min (idx (ix2 p (0 : Fin 1))).toInt.toNat (K - 1), by omega⟩) := by
  unfold Host.gather
  congr 1
  funext a
  refine Fin.ext ?_
  match a with
  | ⟨0, _⟩ =>
    show (slotDims N K P wf).start (ix2 n p) idx 0 + (slotDims N K P wf).batchCoord (ix2 n p) 0
      + (slotDims N K P wf).offCoord (ix2 n p) 0 = n.val
    rw [GatherDims.batchCoord_eq_zero _ _ _ List.not_mem_nil]
    have hs : (slotDims N K P wf).start (ix2 n p) idx 0 = 0 := by
      unfold GatherDims.start
      rw [dif_neg]
      show (0 : Fin 2) ∉ [(1 : Fin 2)]
      decide
    have ho : (slotDims N K P wf).offCoord (ix2 n p) 0 = n.val := by
      unfold GatherDims.offCoord
      rw [dif_pos ((GatherDims.mem_sKept _ _).2 ⟨by show (0 : Fin 2) ∉ [(1 : Fin 2)]; decide, List.not_mem_nil⟩)]
      rfl
    rw [hs, ho]; omega
  | ⟨1, _⟩ =>
    show (slotDims N K P wf).start (ix2 n p) idx 1 + (slotDims N K P wf).batchCoord (ix2 n p) 1
      + (slotDims N K P wf).offCoord (ix2 n p) 1 = min (idx (ix2 p (0 : Fin 1))).toInt.toNat (K - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hm : (1 : Fin 2) ∈ (slotDims N K P wf).startIndexMap := List.mem_singleton.mpr rfl
    unfold GatherDims.start
    rw [dif_pos hm]
    have hsi : (slotDims N K P wf).siIdx (ix2 n p) ⟨List.idxOf (1 : Fin 2) (slotDims N K P wf).startIndexMap,
        List.idxOf_lt_length_iff.2 hm⟩ = ix2 p (0 : Fin 1) := by
      funext b; refine Fin.ext ?_
      match b with
      | ⟨0, _⟩ => rfl
      | ⟨1, _⟩ => rfl
    rw [hsi]
    rfl

end Cert.ColumnGather

end
-- ==== Proof.LibPairScatter.lean ====
/-
  An accumulating scatter of scalars placed by two index words each, read at one entry.

  `N` scalar updates are scattered into a `C × D` table; update `r` carries two index words, row and column (an
  `N × 2` index array, both operand axes inserted window axes, no window). An update lands on entry `(c, d)` exactly
  when its two words, read signed, are `c` and `d`; a pair outside the table lands nowhere. At the ideal instance the
  entry is therefore the operand's entry plus the sum of the updates whose pair is `(c, d)`. This is what
  `x.at[rows, cols].add(v)` with two index vectors lowers to. Stated for any sizes; which updates hit is a hypothesis
  of the reading `scatterPair_apply`, and `scat2_resultIdx` supplies it.
-/
import Idealize.ShloMosaic.PureOps.Ideal
import Idealize.ShloMosaic.PureOps.Contract
import Idealize.ShloMosaic.Lib.ValueIdx

noncomputable section

namespace Cert.PairScatter

open Idealize.ShloMosaic Idealize.ShloMosaic.ValueIdx

/-- A sum over the indices of a vector shape is the sum over its one coordinate. -/
theorem sum_idx1 {M : Type*} [AddCommMonoid M] {n : ℕ} (g : (⟨1, ![n]⟩ : Shape).Idx → M) :
    ∑ i, g i = ∑ a : Fin n, g (ix1 a) :=
  Fintype.sum_equiv ⟨fun j => j 0, ix1, fun j => (eq_ix1 j).symm, fun _ => rfl⟩ g (fun a => g (ix1 a))
    (fun j => congrArg g (eq_ix1 j))

/-- The dimension numbers of a scatter of `N` scalars into a `C × D` table, two index words per update. -/
abbrev scat2 (N C D : Nat) (wf : ScatterDims.WF ⟨2, ![C, D]⟩ ⟨2, ![N, 2]⟩ ⟨1, ![N]⟩ [] [0, 1] [0, 1] 1) :
    ScatterDims ⟨2, ![C, D]⟩ ⟨2, ![N, 2]⟩ ⟨1, ![N]⟩ where
  updateWindowDims := []
  insertedWindowDims := [0, 1]
  scatterDimsToOperandDims := [0, 1]
  indexVectorDim := 1
  wf := wf

theorem scat2_window {N C D : Nat} (wf : ScatterDims.WF ⟨2, ![C, D]⟩ ⟨2, ![N, 2]⟩ ⟨1, ![N]⟩ [] [0, 1] [0, 1] 1)
    (j : (⟨1, ![N]⟩ : Shape).Idx) (a : Fin 2) : (scat2 N C D wf).window j a = 0 := by
  unfold ScatterDims.window
  rw [dif_neg]
  fin_cases a <;> simp [Shape.kept]

theorem scat2_start0 {N C D w : Nat} (wf : ScatterDims.WF ⟨2, ![C, D]⟩ ⟨2, ![N, 2]⟩ ⟨1, ![N]⟩ [] [0, 1] [0, 1] 1)
    (idx : IVec ⟨2, ![N, 2]⟩ w) (r : Fin N) :
    (scat2 N C D wf).start (ix1 r) idx 0 = (idx (ix2 r 0)).toInt := by
  have hm : (0 : Fin 2) ∈ (scat2 N C D wf).scatterDimsToOperandDims := by
    show (0 : Fin 2) ∈ [(0 : Fin 2), 1]; simp
  unfold ScatterDims.start
  rw [dif_pos hm]
  have hsi : (scat2 N C D wf).siIdx (ix1 r) ⟨List.idxOf (0 : Fin 2) (scat2 N C D wf).scatterDimsToOperandDims,
      List.idxOf_lt_length_iff.2 hm⟩ = ix2 r 0 := by
    funext b; refine Fin.ext ?_
    match b with
    | ⟨0, _⟩ => rfl
    | ⟨1, _⟩ => rfl
  rw [hsi]

theorem scat2_start1 {N C D w : Nat} (wf : ScatterDims.WF ⟨2, ![C, D]⟩ ⟨2, ![N, 2]⟩ ⟨1, ![N]⟩ [] [0, 1] [0, 1] 1)
    (idx : IVec ⟨2, ![N, 2]⟩ w) (r : Fin N) :
    (scat2 N C D wf).start (ix1 r) idx 1 = (idx (ix2 r 1)).toInt := by
  have hm : (1 : Fin 2) ∈ (scat2 N C D wf).scatterDimsToOperandDims := by
    show (1 : Fin 2) ∈ [(0 : Fin 2), 1]; simp
  unfold ScatterDims.start
  rw [dif_pos hm]
  have hsi : (scat2 N C D wf).siIdx (ix1 r) ⟨List.idxOf (1 : Fin 2) (scat2 N C D wf).scatterDimsToOperandDims,
      List.idxOf_lt_length_iff.2 hm⟩ = ix2 r 1 := by
    funext b; refine Fin.ext ?_
    match b with
    | ⟨0, _⟩ => rfl
    | ⟨1, _⟩ => rfl
  rw [hsi]

/-- An update lands on entry `(c, d)` exactly when its two index words, read signed, are `c` and `d`. -/
theorem scat2_resultIdx {N C D w : Nat} (wf : ScatterDims.WF ⟨2, ![C, D]⟩ ⟨2, ![N, 2]⟩ ⟨1, ![N]⟩ [] [0, 1] [0, 1] 1)
    (idx : IVec ⟨2, ![N, 2]⟩ w) (r : Fin N) (c : Fin C) (d : Fin D) :
    (scat2 N C D wf).resultIdx? (ix1 r) idx = some (ix2 c d)
      ↔ (idx (ix2 r 0)).toInt = (c.val : Int) ∧ (idx (ix2 r 1)).toInt = (d.val : Int) := by
  have hsw0 : (scat2 N C D wf).start (ix1 r) idx 0 + ((scat2 N C D wf).window (ix1 r) 0 : Int)
      = (idx (ix2 r 0)).toInt := by rw [scat2_start0, scat2_window]; simp
  have hsw1 : (scat2 N C D wf).start (ix1 r) idx 1 + ((scat2 N C D wf).window (ix1 r) 1 : Int)
      = (idx (ix2 r 1)).toInt := by rw [scat2_start1, scat2_window]; simp
  unfold ScatterDims.resultIdx?
  split
  · next h =>
    rw [Option.some.injEq]
    constructor
    · intro e
      have e0 := congrArg (fun f => ((f 0 : Fin C) : Nat)) e
      have e1 := congrArg (fun f => ((f 1 : Fin D) : Nat)) e
      simp only [hsw0, hsw1] at e0 e1
      have h0 := (h 0).1
      have h1 := (h 1).1
      rw [hsw0] at h0
      rw [hsw1] at h1
      have t0 : ((idx (ix2 r 0)).toInt.toNat : Int) = (c.val : Int) := by exact_mod_cast e0
      have t1 : ((idx (ix2 r 1)).toInt.toNat : Int) = (d.val : Int) := by exact_mod_cast e1
      constructor <;> omega
    · intro e
      funext a
      refine Fin.ext ?_
      match a with
      | ⟨0, _⟩ =>
        show ((scat2 N C D wf).start (ix1 r) idx 0 + ((scat2 N C D wf).window (ix1 r) 0 : Int)).toNat = c.val
        rw [hsw0, e.1]; simp
      | ⟨1, _⟩ =>
        show ((scat2 N C D wf).start (ix1 r) idx 1 + ((scat2 N C D wf).window (ix1 r) 1 : Int)).toNat = d.val
        rw [hsw1, e.2]; simp
  · next h =>
    constructor
    · intro e; exact absurd e (by simp)
    · intro e
      exfalso; apply h
      intro a
      have hc := c.isLt
      have hd := d.isLt
      match a with
      | ⟨0, _⟩ =>
        show 0 ≤ (scat2 N C D wf).start (ix1 r) idx 0 + ((scat2 N C D wf).window (ix1 r) 0 : Int)
          ∧ (scat2 N C D wf).start (ix1 r) idx 0 + ((scat2 N C D wf).window (ix1 r) 0 : Int) < ((C : Nat) : Int)
        rw [hsw0, e.1]; constructor <;> omega
      | ⟨1, _⟩ =>
        show 0 ≤ (scat2 N C D wf).start (ix1 r) idx 1 + ((scat2 N C D wf).window (ix1 r) 1 : Int)
          ∧ (scat2 N C D wf).start (ix1 r) idx 1 + ((scat2 N C D wf).window (ix1 r) 1 : Int) < ((D : Nat) : Int)
        rw [hsw1, e.2]; constructor <;> omega

/-- A vector of `N` updates scattered into a `C × D` table by index pairs: entry `(c, f)`. -/
theorem scatterPair_apply {N C D w : ℕ} (d : ScatterDims ⟨2, ![C, D]⟩ ⟨2, ![N, 2]⟩ ⟨1, ![N]⟩)
    (x : (⟨2, ![C, D]⟩ : Shape).Idx → EReal) (idx : IVec ⟨2, ![N, 2]⟩ w) (upd : (⟨1, ![N]⟩ : Shape).Idx → EReal)
    (c : Fin C) (f : Fin D) (hit : Fin N → Prop) [DecidablePred hit]
    (hchar : ∀ r : Fin N, d.resultIdx? (ix1 r) idx = some (ix2 c f) ↔ hit r) :
    Host.scatterAdd (F := Ideal) (φ := .f32) d x idx upd (ix2 c f)
      = x (ix2 c f) + ∑ r : Fin N, if hit r then upd (ix1 r) else 0 := by
  show x (ix2 c f) + ∑ j ∈ Finset.univ.filter (fun j => d.resultIdx? j idx = some (ix2 c f)), upd j = _
  congr 1
  rw [Finset.sum_filter, sum_idx1]
  refine Finset.sum_congr rfl fun r _ => ?_
  by_cases h : hit r
  · rw [if_pos h, if_pos ((hchar r).mpr h)]
  · rw [if_neg h, if_neg fun hh => h ((hchar r).mp hh)]

end Cert.PairScatter

end
-- ==== Proof.RefPairs.lean ====
/-
  The pieces of the reference's second result, read at an entry: the gathered slot columns, the wrap of in-range
  indices, and the scatter-add of ones at index pairs as a count.
-/
import proofs.«427305_j1271310319887_2_alg».proof.Proof.RefTerm
import proofs.«427305_j1271310319887_2_alg».proof.Proof.Gen.ReferenceIdeal
import proofs.«427305_j1271310319887_2_alg».proof.Proof.Spec
import proofs.«427305_j1271310319887_2_alg».proof.Proof.LibColumnGather
import proofs.«427305_j1271310319887_2_alg».proof.Proof.LibPairScatter
import Idealize.ShloMosaic.Lib.IdealHost
import Idealize.ShloMosaic.Lib.Pipeline.Value

noncomputable section

namespace Cert.RefPairs

open Idealize.ShloMosaic Idealize.ShloMosaic.ValueIdx Cert.ReferenceIdeal Cert.ReferenceIdeal.Facts₀ Cert.RefTerm
open Cert.ColumnGather Cert.PairScatter

/-! ## The slot columns -/

/-- The start word of result column `p`: the literal table's entry `p` (the table's own wrap selects nothing). -/
theorem slotStarts_apply (lit : Fin 6 → BitVec 32) (p : Fin 6) : slotStarts lit (ix2 p (0 : Fin 1)) = lit p := by
  unfold slotStarts
  rw [broadcastInDim_apply ![0] bcast_S6_S6x1_0 _ (ix2 p (0 : Fin 1)) (ix1 p)
    (fun a => by obtain rfl : a = 0 := Subsingleton.elim _ _; rfl)]
  rw [select_apply]
  show Scalar.select 0#1 _ (lit (S6.rowMajor (ix1 p))) = lit p
  rw [select_zero]
  exact congrArg lit (Fin.ext (Shape.rowMajor_val_one _))

/-- Entry `6·n + p` of the flattened gathered columns is the table at token `n` and the slot the literal's entry `p`
    names (clamped into the four slots). -/
theorem pairCols_apply (a0 : IVec S2097152x4 32) (lit : Fin 6 → BitVec 32) (n : Fin 2097152) (p : Fin 6)
    (hj : 6 * n.val + p.val < 12582912) (k : Fin 4) (hk : min (lit p).toInt.toNat 3 = k.val) :
    pairCols a0 lit (ix1 ⟨6 * n.val + p.val, hj⟩) = a0 (ix2 n k) := by
  unfold pairCols
  rw [shapeCast_apply _ shapeCasts_S2097152x6_S12582912 (ix1 ⟨6 * n.val + p.val, hj⟩) (ix2 n p)
    (by rw [Shape.rowMajor_val_two, Shape.rowMajor_val_one]; show n.val * 6 + p.val = 6 * n.val + p.val; omega)]
  refine (slot_gather_apply (by decide) _ a0 (slotStarts lit) n p).trans ?_
  refine congrArg (fun c => a0 (ix2 n c)) (Fin.ext ?_)
  show min (slotStarts lit (ix2 p (0 : Fin 1))).toInt.toNat (4 - 1) = k.val
  rw [slotStarts_apply]
  exact hk

/-- Entry `6·n + p` of the flattened lower-slot columns is slot `lo p` of token `n`. -/
theorem pairCols_lo (a0 : IVec S2097152x4 32) (n : Fin 2097152) (p : Fin 6) (hj : 6 * n.val + p.val < 12582912) :
    pairCols a0 lit0 (ix1 ⟨6 * n.val + p.val, hj⟩) = a0 (ix2 n (Cert.Coact.lo p)) :=
  pairCols_apply a0 lit0 n p hj (Cert.Coact.lo p) (by fin_cases p <;> decide)

/-- Entry `6·n + p` of the flattened upper-slot columns is slot `hi p` of token `n`. -/
theorem pairCols_hi (a0 : IVec S2097152x4 32) (n : Fin 2097152) (p : Fin 6) (hj : 6 * n.val + p.val < 12582912) :
    pairCols a0 lit1 (ix1 ⟨6 * n.val + p.val, hj⟩) = a0 (ix2 n (Cert.Coact.hi p)) :=
  pairCols_apply a0 lit1 n p hj (Cert.Coact.hi p) (by fin_cases p <;> decide)

/-! ## Words that are expert numbers -/

/-- A word below 64 reads the same signed and unsigned. -/
theorem toInt_of_lt (w : BitVec 32) (hw : w.toNat < 64) : w.toInt = (w.toNat : Int) := by
  rw [BitVec.toInt_eq_toNat_cond]
  split <;> omega

/-- A word below 64 is not negative as a signed word. -/
theorem not_slt_zero (w : BitVec 32) (hw : w.toNat < 64) : IntOp.cmpi .slt w 0#32 = 0#1 := by
  have z0 : (0#32 : BitVec 32).toInt = 0 := by decide
  have hf : w.slt 0#32 = false := by
    simp only [BitVec.slt, toInt_of_lt w hw, z0, decide_eq_false_iff_not]
    omega
  show BitVec.ofBool (w.slt 0#32) = 0#1
  rw [hf]
  rfl

/-- A word below 64 reads, signed, as the expert number `c` exactly when it is the word of `c`. -/
theorem toInt_eq_iff (w : BitVec 32) (hw : w.toNat < 64) (c : Nat) (hc : c < 64) :
    w.toInt = (c : Int) ↔ w = BitVec.ofNat 32 c := by
  rw [toInt_of_lt w hw]
  constructor
  · intro h
    apply BitVec.eq_of_toNat_eq
    rw [BitVec.toNat_ofNat]
    omega
  · intro h
    rw [h, BitVec.toNat_ofNat]
    omega

/-- An index vector whose words are all expert numbers has no negative entry: the wrap leaves it alone. -/
theorem wrapPairs_of_range (v : IVec S12582912 32) (hv : ∀ j, (v j).toNat < 64) : wrapPairs v = v := by
  funext j
  unfold wrapPairs
  rw [select_apply]
  have hc : cmpi .slt v (broadcastInDim S12582912 ![] bcast_S_S12582912 (constantI S_ 32 0#32)) j = 0#1 :=
    not_slt_zero (v j) (hv j)
  rw [hc, select_zero]

/-! ## The index pairs -/

/-- The first word of pair `r` is entry `r` of the first vector. -/
theorem pairIdx_fst (u v : IVec S12582912 32) (r : Fin 12582912) : pairIdx u v (ix2 r (0 : Fin 2)) = u (ix1 r) := by
  unfold pairIdx
  rw [concatenate_pair_apply_left (t := S12582912x2) (s₁ := S12582912x1) (s₂ := S12582912x1) (1 : Fin 2)
    (broadcastInDim S12582912x1 ![0] bcast_S12582912_S12582912x1_0 u) (broadcastInDim S12582912x1 ![0] bcast_S12582912_S12582912x1_0 v)
    concatenates_S12582912x1_S12582912x1_S12582912x2_d1 (ix2 r (0 : Fin 2)) rfl
    (ix2 r (0 : Fin 1) : S12582912x1.Idx) (fun b => by match b with | ⟨0, _⟩ => rfl | ⟨1, _⟩ => rfl)]
  exact broadcastInDim_apply ![0] bcast_S12582912_S12582912x1_0 u (ix2 r (0 : Fin 1)) (ix1 r)
    (fun a => by obtain rfl : a = 0 := Subsingleton.elim _ _; rfl)

/-- The second word of pair `r` is entry `r` of the second vector. -/
theorem pairIdx_snd (u v : IVec S12582912 32) (r : Fin 12582912) : pairIdx u v (ix2 r (1 : Fin 2)) = v (ix1 r) := by
  unfold pairIdx
  rw [concatenate_pair_apply_right (t := S12582912x2) (s₁ := S12582912x1) (s₂ := S12582912x1) (1 : Fin 2)
    (broadcastInDim S12582912x1 ![0] bcast_S12582912_S12582912x1_0 u) (broadcastInDim S12582912x1 ![0] bcast_S12582912_S12582912x1_0 v)
    concatenates_S12582912x1_S12582912x1_S12582912x2_d1 (ix2 r (1 : Fin 2)) rfl rfl
    (ix2 r (0 : Fin 1) : S12582912x1.Idx) (fun b hb => by match b with | ⟨0, _⟩ => rfl | ⟨1, _⟩ => exact absurd rfl hb) rfl]
  exact broadcastInDim_apply ![0] bcast_S12582912_S12582912x1_0 v (ix2 r (0 : Fin 1)) (ix1 r)
    (fun a => by obtain rfl : a = 0 := Subsingleton.elim _ _; rfl)

/-- Ones scatter-added into a table at the index pairs `(u r, v r)`, all expert numbers: entry `(a, b)` grows by the
    number of pairs equal to `(a, b)`. -/
theorem scatter_pairs_entry (x : FVec Ideal S64x64 .f32) (u v : IVec S12582912 32)
    (hu : ∀ j, (u j).toNat < 64) (hv : ∀ j, (v j).toNat < 64) (a b : Fin 64) :
    Host.scatterAdd (F := Ideal) scatter_S64x64_S12582912x2_S12582912_n_01_01_1 x (pairIdx u v)
        (broadcastInDim S12582912 ![] bcast_S_S12582912 (constant (F := Ideal) S_ .f32 0x3F800000#32)) (ix2 a b)
      = (x (ix2 a b) : EReal)
        + ((∑ r : Fin 12582912, if u (ix1 r) = BitVec.ofNat 32 a.val ∧ v (ix1 r) = BitVec.ofNat 32 b.val then 1 else 0 : ℕ) : EReal) := by
  -- update r lands on (a, b) exactly when its two words are the words of a and b
  have hchar : ∀ r : Fin 12582912,
      scatter_S64x64_S12582912x2_S12582912_n_01_01_1.resultIdx? (ix1 r) (pairIdx u v) = some (ix2 a b)
        ↔ (u (ix1 r) = BitVec.ofNat 32 a.val ∧ v (ix1 r) = BitVec.ofNat 32 b.val) := fun r => by
    refine (scat2_resultIdx _ (pairIdx u v) r a b).trans ?_
    rw [pairIdx_fst, pairIdx_snd]
    exact and_congr (toInt_eq_iff _ (hu _) a.val a.isLt) (toInt_eq_iff _ (hv _) b.val b.isLt)
  refine (scatterPair_apply _ x (pairIdx u v) _ a b _ hchar).trans ?_
  refine congrArg (fun s : EReal => (x (ix2 a b) : EReal) + s) ?_
  rw [Nat.cast_sum]
  refine Finset.sum_congr rfl fun r _ => ?_
  -- every update is the constant one
  have hone : broadcastInDim S12582912 ![] bcast_S_S12582912 (constant (F := Ideal) S_ .f32 0x3F800000#32) (ix1 r) = (1 : EReal) :=
    Ideal.ofBits_one_f32
  by_cases h : u (ix1 r) = BitVec.ofNat 32 a.val ∧ v (ix1 r) = BitVec.ofNat 32 b.val
  · rw [if_pos h, if_pos h, hone, Nat.cast_one]
  · rw [if_neg h, if_neg h, Nat.cast_zero]

end Cert.RefPairs

end
-- ==== Proof.RefCoact.lean ====
/-
  The reference's second result is the table plus the ordered slot pairs in both orders: the two scatter-adds put a one
  at (word (n, lo p), word (n, hi p)) and at the transposed entry for every token n and slot pair p, and the flat pair
  index 6·n + p runs over all of them.
-/
import proofs.«427305_j1271310319887_2_alg».proof.Proof.RefTerm
import proofs.«427305_j1271310319887_2_alg».proof.Proof.Gen.ReferenceIdeal
import proofs.«427305_j1271310319887_2_alg».proof.Proof.Spec
import proofs.«427305_j1271310319887_2_alg».proof.Proof.RefPairs

noncomputable section

namespace Cert.RefCoact

open Idealize.ShloMosaic Idealize.ShloMosaic.ValueIdx Cert.ReferenceIdeal Cert.ReferenceIdeal.Facts₀ Cert.RefTerm

/-- Token and slot pair number a flat pair index uniquely: r = 6 · n + p. -/
private def pairEquiv : (Fin 2097152 × Fin 6) ≃ Fin 12582912 where
  toFun q := ⟨6 * q.1.val + q.2.val, by omega⟩
  invFun r := (⟨r.val / 6, by omega⟩, ⟨r.val % 6, by omega⟩)
  left_inv := by
    rintro ⟨n, p⟩
    refine Prod.ext ?_ ?_ <;> apply Fin.ext <;> simp only [] <;> omega
  right_inv := by
    intro r
    apply Fin.ext
    simp only []
    omega

/-- A sum over all flat pair indices is the sum over tokens and slot pairs. -/
private theorem sum_pairs (f : Fin 12582912 → ℕ) :
    ∑ r : Fin 12582912, f r = ∑ n : Fin 2097152, ∑ p : Fin 6, f (pairEquiv (n, p)) := by
  rw [← Fintype.sum_equiv pairEquiv (fun q => f (pairEquiv q)) f (fun _ => rfl), Fintype.sum_prod_type]

/-- Every entry of the lower-slot columns is a word of the index array. -/
private theorem lo_entry (a0 : IVec S2097152x4 32) (n : Fin 2097152) (p : Fin 6) :
    pairCols a0 lit0 (ix1 (pairEquiv (n, p))) = a0 (ix2 n (Cert.Coact.lo p)) :=
  Cert.RefPairs.pairCols_lo a0 n p (pairEquiv (n, p)).isLt

/-- Every entry of the upper-slot columns is a word of the index array. -/
private theorem hi_entry (a0 : IVec S2097152x4 32) (n : Fin 2097152) (p : Fin 6) :
    pairCols a0 lit1 (ix1 (pairEquiv (n, p))) = a0 (ix2 n (Cert.Coact.hi p)) :=
  Cert.RefPairs.pairCols_hi a0 n p (pairEquiv (n, p)).isLt

/-- So the lower-slot columns hold expert numbers when the index array does. -/
private theorem lo_range (a0 : IVec S2097152x4 32) (hr : ∀ j, (a0 j).toNat < 64) (j : S12582912.Idx) :
    (pairCols a0 lit0 j).toNat < 64 := by
  obtain ⟨r, rfl⟩ : ∃ r : Fin 12582912, j = ix1 r := ⟨j 0, eq_ix1 j⟩
  rw [← pairEquiv.apply_symm_apply r, lo_entry]
  exact hr _

/-- And so do the upper-slot columns. -/
private theorem hi_range (a0 : IVec S2097152x4 32) (hr : ∀ j, (a0 j).toNat < 64) (j : S12582912.Idx) :
    (pairCols a0 lit1 j).toNat < 64 := by
  obtain ⟨r, rfl⟩ : ∃ r : Fin 12582912, j = ix1 r := ⟨j 0, eq_ix1 j⟩
  rw [← pairEquiv.apply_symm_apply r, hi_entry]
  exact hr _

/-- The indicator of a conjunction is the product of the two indicators. -/
private theorem ite_and_mul (P Q : Prop) [Decidable P] [Decidable Q] :
    (if P ∧ Q then 1 else 0 : ℕ) = (if P then 1 else 0) * (if Q then 1 else 0) := by
  by_cases hP : P <;> by_cases hQ : Q <;> simp [hP, hQ]

/-- The flat pairs whose lower word is a and upper word is b, counted: the ordered pairs of the specification. -/
private theorem count_lo_hi (a0 : IVec S2097152x4 32) (a b : ℕ) :
    (∑ r : Fin 12582912, if pairCols a0 lit0 (ix1 r) = BitVec.ofNat 32 a ∧ pairCols a0 lit1 (ix1 r) = BitVec.ofNat 32 b
        then 1 else 0 : ℕ) = Cert.Coact.pair a0 a b := by
  rw [sum_pairs]
  unfold Cert.Coact.pair Cert.Coact.hit
  refine Finset.sum_congr rfl fun n _ => Finset.sum_congr rfl fun p _ => ?_
  rw [lo_entry, hi_entry, ite_and_mul]

/-- The flat pairs whose upper word is a and lower word is b, counted: the ordered pairs the other way round. -/
private theorem count_hi_lo (a0 : IVec S2097152x4 32) (a b : ℕ) :
    (∑ r : Fin 12582912, if pairCols a0 lit1 (ix1 r) = BitVec.ofNat 32 a ∧ pairCols a0 lit0 (ix1 r) = BitVec.ofNat 32 b
        then 1 else 0 : ℕ) = Cert.Coact.pair a0 b a := by
  rw [sum_pairs]
  unfold Cert.Coact.pair Cert.Coact.hit
  refine Finset.sum_congr rfl fun n _ => Finset.sum_congr rfl fun p _ => ?_
  rw [lo_entry, hi_entry, ite_and_mul, Nat.mul_comm]

theorem refCoact_eq (a0 : IVec S2097152x4 32) (a3 : FVec Ideal S64x64 .f32) (hr : ∀ j, (a0 j).toNat < 64) :
    refCoact (F := Ideal) a0 a3 = Cert.Coact.coactOut a0 a3 := by
  have hlo := lo_range a0 hr
  have hhi := hi_range a0 hr
  unfold refCoact
  rw [Cert.RefPairs.wrapPairs_of_range _ hlo, Cert.RefPairs.wrapPairs_of_range _ hhi]
  funext i
  obtain ⟨a, b, rfl⟩ : ∃ a b : Fin 64, i = ix2 a b := ⟨i 0, i 1, eq_ix2 i⟩
  rw [Cert.RefPairs.scatter_pairs_entry _ _ _ hhi hlo a b, Cert.RefPairs.scatter_pairs_entry _ _ _ hlo hhi a b,
    count_lo_hi, count_hi_lo]
  rfl

end Cert.RefCoact

end
-- ==== Proof.PreRange.lean ====
/-
  What the precondition says about the expert indices: every entry is an expert number, 0 ≤ idx < 64.
-/
import proofs.«427305_j1271310319887_2_alg».proof.Pre_finite_inputs
import Idealize.ShloMosaic.Lib.ReduceAll
import Idealize.ShloMosaic.Lib.ValueIdx

noncomputable section

namespace Cert.PreRange

open Idealize.ShloMosaic Cert.Pre_finite_inputs

/-- The scalar shape has exactly one index. -/
local instance : Subsingleton S_.Idx := ⟨fun _ _ => funext fun d => d.elim0⟩

/-- A boolean printed as a one-bit word is the word 1 exactly when it is true. -/
theorem ofBool_one (b : Bool) (h : BitVec.ofBool b = 1#1) : b = true := by
  cases b
  · exact absurd h (by decide)
  · rfl

/-- A 32-bit word w with 0 ≤ w and w < 64 as SIGNED words is below 64 as a natural number: the first comparison says
    the sign bit is clear, so the signed and the unsigned readings of w agree, and the second then bounds that reading. -/
theorem toNat_lt_of_signed (w : BitVec 32) (h0 : IntOp.cmpi .sge w 0#32 = 1#1) (h1 : IntOp.cmpi .slt w 64#32 = 1#1) :
    w.toNat < 64 := by
  have g0 : (0#32 : BitVec 32).sle w = true := ofBool_one _ h0
  have g1 : w.slt 64#32 = true := ofBool_one _ h1
  have z0 : (0#32 : BitVec 32).toInt = 0 := by decide
  have z1 : (64#32 : BitVec 32).toInt = 64 := by decide
  simp only [BitVec.sle, BitVec.slt, decide_eq_true_eq, z0, z1] at g0 g1
  have hw := w.isLt
  rw [BitVec.toInt_eq_toNat_cond] at g0 g1
  split at g0 <;> omega

/-- Under the precondition every index word, read as a natural number, is below 64 (so it is non-negative as a signed
    word and names one of the 64 experts). -/
theorem in_range [Cert.Pre_finite_inputs.Facts] {F : FTy → Type} [FloatOps F]
    (a0 : IVec S2097152x4 32) (a1 : FVec F S2097152x4 .f32) (a2 : FVec F S64 .f32) (a3 : FVec F S64x64 .f32)
    (h : Cert.Pre_finite_inputs.fn (F := F) a0 a1 a2 a3 = fun _ => 1#1) (j : S2097152x4.Idx) :
    (a0 j).toNat < 64 := by
  -- the precondition at the one index of its scalar result
  have e := congrFun h ValueIdx.ix0
  unfold Cert.Pre_finite_inputs.fn Cert.Pre_finite_inputs.fn_part1 at e
  dsimp only at e
  -- its outermost conjunction: (the three finiteness conjuncts) and (all indices in range)
  change IntOp.andi _ _ = 1#1 at e
  obtain ⟨-, hr⟩ := IntOp.andi_eq_one.1 e
  -- the reduction by and over both axes is 1: the compared pair is 1 at every index, in particular at j
  have hj := Host.reduce_andi_all _ _ _ _ _ hr j
  change IntOp.andi (IntOp.cmpi .sge (a0 j) 0#32) (IntOp.cmpi .slt (a0 j) 64#32) = 1#1 at hj
  obtain ⟨h0, h1⟩ := IntOp.andi_eq_one.1 hj
  exact toNat_lt_of_signed (a0 j) h0 h1

end Cert.PreRange

end
-- ==== Proof.lean ====
/-
  The claim: the kernel program and the reference compute the same two results over the extended reals whenever
  every float input is finite and every index word is an expert number, 0 ≤ idx < 64.

  Both programs compute, from the index words `idx (n, k)` (token n, slot k):
    * the load histogram `count e` = how many (token, slot) entries name expert e, averaged into the first result
      `ema · 0.99 + (count / 2²¹) · 0.01`;
    * the co-activation table plus, for every token and every slot pair k₁ < k₂, one at (idx (n,k₁), idx (n,k₂)) and
      one at the transposed entry: `coact + pair a b + pair b a`.
  The reference does it with scatter-adds of ones. The kernel builds per token the selection counts S[e, n] = Σ_k [idx (n,k) = e],
  accumulates the Gram matrix Σ_n S[a,n]·S[b,n] and the row sums Σ_n S[e,n] tile by tile over the two halves of the
  tokens, and the host code after it subtracts the diagonal matrix of the histogram: the law
  `gram a b = [a = b]·count a + pair a b + pair b a` makes the two agree. No finiteness is used: adding a natural
  number and taking it away again is the identity on every extended real.

  The frames of the two kernel programs are the generated frame certificates; the reference's frame is its run with the
  results dropped; the idealization rewrote nothing.
-/
import proofs.«427305_j1271310319887_2_alg».proof.Defs
import proofs.«427305_j1271310319887_2_alg».proof.Proof.Gen.Kernel
import proofs.«427305_j1271310319887_2_alg».proof.Proof.Gen.Kernel.Frame
import proofs.«427305_j1271310319887_2_alg».proof.Proof.Gen.KernelIdeal
import proofs.«427305_j1271310319887_2_alg».proof.Proof.Gen.KernelIdeal.Frame
import proofs.«427305_j1271310319887_2_alg».proof.Proof.Gen.ReferenceIdeal
import proofs.«427305_j1271310319887_2_alg».proof.Proof.Gen.Pre_finite_inputs
import proofs.«427305_j1271310319887_2_alg».proof.Proof.KernelValue
import proofs.«427305_j1271310319887_2_alg».proof.Proof.RefRun
import proofs.«427305_j1271310319887_2_alg».proof.Proof.RefValue
import proofs.«427305_j1271310319887_2_alg».proof.Proof.RefCoact
import proofs.«427305_j1271310319887_2_alg».proof.Proof.PreRange

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.RefRun.run (F := Ideal) m ρ)

/-- The ideal pass rewrote no operation. -/
theorem preserves : Cert.preserves_Kernel_KernelIdeal := trivial

/-- Both runs end at the specification's two functions of the (agreeing) argument arrays. -/
theorem algebraic : Cert.algebraic_KernelIdeal_ReferenceIdeal := by
  intro m ρ m' ρ' hpre hagree
  refine ⟨fun c => Cert.Coact.loadOut (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => Cert.Coact.coactOut (m ((c.tc : Thread Cert.KernelIdeal.nD Cert.KernelIdeal.τ).loc Cert.KernelIdeal.main_arg0))
      (m ((c.tc : Thread Cert.KernelIdeal.nD Cert.KernelIdeal.τ).loc Cert.KernelIdeal.main_arg3)),
    Cert.KernelValue.run m ρ, ?_⟩
  refine (θ_run Cert.ReferenceIdeal.defs _ _).mono (fun r h c => ?_) (Cert.RefRun.run (F := Ideal) m' ρ')
  have hr := Cert.PreRange.in_range (F := Ideal) _ _ _ _ (hpre c)
  obtain ⟨h16, h58, h0, h1, h2, h3⟩ := h c
  obtain ⟨e0, _, e2, e3⟩ := hagree c
  refine ⟨?_, ?_, h0, h1, h2, h3⟩
  · rw [h16, e0, e2]
    exact Cert.RefValue.refLoad_eq _ _ hr
  · rw [h58, e0, e3]
    exact Cert.RefCoact.refCoact_eq _ _ hr

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
